-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S20000x128 : Shape := ⟨2, ![20000, 128]⟩
abbrev S600000 : Shape := ⟨1, ![600000]⟩
abbrev S128x256 : Shape := ⟨2, ![128, 256]⟩
abbrev S128 : Shape := ⟨1, ![128]⟩
abbrev S128x128 : Shape := ⟨2, ![128, 128]⟩
abbrev S2x128x128 : Shape := ⟨3, ![2, 128, 128]⟩
abbrev S2x128 : Shape := ⟨2, ![2, 128]⟩
abbrev S64x128 : Shape := ⟨2, ![64, 128]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S600000 : S_.BroadcastsInDim S600000 (![] : Fin 0 → Fin S600000.rank)
  reducesTo_S600000_S_d0 : S600000.ReducesTo [0] S_

variable [Facts]

def fn_part5 {F : FTy → Type} [FloatOps F] (main_arg4 : IVec S600000 32) (main_v78 : IVec S_ 1) (main_v84 : IVec S_ 1) : IVec S_ 1 :=
  let main_v85 : IVec S_ 1 := andi main_v78 main_v84
  let main_c_33 : IVec S_ 32 := constantI S_ 32 0#32
  let main_v86 : IVec S600000 32 := broadcastInDim S600000 ![] bcast_S_S600000 main_c_33
  let main_v87 : IVec S600000 1 := cmpi .sge main_arg4 main_v86
  let main_c_34 : IVec S_ 32 := constantI S_ 32 19999#32
  let main_v88 : IVec S600000 32 := broadcastInDim S600000 ![] bcast_S_S600000 main_c_34
  let main_v89 : IVec S600000 1 := cmpi .sle main_arg4 main_v88
  let main_v90 : IVec S600000 1 := andi main_v87 main_v89
  let main_c_35 : IVec S_ 1 := constantI S_ 1 1#1
  let main_v91 : IVec S_ 1 := (fun x v => Host.reduce IntOp.andi x v reducesTo_S600000_S_d0 h_S_) main_v90 main_c_35
  let main_v92 : IVec S_ 1 := andi main_v85 main_v91
  main_v92

def fn_part4 {F : FTy → Type} [FloatOps F] (main_arg2 : IVec S600000 32) (main_arg4 : IVec S600000 32) (main_arg18 : FVec F S64x128 .f32) (main_arg19 : FVec F S64 .f32) (main_v63 : IVec S_ 1) (main_v67 : IVec S_ 1) : IVec S_ 1 :=
  let main_v68 : IVec S_ 1 := andi main_v63 main_v67
  let main_v69 : FVec F S64x128 .f32 := Host.absf main_arg18
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_c_30 : IVec S_ 32 := constantI S_ 32 0#32
  let main_v79 : IVec S600000 32 := broadcastInDim S600000 ![] bcast_S_S600000 main_c_30
  let main_v80 : IVec S600000 1 := cmpi .sge main_arg2 main_v79
  let main_c_31 : IVec S_ 32 := constantI S_ 32 99999#32
  let main_v81 : IVec S600000 32 := broadcastInDim S600000 ![] bcast_S_S600000 main_c_31
  let main_v82 : IVec S600000 1 := cmpi .sle main_arg2 main_v81
  let main_v83 : IVec S600000 1 := andi main_v80 main_v82
  let main_c_32 : IVec S_ 1 := constantI S_ 1 1#1
  let main_v84 : IVec S_ 1 := (fun x v => Host.reduce IntOp.andi x v reducesTo_S600000_S_d0 h_S_) main_v83 main_c_32
  fn_part5 (F := F) main_arg4 main_v78 main_v84

def fn_part3 {F : FTy → Type} [FloatOps F] (main_arg2 : IVec S600000 32) (main_arg4 : IVec S600000 32) (main_arg15 : FVec F S2x128x128 .f32) (main_arg16 : FVec F S64x128 .f32) (main_arg17 : FVec F S64 .f32) (main_arg18 : FVec F S64x128 .f32) (main_arg19 : FVec F S64 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128x128 .f32 := Host.absf main_arg15
  let main_cst_20 : FVec F S_ .f32 := constant S_ .f32 0x7F800000#32
  let main_v55 : FVec F S2x128x128 .f32 := broadcastInDim S2x128x128 ![] bcast_S_S2x128x128 main_cst_20
  let main_v56 : IVec S2x128x128 1 := cmpf .olt main_v54 main_v55
  let main_c_21 : IVec S_ 1 := constantI S_ 1 1#1
  let main_v57 : IVec S_ 1 := (fun x v => Host.reduce IntOp.andi x v reducesTo_S2x128x128_S_d0_1_2 h_S_) main_v56 main_c_21
  let main_v58 : IVec S_ 1 := andi main_v53 main_v57
  let main_v59 : FVec F S64x128 .f32 := Host.absf main_arg16
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S64 .f32 := Host.absf main_arg17
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_arg4 main_arg18 main_arg19 main_v63 main_v67

def fn_part2 {F : FTy → Type} [FloatOps F] (main_arg2 : IVec S600000 32) (main_arg4 : IVec S600000 32) (main_arg11 : FVec F S2x128 .f32) (main_arg12 : FVec F S2x128x128 .f32) (main_arg13 : FVec F S2x128x128 .f32) (main_arg14 : FVec F S2x128 .f32) (main_arg15 : FVec F S2x128x128 .f32) (main_arg16 : FVec F S64x128 .f32) (main_arg17 : FVec F S64 .f32) (main_arg18 : FVec F S64x128 .f32) (main_arg19 : FVec F S64 .f32) (main_v33 : IVec S_ 1) : IVec S_ 1 :=
  let main_v34 : FVec F S2x128 .f32 := Host.absf main_arg11
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128x128 .f32 := Host.absf main_arg12
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128x128 .f32 := Host.absf main_arg13
  let main_cst_16 : FVec F S_ .f32 := constant S_ .f32 0x7F800000#32
  let main_v45 : FVec F S2x128x128 .f32 := broadcastInDim S2x128x128 ![] bcast_S_S2x128x128 main_cst_16
  let main_v46 : IVec S2x128x128 1 := cmpf .olt main_v44 main_v45
  let main_c_17 : IVec S_ 1 := constantI S_ 1 1#1
  let main_v47 : IVec S_ 1 := (fun x v => Host.reduce IntOp.andi x v reducesTo_S2x128x128_S_d0_1_2 h_S_) main_v46 main_c_17
  let main_v48 : IVec S_ 1 := andi main_v43 main_v47
  let main_v49 : FVec F S2x128 .f32 := Host.absf main_arg14
  let main_cst_18 : FVec F S_ .f32 := constant S_ .f32 0x7F800000#32
  let main_v50 : FVec F S2x128 .f32 := broadcastInDim S2x128 ![] bcast_S_S2x128 main_cst_18
  fn_part3 (F := F) main_arg2 main_arg4 main_arg15 main_arg16 main_arg17 main_arg18 main_arg19 main_v48 main_v49 main_v50

def fn_part1 {F : FTy → Type} [FloatOps F] (main_arg2 : IVec S600000 32) (main_arg4 : IVec S600000 32) (main_arg8 : FVec F S128x128 .f32) (main_arg9 : FVec F S128 .f32) (main_arg10 : FVec F S2x128x128 .f32) (main_arg11 : FVec F S2x128 .f32) (main_arg12 : FVec F S2x128x128 .f32) (main_arg13 : FVec F S2x128x128 .f32) (main_arg14 : FVec F S2x128 .f32) (main_arg15 : FVec F S2x128x128 .f32) (main_arg16 : FVec F S64x128 .f32) (main_arg17 : FVec F S64 .f32) (main_arg18 : FVec F S64x128 .f32) (main_arg19 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x128x128 .f32 := Host.absf main_arg10
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg2 main_arg4 main_arg11 main_arg12 main_arg13 main_arg14 main_arg15 main_arg16 main_arg17 main_arg18 main_arg19 main_v33

def fn {F : FTy → Type} [FloatOps F] (main_arg0 : FVec F S100000x256 .f32) (main_arg1 : FVec F S20000x128 .f32) (main_arg2 : IVec S600000 32) (main_arg3 : IVec S600000 32) (main_arg4 : IVec S600000 32) (main_arg5 : IVec S600000 32) (main_arg6 : FVec F S128x256 .f32) (main_arg7 : FVec F S128 .f32) (main_arg8 : FVec F S128x128 .f32) (main_arg9 : FVec F S128 .f32) (main_arg10 : FVec F S2x128x128 .f32) (main_arg11 : FVec F S2x128 .f32) (main_arg12 : FVec F S2x128x128 .f32) (main_arg13 : FVec F S2x128x128 .f32) (main_arg14 : FVec F S2x128 .f32) (main_arg15 : FVec F S2x128x128 .f32) (main_arg16 : FVec F S64x128 .f32) (main_arg17 : FVec F S64 .f32) (main_arg18 : FVec F S64x128 .f32) (main_arg19 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x256 .f32 := Host.absf main_arg6
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg4 main_arg8 main_arg9 main_arg10 main_arg11 main_arg12 main_arg13 main_arg14 main_arg15 main_arg16 main_arg17 main_arg18 main_arg19 main_v13 main_v16
-- ==== Kernel.lean ====
abbrev S100000x256 : Shape := ⟨2, ![100000, 256]⟩
abbrev S20000x128 : Shape := ⟨2, ![20000, 128]⟩
abbrev S600000 : Shape := ⟨1, ![600000]⟩
abbrev S128x256 : Shape := ⟨2, ![128, 256]⟩
abbrev S128 : Shape := ⟨1, ![128]⟩
abbrev S128x128 : Shape := ⟨2, ![128, 128]⟩
abbrev S2x128x128 : Shape := ⟨3, ![2, 128, 128]⟩
abbrev S2x128 : Shape := ⟨2, ![2, 128]⟩
abbrev S64x128 : Shape := ⟨2, ![64, 128]⟩
abbrev S64 : Shape := ⟨1, ![64]⟩
abbrev S256x128 : Shape := ⟨2, ![256, 128]⟩
abbrev S100000x128 : Shape := ⟨2, ![100000, 128]⟩
abbrev S4000x256 : Shape := ⟨2, ![4000, 256]⟩
abbrev S4000x128 : Shape := ⟨2, ![4000, 128]⟩
abbrev S1x128 : Shape := ⟨2, ![1, 128]⟩
abbrev S_ : Shape := ⟨0, ![]⟩
abbrev S600000x1 : Shape := ⟨2, ![600000, 1]⟩
abbrev S20000x1 : Shape := ⟨2, ![20000, 1]⟩
abbrev S100000x1 : Shape := ⟨2, ![100000, 1]⟩
abbrev S1 : Shape := ⟨1, ![1]⟩
abbrev S1x1 : Shape := ⟨2, ![1, 1]⟩
abbrev S600000x128 : Shape := ⟨2, ![600000, 128]⟩
abbrev S1x128x128 : Shape := ⟨3, ![1, 128, 128]⟩
abbrev S4000x1 : Shape := ⟨2, ![4000, 1]⟩
abbrev S128x64 : Shape := ⟨2, ![128, 64]⟩
abbrev S20000x64 : Shape := ⟨2, ![20000, 64]⟩
abbrev S4000x64 : Shape := ⟨2, ![4000, 64]⟩
abbrev S1x64 : Shape := ⟨2, ![1, 64]⟩
abbrev S100000x64 : Shape := ⟨2, ![100000, 64]⟩

abbrev nBuf : Space → Nat
  | .hbm => 202
  | .vmem => 56
  | .smem => 0
  | _ => 0

abbrev hbmTy0_0 (i : Nat) : BufTy := match i % 128 with
  | 0 => ⟨S100000x256, .f32⟩
  | 1 => ⟨S20000x128, .f32⟩
  | 2 => ⟨S600000, .i32⟩
  | 3 => ⟨S600000, .i32⟩
  | 4 => ⟨S600000, .i32⟩
  | 5 => ⟨S600000, .i32⟩
  | 6 => ⟨S128x256, .f32⟩
  | 7 => ⟨S128, .f32⟩
  | 8 => ⟨S128x128, .f32⟩
  | 9 => ⟨S128, .f32⟩
  | 10 => ⟨S2x128x128, .f32⟩
  | 11 => ⟨S2x128, .f32⟩
  | 12 => ⟨S2x128x128, .f32⟩
  | 13 => ⟨S2x128x128, .f32⟩
  | 14 => ⟨S2x128, .f32⟩
  | 15 => ⟨S2x128x128, .f32⟩
  | 16 => ⟨S64x128, .f32⟩
  | 17 => ⟨S64, .f32⟩
  | 18 => ⟨S64x128, .f32⟩
  | 19 => ⟨S64, .f32⟩
  | 20 => ⟨S256x128, .f32⟩
  | 21 => ⟨S256x128, .bf16⟩
  | 22 => ⟨S128x128, .f32⟩
  | 23 => ⟨S128x128, .bf16⟩
  | 24 => ⟨S100000x128, .f32⟩
  | 25 => ⟨S20000x128, .f32⟩
  | 26 => ⟨S_, .f32⟩
  | 27 => ⟨S600000x1, .f32⟩
  | 28 => ⟨S_, .f32⟩
  | 29 => ⟨S20000x1, .f32⟩
  | 30 => ⟨S600000x1, .i32⟩
  | 31 => ⟨S20000x1, .f32⟩
  | 32 => ⟨S_, .f32⟩
  | 33 => ⟨S20000x1, .f32⟩
  | 34 => ⟨S20000x1, .f32⟩
  | 35 => ⟨S_, .f32⟩
  | 36 => ⟨S600000x1, .f32⟩
  | 37 => ⟨S_, .f32⟩
  | 38 => ⟨S100000x1, .f32⟩
  | 39 => ⟨S600000x1, .i32⟩
  | 40 => ⟨S100000x1, .f32⟩
  | 41 => ⟨S_, .f32⟩
  | 42 => ⟨S100000x1, .f32⟩
  | 43 => ⟨S100000x1, .f32⟩
  | 44 => ⟨S_, .f32⟩
  | 45 => ⟨S20000x1, .f32⟩
  | 46 => ⟨S20000x1, .f32⟩
  | 47 => ⟨S_, .f32⟩
  | 48 => ⟨S100000x1, .f32⟩
  | 49 => ⟨S100000x1, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S1, .i32⟩
  | 59 => ⟨S_, .i32⟩
  | 60 => ⟨S600000x1, .i32⟩
  | 61 => ⟨S600000x1, .i1⟩
  | 62 => ⟨S1x1, .i32⟩
  | 63 => ⟨S600000x1, .i32⟩
  | 64 => ⟨S600000x1, .i1⟩
  | 65 => ⟨S600000x1, .i1⟩
  | 66 => ⟨S_, .i1⟩
  | 67 => ⟨S600000, .i1⟩
  | 68 => ⟨S600000x128, .f32⟩
  | 69 => ⟨S600000x128, .i1⟩
  | 70 => ⟨S_, .f32⟩
  | 71 => ⟨S600000x128, .f32⟩
  | 72 => ⟨S600000x128, .f32⟩
  | 73 => ⟨S_, .f32⟩
  | 74 => ⟨S20000x128, .f32⟩
  | 75 => ⟨S600000x1, .i32⟩
  | 76 => ⟨S20000x128, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S1, .i32⟩
  | 86 => ⟨S_, .i32⟩
  | 87 => ⟨S600000x1, .i32⟩
  | 88 => ⟨S600000x1, .i1⟩
  | 89 => ⟨S1x1, .i32⟩
  | 90 => ⟨S600000x1, .i32⟩
  | 91 => ⟨S600000x1, .i1⟩
  | 92 => ⟨S600000x1, .i1⟩
  | 93 => ⟨S_, .i1⟩
  | 94 => ⟨S600000, .i1⟩
  | 95 => ⟨S600000x128, .f32⟩
  | 96 => ⟨S600000x128, .i1⟩
  | 97 => ⟨S_, .f32⟩
  | 98 => ⟨S600000x128, .f32⟩
  | 99 => ⟨S600000x128, .f32⟩
  | 100 => ⟨S_, .f32⟩
  | 101 => ⟨S100000x128, .f32⟩
  | 102 => ⟨S600000x1, .i32⟩
  | 103 => ⟨S100000x128, .f32⟩
  | 104 => ⟨S1x128x128, .f32⟩
  | 105 => ⟨S128x128, .f32⟩
  | 106 => ⟨S1x128x128, .f32⟩
  | 107 => ⟨S128x128, .f32⟩
  | 108 => ⟨S128x256, .f32⟩
  | 109 => ⟨S256x128, .f32⟩
  | 110 => ⟨S256x128, .bf16⟩
  | 111 => ⟨S1x128x128, .f32⟩
  | 112 => ⟨S128x128, .f32⟩
  | 113 => ⟨S1x128x128, .f32⟩
  | 114 => ⟨S128x128, .f32⟩
  | 115 => ⟨S128x256, .f32⟩
  | 116 => ⟨S256x128, .f32⟩
  | 117 => ⟨S256x128, .bf16⟩
  | 118 => ⟨S1x128, .f32⟩
  | 119 => ⟨S128, .f32⟩
  | 120 => ⟨S20000x128, .f32⟩
  | 121 => ⟨S1x128, .f32⟩
  | 122 => ⟨S128, .f32⟩
  | 123 => ⟨S100000x128, .f32⟩
  | 124 => ⟨S_, .i32⟩
  | 125 => ⟨S600000, .i32⟩
  | 126 => ⟨S600000, .i1⟩
  | 127 => ⟨S_, .i32⟩
  | _ => ⟨S100000x256, .f32⟩

abbrev hbmTy0_1 (i : Nat) : BufTy := match i % 128 with
  | 0 => ⟨S600000, .i32⟩
  | 1 => ⟨S600000, .i32⟩
  | 2 => ⟨S600000, .i32⟩
  | 3 => ⟨S600000x1, .i32⟩
  | 4 => ⟨S1, .i32⟩
  | 5 => ⟨S_, .i32⟩
  | 6 => ⟨S600000x1, .i32⟩
  | 7 => ⟨S600000x1, .i1⟩
  | 8 => ⟨S1x1, .i32⟩
  | 9 => ⟨S600000x1, .i32⟩
  | 10 => ⟨S600000x1, .i1⟩
  | 11 => ⟨S600000x1, .i1⟩
  | 12 => ⟨S_, .i1⟩
  | 13 => ⟨S600000, .i1⟩
  | 14 => ⟨S600000x128, .f32⟩
  | 15 => ⟨S600000x128, .i1⟩
  | 16 => ⟨S_, .f32⟩
  | 17 => ⟨S600000x128, .f32⟩
  | 18 => ⟨S600000x128, .f32⟩
  | 19 => ⟨S_, .f32⟩
  | 20 => ⟨S20000x128, .f32⟩
  | 21 => ⟨S600000x1, .i32⟩
  | 22 => ⟨S20000x128, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S1, .i32⟩
  | 32 => ⟨S_, .i32⟩
  | 33 => ⟨S600000x1, .i32⟩
  | 34 => ⟨S600000x1, .i1⟩
  | 35 => ⟨S1x1, .i32⟩
  | 36 => ⟨S600000x1, .i32⟩
  | 37 => ⟨S600000x1, .i1⟩
  | 38 => ⟨S600000x1, .i1⟩
  | 39 => ⟨S_, .i1⟩
  | 40 => ⟨S600000, .i1⟩
  | 41 => ⟨S600000x128, .f32⟩
  | 42 => ⟨S600000x128, .i1⟩
  | 43 => ⟨S_, .f32⟩
  | 44 => ⟨S600000x128, .f32⟩
  | 45 => ⟨S600000x128, .f32⟩
  | 46 => ⟨S_, .f32⟩
  | 47 => ⟨S100000x128, .f32⟩
  | 48 => ⟨S600000x1, .i32⟩
  | 49 => ⟨S100000x128, .f32⟩
  | 50 => ⟨S1x128x128, .f32⟩
  | 51 => ⟨S128x128, .f32⟩
  | 52 => ⟨S1x128x128, .f32⟩
  | 53 => ⟨S128x128, .f32⟩
  | 54 => ⟨S128x256, .f32⟩
  | 55 => ⟨S256x128, .f32⟩
  | 56 => ⟨S256x128, .bf16⟩
  | 57 => ⟨S1x128x128, .f32⟩
  | 58 => ⟨S128x128, .f32⟩
  | 59 => ⟨S1x128x128, .f32⟩
  | 60 => ⟨S128x128, .f32⟩
  | 61 => ⟨S128x256, .f32⟩
  | 62 => ⟨S256x128, .f32⟩
  | 63 => ⟨S256x128, .bf16⟩
  | 64 => ⟨S128x64, .f32⟩
  | 65 => ⟨S128x64, .bf16⟩
  | 66 => ⟨S128x64, .f32⟩
  | 67 => ⟨S128x64, .bf16⟩
  | 68 => ⟨S1x128, .f32⟩
  | 69 => ⟨S128, .f32⟩
  | 70 => ⟨S20000x64, .f32⟩
  | 71 => ⟨S1x128, .f32⟩
  | 72 => ⟨S128, .f32⟩
  | 73 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S256x128, .bf16⟩
  | .local _ .vmem, ⟨3, _⟩ => ⟨S128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x128, .bf16⟩
  | .local _ .vmem, ⟨9, _⟩ => ⟨S128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x1, .f32⟩
  | .local _ .vmem, ⟨15, _⟩ => ⟨S4000x1, .f32⟩
  | .local _ .vmem, ⟨16, _⟩ => ⟨S4000x128, .f32⟩
  | .local _ .vmem, ⟨17, _⟩ => ⟨S4000x128, .f32⟩
  | .local _ .vmem, ⟨18, _⟩ => ⟨S256x128, .bf16⟩
  | .local _ .vmem, ⟨19, _⟩ => ⟨S128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x1, .f32⟩
  | .local _ .vmem, ⟨25, _⟩ => ⟨S4000x1, .f32⟩
  | .local _ .vmem, ⟨26, _⟩ => ⟨S4000x128, .f32⟩
  | .local _ .vmem, ⟨27, _⟩ => ⟨S4000x128, .f32⟩
  | .local _ .vmem, ⟨28, _⟩ => ⟨S256x128, .bf16⟩
  | .local _ .vmem, ⟨29, _⟩ => ⟨S128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x1, .f32⟩
  | .local _ .vmem, ⟨35, _⟩ => ⟨S4000x1, .f32⟩
  | .local _ .vmem, ⟨36, _⟩ => ⟨S4000x128, .f32⟩
  | .local _ .vmem, ⟨37, _⟩ => ⟨S4000x128, .f32⟩
  | .local _ .vmem, ⟨38, _⟩ => ⟨S256x128, .bf16⟩
  | .local _ .vmem, ⟨39, _⟩ => ⟨S128, .f32⟩
  | .local _ .vmem, ⟨40, _⟩ => ⟨S128x64, .bf16⟩
  | .local _ .vmem, ⟨41, _⟩ => ⟨S64, .f32⟩
  | .local _ .vmem, ⟨42, _⟩ => ⟨S4000x64, .f32⟩
  | .local _ .vmem, ⟨43, _⟩ => ⟨S4000x64, .f32⟩
  | .local _ .vmem, ⟨44, _⟩ => ⟨S4000x128, .f32⟩
  | .local _ .vmem, ⟨45, _⟩ => ⟨S4000x128, .f32⟩
  | .local _ .vmem, ⟨46, _⟩ => ⟨S4000x1, .f32⟩
  | .local _ .vmem, ⟨47, _⟩ => ⟨S4000x1, .f32⟩
  | .local _ .vmem, ⟨48, _⟩ => ⟨S4000x128, .f32⟩
  | .local _ .vmem, ⟨49, _⟩ => ⟨S4000x128, .f32⟩
  | .local _ .vmem, ⟨50, _⟩ => ⟨S256x128, .bf16⟩
  | .local _ .vmem, ⟨51, _⟩ => ⟨S128, .f32⟩
  | .local _ .vmem, ⟨52, _⟩ => ⟨S128x64, .bf16⟩
  | .local _ .vmem, ⟨53, _⟩ => ⟨S64, .f32⟩
  | .local _ .vmem, ⟨54, _⟩ => ⟨S4000x64, .f32⟩
  | .local _ .vmem, ⟨55, _⟩ => ⟨S4000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_cst_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_4 : Ref sig .tc := ⟨.hbm, 41, rfl⟩
abbrev main_v16 : Ref sig .tc := ⟨.hbm, 42, rfl⟩
abbrev main_v17 : Ref sig .tc := ⟨.hbm, 43, rfl⟩
abbrev main_cst_5 : Ref sig .tc := ⟨.hbm, 44, rfl⟩
abbrev main_v18 : Ref sig .tc := ⟨.hbm, 45, rfl⟩
abbrev main_v19 : Ref sig .tc := ⟨.hbm, 46, rfl⟩
abbrev main_cst_6 : Ref sig .tc := ⟨.hbm, 47, rfl⟩
abbrev main_v20 : Ref sig .tc := ⟨.hbm, 48, rfl⟩
abbrev main_v21 : Ref sig .tc := ⟨.hbm, 49, rfl⟩
abbrev main_call0_c : Ref sig .tc := ⟨.hbm, 50, rfl⟩
abbrev main_call0_v0 : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_c_1 : Ref sig .tc := ⟨.hbm, 58, rfl⟩
abbrev main_call0_c_2 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_3 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_call0_cst : Ref sig .tc := ⟨.hbm, 70, rfl⟩
abbrev main_call0_v15 : Ref sig .tc := ⟨.hbm, 71, rfl⟩
abbrev main_v22 : Ref sig .tc := ⟨.hbm, 72, rfl⟩
abbrev main_cst_7 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_call1_c : Ref sig .tc := ⟨.hbm, 77, rfl⟩
abbrev main_call1_v0 : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_c_1 : Ref sig .tc := ⟨.hbm, 85, rfl⟩
abbrev main_call1_c_2 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_3 : Ref sig .tc := ⟨.hbm, 93, rfl⟩
abbrev main_call1_v12 : Ref sig .tc := ⟨.hbm, 94, rfl⟩
abbrev main_call1_v13 : Ref sig .tc := ⟨.hbm, 95, rfl⟩
abbrev main_call1_v14 : Ref sig .tc := ⟨.hbm, 96, rfl⟩
abbrev main_call1_cst : Ref sig .tc := ⟨.hbm, 97, rfl⟩
abbrev main_call1_v15 : Ref sig .tc := ⟨.hbm, 98, rfl⟩
abbrev main_v26 : Ref sig .tc := ⟨.hbm, 99, rfl⟩
abbrev main_cst_8 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_call2_c : Ref sig .tc := ⟨.hbm, 124, rfl⟩
abbrev main_call2_v0 : Ref sig .tc := ⟨.hbm, 125, rfl⟩
abbrev main_call2_v1 : Ref sig .tc := ⟨.hbm, 126, rfl⟩
abbrev main_call2_c_0 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_c_1 : Ref sig .tc := ⟨.hbm, 132, rfl⟩
abbrev main_call2_c_2 : Ref sig .tc := ⟨.hbm, 133, rfl⟩
abbrev main_call2_v6 : Ref sig .tc := ⟨.hbm, 134, rfl⟩
abbrev main_call2_v7 : Ref sig .tc := ⟨.hbm, 135, rfl⟩
abbrev main_call2_v8 : Ref sig .tc := ⟨.hbm, 136, rfl⟩
abbrev main_call2_v9 : Ref sig .tc := ⟨.hbm, 137, rfl⟩
abbrev main_call2_v10 : Ref sig .tc := ⟨.hbm, 138, rfl⟩
abbrev main_call2_v11 : Ref sig .tc := ⟨.hbm, 139, rfl⟩
abbrev main_call2_c_3 : Ref sig .tc := ⟨.hbm, 140, rfl⟩
abbrev main_call2_v12 : Ref sig .tc := ⟨.hbm, 141, rfl⟩
abbrev main_call2_v13 : Ref sig .tc := ⟨.hbm, 142, rfl⟩
abbrev main_call2_v14 : Ref sig .tc := ⟨.hbm, 143, rfl⟩
abbrev main_call2_cst : Ref sig .tc := ⟨.hbm, 144, rfl⟩
abbrev main_call2_v15 : Ref sig .tc := ⟨.hbm, 145, rfl⟩
abbrev main_v50 : Ref sig .tc := ⟨.hbm, 146, rfl⟩
abbrev main_cst_9 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_call3_c : Ref sig .tc := ⟨.hbm, 151, rfl⟩
abbrev main_call3_v0 : Ref sig .tc := ⟨.hbm, 152, rfl⟩
abbrev main_call3_v1 : Ref sig .tc := ⟨.hbm, 153, rfl⟩
abbrev main_call3_c_0 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_c_1 : Ref sig .tc := ⟨.hbm, 159, rfl⟩
abbrev main_call3_c_2 : Ref sig .tc := ⟨.hbm, 160, rfl⟩
abbrev main_call3_v6 : Ref sig .tc := ⟨.hbm, 161, rfl⟩
abbrev main_call3_v7 : Ref sig .tc := ⟨.hbm, 162, rfl⟩
abbrev main_call3_v8 : Ref sig .tc := ⟨.hbm, 163, rfl⟩
abbrev main_call3_v9 : Ref sig .tc := ⟨.hbm, 164, rfl⟩
abbrev main_call3_v10 : Ref sig .tc := ⟨.hbm, 165, rfl⟩
abbrev main_call3_v11 : Ref sig .tc := ⟨.hbm, 166, rfl⟩
abbrev main_call3_c_3 : Ref sig .tc := ⟨.hbm, 167, rfl⟩
abbrev main_call3_v12 : Ref sig .tc := ⟨.hbm, 168, rfl⟩
abbrev main_call3_v13 : Ref sig .tc := ⟨.hbm, 169, rfl⟩
abbrev main_call3_v14 : Ref sig .tc := ⟨.hbm, 170, rfl⟩
abbrev main_call3_cst : Ref sig .tc := ⟨.hbm, 171, rfl⟩
abbrev main_call3_v15 : Ref sig .tc := ⟨.hbm, 172, rfl⟩
abbrev main_v54 : Ref sig .tc := ⟨.hbm, 173, rfl⟩
abbrev main_cst_10 : Ref sig .tc := ⟨.hbm, 174, rfl⟩
abbrev main_v55 : Ref sig .tc := ⟨.hbm, 175, rfl⟩
abbrev main_v56 : Ref sig .tc := ⟨.hbm, 176, rfl⟩
abbrev main_v57 : Ref sig .tc := ⟨.hbm, 177, rfl⟩
abbrev main_v58 : Ref sig .tc := ⟨.hbm, 178, rfl⟩
abbrev main_v59 : Ref sig .tc := ⟨.hbm, 179, rfl⟩
abbrev main_v60 : Ref sig .tc := ⟨.hbm, 180, rfl⟩
abbrev main_v61 : Ref sig .tc := ⟨.hbm, 181, rfl⟩
abbrev main_v62 : Ref sig .tc := ⟨.hbm, 182, rfl⟩
abbrev main_v63 : Ref sig .tc := ⟨.hbm, 183, rfl⟩
abbrev main_v64 : Ref sig .tc := ⟨.hbm, 184, rfl⟩
abbrev main_v65 : Ref sig .tc := ⟨.hbm, 185, rfl⟩
abbrev main_v66 : Ref sig .tc := ⟨.hbm, 186, rfl⟩
abbrev main_v67 : Ref sig .tc := ⟨.hbm, 187, rfl⟩
abbrev main_v68 : Ref sig .tc := ⟨.hbm, 188, rfl⟩
abbrev main_v69 : Ref sig .tc := ⟨.hbm, 189, rfl⟩
abbrev main_v70 : Ref sig .tc := ⟨.hbm, 190, rfl⟩
abbrev main_v71 : Ref sig .tc := ⟨.hbm, 191, rfl⟩
abbrev main_v72 : Ref sig .tc := ⟨.hbm, 192, rfl⟩
abbrev main_v73 : Ref sig .tc := ⟨.hbm, 193, rfl⟩
abbrev main_v74 : Ref sig .tc := ⟨.hbm, 194, rfl⟩
abbrev main_v75 : Ref sig .tc := ⟨.hbm, 195, rfl⟩
abbrev main_v76 : Ref sig .tc := ⟨.hbm, 196, rfl⟩
abbrev main_v77 : Ref sig .tc := ⟨.hbm, 197, rfl⟩
abbrev main_v78 : Ref sig .tc := ⟨.hbm, 198, rfl⟩
abbrev main_v79 : Ref sig .tc := ⟨.hbm, 199, rfl⟩
abbrev main_v80 : Ref sig .tc := ⟨.hbm, 200, rfl⟩
abbrev main_v81 : Ref sig .tc := ⟨.hbm, 201, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg7_0 : Ref sig .tc := ⟨.vmem, 42, rfl⟩
abbrev cc4_stg7_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg6_0 : Ref sig .tc := ⟨.vmem, 53, rfl⟩
abbrev cc5_stg7_0 : Ref sig .tc := ⟨.vmem, 54, rfl⟩
abbrev cc5_stg7_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem5_0 : DmaSem sig := 40
abbrev cc4_sem6_0 : DmaSem sig := 41
abbrev cc4_sem7_0 : DmaSem sig := 42
abbrev cc4_sem7_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem4_0 : DmaSem sig := 51
abbrev cc5_sem5_0 : DmaSem sig := 52
abbrev cc5_sem6_0 : DmaSem sig := 53
abbrev cc5_sem7_0 : DmaSem sig := 54
abbrev cc5_sem7_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x64 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S4000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  transposes_S128x256_S256x128_1_0 : S128x256.Transposes [1, 0] S256x128
  bitsLt_bf16_f32 : FTy.bits .bf16 < FTy.bits .f32
  transposes_S128x128_S128x128_1_0 : S128x128.Transposes [1, 0] S128x128
  inb_S4000x256_S4000x256_0_0 : ∀ a, (![0, 0] : Fin 2 → Nat) a + S4000x256.size a ≤ S4000x256.size a
  h_S4000x256 : 0 < S4000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S600000x1 : S_.BroadcastsInDim S600000x1 (![] : Fin 0 → Fin S600000x1.rank)
  bcast_S_S20000x1 : S_.BroadcastsInDim S20000x1 (![] : Fin 0 → Fin S20000x1.rank)
  bcast_S600000_S600000x1_0 : S600000.BroadcastsInDim S600000x1 (![0] : Fin 1 → Fin S600000x1.rank)
  bcast_S_S100000x1 : S_.BroadcastsInDim S100000x1 (![] : Fin 0 → Fin S100000x1.rank)
  bcast_S_S600000 : S_.BroadcastsInDim S600000 (![] : Fin 0 → Fin S600000.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S20000x128 : S_.BroadcastsInDim S20000x128 (![] : Fin 0 → Fin S20000x128.rank)
  bcast_S_S100000x128 : S_.BroadcastsInDim S100000x128 (![] : Fin 0 → Fin S100000x128.rank)
  slices_S2x128x128_S1x128x128_0_0_0 : S2x128x128.Slices ![0, 0, 0] S1x128x128
  shapeCasts_S1x128x128_S128x128 : S1x128x128.ShapeCasts S128x128
  concatenates_S128x128_S128x128_S128x256_d1 : Shape.Concatenates [S128x128, S128x128] S128x256 1
  slices_S2x128_S1x128_0_0 : S2x128.Slices ![0, 0] S1x128
  shapeCasts_S1x128_S128 : S1x128.ShapeCasts S128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  concatenates_S4000x128_S4000x128_S4000x256_d1 : Shape.Concatenates [S4000x128, S4000x128] S4000x256 1
  shapeCasts_S128_S128 : S128.ShapeCasts S128
  slices_S2x128x128_S1x128x128_1_0_0 : S2x128x128.Slices ![1, 0, 0] S1x128x128
  transposes_S64x128_S128x64_1_0 : S64x128.Transposes [1, 0] S128x64
  slices_S2x128_S1x128_1_0 : S2x128.Slices ![1, 0] S1x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  scatter_S20000x1_S600000x1_S600000x1_1_0_0_1_wf : ScatterDims.WF S20000x1 S600000x1 S600000x1 [1] [0] [0] 1
  scatter_S100000x1_S600000x1_S600000x1_1_0_0_1_wf : ScatterDims.WF S100000x1 S600000x1 S600000x1 [1] [0] [0] 1
  gather_S100000x128_S600000x1_S600000x128_1_0_n_n_0_1_1128_wf : GatherDims.WF S100000x128 S600000x1 S600000x128 [1] [0] [] [0] [] 1 ![1, 128]
  scatter_S20000x128_S600000x1_S600000x128_1_0_0_1_wf : ScatterDims.WF S20000x128 S600000x1 S600000x128 [1] [0] [0] 1
  gather_S20000x128_S600000x1_S600000x128_1_0_n_n_0_1_1128_wf : GatherDims.WF S20000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S20000x128.size a
  hwx1_3 : ∀ i : grid1.Coords, EltTy.bits .f32 = 32 ∨ (Rect.block (s := S20000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S20000x1.size a
  hwx2_1 : ∀ i : grid2.Coords, EltTy.bits .f32 = 32 ∨ (Rect.block (s := S20000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S20000x128.size a
  hwx2_2 : ∀ i : grid2.Coords, EltTy.bits .f32 = 32 ∨ (Rect.block (s := S20000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .bf16 = 32 ∨ (Rect.block (s := S256x128) S256x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S20000x128.size a
  hwx2_5 : ∀ i : grid2.Coords, EltTy.bits .f32 = 32 ∨ (Rect.block (s := S20000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x128.size a ≤ S256x128.size a
  hwx3_3 : ∀ i : grid3.Coords, EltTy.bits .bf16 = 32 ∨ (Rect.block (s := S256x128) S256x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x128.size a ≤ S100000x128.size a
  hwx3_5 : ∀ i : grid3.Coords, EltTy.bits .f32 = 32 ∨ (Rect.block (s := S100000x128) S4000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S20000x128.size a
  hwx4_0 : ∀ i : grid4.Coords, EltTy.bits .f32 = 32 ∨ (Rect.block (s := S20000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S20000x1.size a
  hwx4_1 : ∀ i : grid4.Coords, EltTy.bits .f32 = 32 ∨ (Rect.block (s := S20000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S20000x128.size a
  hwx4_2 : ∀ i : grid4.Coords, EltTy.bits .f32 = 32 ∨ (Rect.block (s := S20000x128) S4000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .bf16 = 32 ∨ (Rect.block (s := S256x128) S256x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .bf16 = 32 ∨ (Rect.block (s := S128x64) S128x64.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64.size a ≤ S64.size a
  hwx4_6 : ∀ i : grid4.Coords, EltTy.bits .f32 = 32 ∨ (Rect.block (s := S64) S64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x64.size a ≤ S20000x64.size a
  hwx4_7 : ∀ i : grid4.Coords, EltTy.bits .f32 = 32 ∨ (Rect.block (s := S20000x64) S4000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S100000x1.size a
  hwx5_1 : ∀ i : grid5.Coords, EltTy.bits .f32 = 32 ∨ (Rect.block (s := S100000x1) S4000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S100000x128.size a
  hwx5_2 : ∀ i : grid5.Coords, EltTy.bits .f32 = 32 ∨ (Rect.block (s := S100000x128) S4000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x128.size a ≤ S256x128.size a
  hwx5_3 : ∀ i : grid5.Coords, EltTy.bits .bf16 = 32 ∨ (Rect.block (s := S256x128) S256x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x64.size a ≤ S128x64.size a
  hwx5_5 : ∀ i : grid5.Coords, EltTy.bits .bf16 = 32 ∨ (Rect.block (s := S128x64) S128x64.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64.size a ≤ S64.size a
  hwx5_6 : ∀ i : grid5.Coords, EltTy.bits .f32 = 32 ∨ (Rect.block (s := S64) S64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S4000x64.size a ≤ S100000x64.size a
  hwx5_7 : ∀ i : grid5.Coords, EltTy.bits .f32 = 32 ∨ (Rect.block (s := S100000x64) S4000x64.size (cc5_transform_7 i) (hinb5_7 i)).WholeWords (EltTy.packing .f32)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S20000x1_S600000x1_S600000x1_1_0_0_1 : ScatterDims S20000x1 S600000x1 S600000x1 where
  updateWindowDims := [1]
  insertedWindowDims := [0]
  scatterDimsToOperandDims := [0]
  indexVectorDim := 1
  wf := scatter_S20000x1_S600000x1_S600000x1_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v36) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v29) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v43) S256x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S4000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v53) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v46) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v64) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v77) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg19) S64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v78) S4000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v57) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v21) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v49) S4000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v71) S256x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v75) S128x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg17) S64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v81) S4000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x256 : Shape := ⟨2, ![100000, 256]⟩
abbrev S20000x128 : Shape := ⟨2, ![20000, 128]⟩
abbrev S600000 : Shape := ⟨1, ![600000]⟩
abbrev S128x256 : Shape := ⟨2, ![128, 256]⟩
abbrev S128 : Shape := ⟨1, ![128]⟩
abbrev S128x128 : Shape := ⟨2, ![128, 128]⟩
abbrev S2x128x128 : Shape := ⟨3, ![2, 128, 128]⟩
abbrev S2x128 : Shape := ⟨2, ![2, 128]⟩
abbrev S64x128 : Shape := ⟨2, ![64, 128]⟩
abbrev S64 : Shape := ⟨1, ![64]⟩
abbrev S256x128 : Shape := ⟨2, ![256, 128]⟩
abbrev S100000x128 : Shape := ⟨2, ![100000, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S20000x1 : Shape := ⟨2, ![20000, 1]⟩
abbrev S100000x1 : Shape := ⟨2, ![100000, 1]⟩
abbrev S1x128x128 : Shape := ⟨3, ![1, 128, 128]⟩
abbrev S128x64 : Shape := ⟨2, ![128, 64]⟩
abbrev S100000x64 : Shape := ⟨2, ![100000, 64]⟩
abbrev S1x64 : Shape := ⟨2, ![1, 64]⟩
abbrev S20000x64 : Shape := ⟨2, ![20000, 64]⟩

abbrev nBuf : Space → Nat
  | .hbm => 204
  | .vmem => 0
  | .smem => 0
  | _ => 0

abbrev hbmTy0_0 (i : Nat) : BufTy := match i % 128 with
  | 0 => ⟨S100000x256, .f32⟩
  | 1 => ⟨S20000x128, .f32⟩
  | 2 => ⟨S600000, .i32⟩
  | 3 => ⟨S600000, .i32⟩
  | 4 => ⟨S600000, .i32⟩
  | 5 => ⟨S600000, .i32⟩
  | 6 => ⟨S128x256, .f32⟩
  | 7 => ⟨S128, .f32⟩
  | 8 => ⟨S128x128, .f32⟩
  | 9 => ⟨S128, .f32⟩
  | 10 => ⟨S2x128x128, .f32⟩
  | 11 => ⟨S2x128, .f32⟩
  | 12 => ⟨S2x128x128, .f32⟩
  | 13 => ⟨S2x128x128, .f32⟩
  | 14 => ⟨S2x128, .f32⟩
  | 15 => ⟨S2x128x128, .f32⟩
  | 16 => ⟨S64x128, .f32⟩
  | 17 => ⟨S64, .f32⟩
  | 18 => ⟨S64x128, .f32⟩
  | 19 => ⟨S64, .f32⟩
  | 20 => ⟨S256x128, .f32⟩
  | 21 => ⟨S100000x128, .f32⟩
  | 22 => ⟨S1x128, .f32⟩
  | 23 => ⟨S100000x128, .f32⟩
  | 24 => ⟨S100000x128, .f32⟩
  | 25 => ⟨S128x128, .f32⟩
  | 26 => ⟨S20000x128, .f32⟩
  | 27 => ⟨S1x128, .f32⟩
  | 28 => ⟨S20000x128, .f32⟩
  | 29 => ⟨S20000x128, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x128, .f32⟩
  | 39 => ⟨S_, .f32⟩
  | 40 => ⟨S20000x128, .f32⟩
  | 41 => ⟨S600000x1, .i32⟩
  | 42 => ⟨S20000x128, .f32⟩
  | 43 => ⟨S_, .f32⟩
  | 44 => ⟨S600000x1, .f32⟩
  | 45 => ⟨S_, .f32⟩
  | 46 => ⟨S20000x1, .f32⟩
  | 47 => ⟨S600000x1, .i32⟩
  | 48 => ⟨S20000x1, .f32⟩
  | 49 => ⟨S_, .f32⟩
  | 50 => ⟨S20000x1, .f32⟩
  | 51 => ⟨S20000x1, .f32⟩
  | 52 => ⟨S20000x128, .f32⟩
  | 53 => ⟨S20000x128, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S_, .f32⟩
  | 64 => ⟨S100000x128, .f32⟩
  | 65 => ⟨S600000x1, .i32⟩
  | 66 => ⟨S100000x128, .f32⟩
  | 67 => ⟨S_, .f32⟩
  | 68 => ⟨S600000x1, .f32⟩
  | 69 => ⟨S_, .f32⟩
  | 70 => ⟨S100000x1, .f32⟩
  | 71 => ⟨S600000x1, .i32⟩
  | 72 => ⟨S100000x1, .f32⟩
  | 73 => ⟨S_, .f32⟩
  | 74 => ⟨S100000x1, .f32⟩
  | 75 => ⟨S100000x1, .f32⟩
  | 76 => ⟨S100000x128, .f32⟩
  | 77 => ⟨S100000x128, .f32⟩
  | 78 => ⟨S1x128x128, .f32⟩
  | 79 => ⟨S128x128, .f32⟩
  | 80 => ⟨S128x128, .f32⟩
  | 81 => ⟨S20000x128, .f32⟩
  | 82 => ⟨S1x128, .f32⟩
  | 83 => ⟨S128, .f32⟩
  | 84 => ⟨S1x128, .f32⟩
  | 85 => ⟨S20000x128, .f32⟩
  | 86 => ⟨S20000x128, .f32⟩
  | 87 => ⟨S1x128x128, .f32⟩
  | 88 => ⟨S128x128, .f32⟩
  | 89 => ⟨S128x128, .f32⟩
  | 90 => ⟨S20000x128, .f32⟩
  | 91 => ⟨S20000x128, .f32⟩
  | 92 => ⟨S1x128x128, .f32⟩
  | 93 => ⟨S128x128, .f32⟩
  | 94 => ⟨S128x128, .f32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S1x128x128, .f32⟩
  | 102 => ⟨S128x128, .f32⟩
  | 103 => ⟨S128x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S_, .f32⟩
  | 110 => ⟨S20000x128, .f32⟩
  | 111 => ⟨S20000x128, .f32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S600000x128, .f32⟩
  | 121 => ⟨S_, .f32⟩
  | 122 => ⟨S20000x128, .f32⟩
  | 123 => ⟨S600000x1, .i32⟩
  | 124 => ⟨S20000x128, .f32⟩
  | 125 => ⟨S_, .f32⟩
  | 126 => ⟨S600000x1, .f32⟩
  | 127 => ⟨S_, .f32⟩
  | _ => ⟨S100000x256, .f32⟩

abbrev hbmTy0_1 (i : Nat) : BufTy := match i % 128 with
  | 0 => ⟨S20000x1, .f32⟩
  | 1 => ⟨S600000x1, .i32⟩
  | 2 => ⟨S20000x1, .f32⟩
  | 3 => ⟨S_, .f32⟩
  | 4 => ⟨S20000x1, .f32⟩
  | 5 => ⟨S20000x1, .f32⟩
  | 6 => ⟨S20000x128, .f32⟩
  | 7 => ⟨S20000x128, .f32⟩
  | 8 => ⟨S_, .i32⟩
  | 9 => ⟨S600000, .i32⟩
  | 10 => ⟨S600000, .i1⟩
  | 11 => ⟨S_, .i32⟩
  | 12 => ⟨S600000, .i32⟩
  | 13 => ⟨S600000, .i32⟩
  | 14 => ⟨S600000, .i32⟩
  | 15 => ⟨S600000x1, .i32⟩
  | 16 => ⟨S600000x128, .f32⟩
  | 17 => ⟨S_, .f32⟩
  | 18 => ⟨S100000x128, .f32⟩
  | 19 => ⟨S600000x1, .i32⟩
  | 20 => ⟨S100000x128, .f32⟩
  | 21 => ⟨S_, .f32⟩
  | 22 => ⟨S600000x1, .f32⟩
  | 23 => ⟨S_, .f32⟩
  | 24 => ⟨S100000x1, .f32⟩
  | 25 => ⟨S600000x1, .i32⟩
  | 26 => ⟨S100000x1, .f32⟩
  | 27 => ⟨S_, .f32⟩
  | 28 => ⟨S100000x1, .f32⟩
  | 29 => ⟨S100000x1, .f32⟩
  | 30 => ⟨S100000x128, .f32⟩
  | 31 => ⟨S100000x128, .f32⟩
  | 32 => ⟨S1x128x128, .f32⟩
  | 33 => ⟨S128x128, .f32⟩
  | 34 => ⟨S128x128, .f32⟩
  | 35 => ⟨S20000x128, .f32⟩
  | 36 => ⟨S1x128, .f32⟩
  | 37 => ⟨S128, .f32⟩
  | 38 => ⟨S1x128, .f32⟩
  | 39 => ⟨S20000x128, .f32⟩
  | 40 => ⟨S20000x128, .f32⟩
  | 41 => ⟨S1x128x128, .f32⟩
  | 42 => ⟨S128x128, .f32⟩
  | 43 => ⟨S128x128, .f32⟩
  | 44 => ⟨S20000x128, .f32⟩
  | 45 => ⟨S20000x128, .f32⟩
  | 46 => ⟨S1x128x128, .f32⟩
  | 47 => ⟨S128x128, .f32⟩
  | 48 => ⟨S128x128, .f32⟩
  | 49 => ⟨S100000x128, .f32⟩
  | 50 => ⟨S1x128, .f32⟩
  | 51 => ⟨S128, .f32⟩
  | 52 => ⟨S1x128, .f32⟩
  | 53 => ⟨S100000x128, .f32⟩
  | 54 => ⟨S100000x128, .f32⟩
  | 55 => ⟨S1x128x128, .f32⟩
  | 56 => ⟨S128x128, .f32⟩
  | 57 => ⟨S128x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S_, .f32⟩
  | 64 => ⟨S20000x128, .f32⟩
  | 65 => ⟨S20000x128, .f32⟩
  | 66 => ⟨S128x64, .f32⟩
  | 67 => ⟨S100000x64, .f32⟩
  | 68 => ⟨S1x64, .f32⟩
  | 69 => ⟨S100000x64, .f32⟩
  | 70 => ⟨S100000x64, .f32⟩
  | 71 => ⟨S128x64, .f32⟩
  | 72 => ⟨S20000x64, .f32⟩
  | 73 => ⟨S1x64, .f32⟩
  | 74 => ⟨S20000x64, .f32⟩
  | 75 => ⟨S20000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_4 : Ref sig .tc := ⟨.hbm, 54, rfl⟩
abbrev main_v28 : Ref sig .tc := ⟨.hbm, 55, rfl⟩
abbrev main_v29 : Ref sig .tc := ⟨.hbm, 56, rfl⟩
abbrev main_c_5 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_cst_8 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call0_cst : Ref sig .tc := ⟨.hbm, 106, rfl⟩
abbrev main_call0_v0 : Ref sig .tc := ⟨.hbm, 107, rfl⟩
abbrev main_v74 : Ref sig .tc := ⟨.hbm, 108, rfl⟩
abbrev main_call1_cst : Ref sig .tc := ⟨.hbm, 109, rfl⟩
abbrev main_call1_v0 : Ref sig .tc := ⟨.hbm, 110, rfl⟩
abbrev main_v75 : Ref sig .tc := ⟨.hbm, 111, rfl⟩
abbrev main_c_10 : Ref sig .tc := ⟨.hbm, 112, rfl⟩
abbrev main_v76 : Ref sig .tc := ⟨.hbm, 113, rfl⟩
abbrev main_v77 : Ref sig .tc := ⟨.hbm, 114, rfl⟩
abbrev main_c_11 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_12 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_cst_13 : Ref sig .tc := ⟨.hbm, 125, rfl⟩
abbrev main_v86 : Ref sig .tc := ⟨.hbm, 126, rfl⟩
abbrev main_cst_14 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_15 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_c_16 : Ref sig .tc := ⟨.hbm, 136, rfl⟩
abbrev main_v94 : Ref sig .tc := ⟨.hbm, 137, rfl⟩
abbrev main_v95 : Ref sig .tc := ⟨.hbm, 138, rfl⟩
abbrev main_c_17 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_18 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_19 : Ref sig .tc := ⟨.hbm, 149, rfl⟩
abbrev main_v104 : Ref sig .tc := ⟨.hbm, 150, rfl⟩
abbrev main_cst_20 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_cst_21 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_call2_cst : Ref sig .tc := ⟨.hbm, 188, rfl⟩
abbrev main_call2_v0 : Ref sig .tc := ⟨.hbm, 189, rfl⟩
abbrev main_v140 : Ref sig .tc := ⟨.hbm, 190, rfl⟩
abbrev main_call3_cst : Ref sig .tc := ⟨.hbm, 191, rfl⟩
abbrev main_call3_v0 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x128_S128x128_1_0 : S128x128.Transposes [1, 0] S128x128
  bcast_S1x128_S20000x128_0_1 : S1x128.BroadcastsInDim S20000x128 (![0, 1] : Fin 2 → Fin S20000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S20000x128 : S_.BroadcastsInDim S20000x128 (![] : Fin 0 → Fin S20000x128.rank)
  bcast_S_S600000x1 : S_.BroadcastsInDim S600000x1 (![] : Fin 0 → Fin S600000x1.rank)
  bcast_S_S20000x1 : S_.BroadcastsInDim S20000x1 (![] : Fin 0 → Fin S20000x1.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S20000x64_0_1 : S1x64.BroadcastsInDim S20000x64 (![0, 1] : Fin 2 → Fin S20000x64.rank)
  dot_S100000x256_S256x128_S100000x128_1_0_0_1_n_n_wf : DotDims.WF S100000x256 S256x128 S100000x128 [1] [0] [0] [1] [] []
  dot_S20000x128_S128x128_S20000x128_1_0_0_1_n_n_wf : DotDims.WF S20000x128 S128x128 S20000x128 [1] [0] [0] [1] [] []
  gather_S100000x128_S600000x1_S600000x128_1_0_n_n_0_1_1128_wf : GatherDims.WF S100000x128 S600000x1 S600000x128 [1] [0] [] [0] [] 1 ![1, 128]
  scatter_S20000x128_S600000x1_S600000x128_1_0_0_1_wf : ScatterDims.WF S20000x128 S600000x1 S600000x128 [1] [0] [0] 1
  scatter_S20000x1_S600000x1_S600000x1_1_0_0_1_wf : ScatterDims.WF S20000x1 S600000x1 S600000x1 [1] [0] [0] 1
  gather_S20000x128_S600000x1_S600000x128_1_0_n_n_0_1_1128_wf : GatherDims.WF S20000x128 S600000x1 S600000x128 [1] [0] [] [0] [] 1 ![1, 128]
  scatter_S100000x128_S600000x1_S600000x128_1_0_0_1_wf : ScatterDims.WF S100000x128 S600000x1 S600000x128 [1] [0] [0] 1
  scatter_S100000x1_S600000x1_S600000x1_1_0_0_1_wf : ScatterDims.WF S100000x1 S600000x1 S600000x1 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S20000x128_S128x64_S20000x64_1_0_0_1_n_n_wf : DotDims.WF S20000x128 S128x64 S20000x64 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S20000x128_S600000x1_S600000x128_1_0_0_1 : ScatterDims S20000x128 S600000x1 S600000x128 where
  updateWindowDims := [1]
  insertedWindowDims := [0]
  scatterDimsToOperandDims := [0]
  indexVectorDim := 1
  wf := scatter_S20000x128_S600000x1_S600000x128_1_0_0_1_wf
def scatter_S20000x1_S600000x1_S600000x1_1_0_0_1 : ScatterDims S20000x1 S600000x1 S600000x1 where
  updateWindowDims := [1]
  insertedWindowDims := [0]
  scatterDimsToOperandDims := [0]
  indexVectorDim := 1
  wf := scatter_S20000x1_S600000x1_S600000x1_1_0_0_1_wf
def gather_S20000x128_S600000x1_S600000x128_1_0_n_n_0_1_1128 : GatherDims S20000x128 S600000x1 S600000x128 where
  offsetDims := [1]
  collapsedSliceDims := [0]
  operandBatchingDims := []
  startIndicesBatchingDims := []
  startIndexMap := [0]
  indexVectorDim := 1
  sliceSizes := ![1, 128]
  wf := gather_S20000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000x1_S600000x1_S600000x1_1_0_0_1 : ScatterDims S100000x1 S600000x1 S600000x1 where
  updateWindowDims := [1]
  insertedWindowDims := [0]
  scatterDimsToOperandDims := [0]
  indexVectorDim := 1
  wf := scatter_S100000x1_S600000x1_S600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf

class Facts : Prop extends Facts₀ where

variable [Facts]
-- ==== Proof.Take.lean ====
/-
  The kernel program gathers rows with a guard (a row of not-a-number fill where the index falls outside the table), the reference
  without one. Under the precondition every source index of the two edge lists lies inside its table, so the guard is true at every
  edge and the two gathers are the same array. This module states the guarded gather as one term, proves that equation, and
  reads the two index ranges out of the printed precondition.
-/
import proofs.«414659_j2095944040611_3_alg».proof.Defs
import proofs.«414659_j2095944040611_3_alg».proof.Proof.Gen.KernelIdeal
import proofs.«414659_j2095944040611_3_alg».proof.Proof.Gen.Pre_finite_inputs
import Idealize.ShloMosaic.Lib.ReduceAll
import Idealize.ShloMosaic.Lib.StableHlo.Predicate
import Idealize.ShloMosaic.Lib.ValueIdx

noncomputable section

namespace Cert.KSpec

open Cert.KernelIdeal Cert.KernelIdeal.Gen Idealize.ShloMosaic Idealize.ShloMosaic.TcCoe Idealize.SL.Sem Idealize.ShloMosaic.StableHlo

variable {F : FTy → Type} [FloatOps F]

/-! ### A guard that is true everywhere, and an index range read as a guard bit -/

/-- A select whose condition is 1 at every index is its first branch. -/
theorem select_of_forall_one {α : Type} {s : Shape} (c : IVec s 1) (a b : s.Idx → α) (hc : ∀ j, c j = 1#1) :
    select c a b = a := by
  funext j
  show Scalar.select (c j) (a j) (b j) = a j
  rw [hc j]
  exact if_pos rfl

/-- A broadcast of an array that is 1 everywhere is 1 everywhere. -/
theorem bcast_one {s t : Shape} (dims : Fin s.rank → Fin t.rank) (hb : s.BroadcastsInDim t dims) (x : IVec s 1)
    (hx : ∀ e, x e = 1#1) (j : t.Idx) : broadcastInDim t dims hb x j = 1#1 := hx _

/-- A left fold by `and` that starts at 1 and meets only 1s is 1. -/
theorem foldl_andi_one {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact foldl_andi_one f hf l _ (IntOp.andi_eq_one.2 ⟨h, hf a⟩)

/-- An and-reduction from 1 of an array that is 1 everywhere is 1 at every result index. -/
theorem reduce_andi_one {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  unfold Host.reduce
  exact foldl_andi_one (fun n => x (s.rowMajor.symm n)) (fun n => hx _) _ _ hi

/-- The wrap of a negative index, `select (idx < 0) (idx + n) idx`, is the index itself where no index is negative. -/
theorem wrap_eq_self {s : Shape} (idx z n : IVec s 32) (hz : ∀ e, z e = 0#32) (h0 : ∀ e, 0 ≤ (idx e).toInt) :
    select (cmpi .slt idx z) (addi idx n) idx = idx := by
  funext e
  show Scalar.select (IntOp.cmpi .slt (idx e) (z e)) (IntOp.addi (idx e) (n e)) (idx e) = idx e
  rw [hz e]
  refine if_neg ?_
  intro hc
  have hlt := IntOp.cmpi_slt.1 hc
  have h00 : (0#32 : BitVec 32).toInt = 0 := by decide
  have := h0 e
  omega

/-- A word in 0 … k, read signed, passes both tests of the guard. -/
theorem range_bit (w K : BitVec 32) (k : Int) (hK : K.toInt = k) (h : 0 ≤ w.toInt ∧ w.toInt ≤ k) :
    IntOp.andi (IntOp.cmpi .sge w 0#32) (IntOp.cmpi .sle w K) = 1#1 := by
  have h00 : (0#32 : BitVec 32).toInt = 0 := by decide
  exact IntOp.andi_eq_one.2 ⟨IntOp.cmpi_sge.2 (by rw [h00]; exact h.1), IntOp.cmpi_sle.2 (by rw [hK]; exact h.2)⟩

/-- Conversely a word that passes both tests lies in 0 … k, read signed. -/
theorem range_of_bit (w K : BitVec 32) (k : Int) (hK : K.toInt = k)
    (h : IntOp.andi (IntOp.cmpi .sge w 0#32) (IntOp.cmpi .sle w K) = 1#1) : 0 ≤ w.toInt ∧ w.toInt ≤ k := by
  have h00 : (0#32 : BitVec 32).toInt = 0 := by decide
  obtain ⟨h1, h2⟩ := IntOp.andi_eq_one.1 h
  have h1' := IntOp.cmpi_sge.1 h1
  have h2' := IntOp.cmpi_sle.1 h2
  rw [h00] at h1'
  rw [hK] at h2'
  exact ⟨h1', h2'⟩

/-- An elementwise `and` that is 1 at an index has both operands 1 there. -/
theorem andi_at {s : Shape} (a b : IVec s 1) (i : s.Idx) (h : andi a b i = 1#1) : a i = 1#1 ∧ b i = 1#1 :=
  IntOp.andi_eq_one.1 h

/-- The row index as the gather receives it: a negative index counted from the end, laid out as a column. -/
def startIdxU (idx : (⟨S600000, .i32⟩ : BufTy).Contents (Elt F)) : (⟨S600000x1, .i32⟩ : BufTy).Contents (Elt F) :=
  broadcastInDim S600000x1 ![0] bcast_S600000_S600000x1_0 (select (cmpi .slt idx (broadcastInDim S600000 ![] bcast_S_S600000 (constantI S_ 32 0#32))) (addi idx (broadcastInDim S600000 ![] bcast_S_S600000 (constantI S_ 32 100000#32))) idx)

/-- The kernel program's row gather from a table of 100000 rows: the gathered row where the (wrapped) index lies in 0 … 99999,
    and a row of not-a-number fill elsewhere. -/
def takeU (X : (⟨S100000x128, .f32⟩ : BufTy).Contents (Elt F)) (idx : (⟨S600000, .i32⟩ : BufTy).Contents (Elt F)) : (⟨S600000x128, .f32⟩ : BufTy).Contents (Elt F) :=
  select (broadcastInDim S600000x128 ![0] bcast_S600000_S600000x128_0 (Host.reduce IntOp.andi (andi (cmpi .sge (broadcastInDim S600000x1 ![0] bcast_S600000_S600000x1_0 (select (cmpi .slt idx (broadcastInDim S600000 ![] bcast_S_S600000 (constantI S_ 32 0#32))) (addi idx (broadcastInDim S600000 ![] bcast_S_S600000 (constantI S_ 32 100000#32))) idx)) (broadcastInDim S600000x1 ![] bcast_S_S600000x1 (constantI S_ 32 0#32))) (cmpi .sle (broadcastInDim S600000x1 ![0] bcast_S600000_S600000x1_0 (select (cmpi .slt idx (broadcastInDim S600000 ![] bcast_S_S600000 (constantI S_ 32 0#32))) (addi idx (broadcastInDim S600000 ![] bcast_S_S600000 (constantI S_ 32 100000#32))) idx)) (broadcastInDim S600000x1 ![0, 1] bcast_S1x1_S600000x1_0_1 (broadcastInDim S1x1 ![1] bcast_S1_S1x1_1 (constantI S1 32 99999#32))))) (constantI S_ 1 1#1) reducesTo_S600000x1_S600000_d1 h_S_)) (Host.gather gather_S100000x128_S600000x1_S600000x128_1_0_n_n_0_1_1128 X (broadcastInDim S600000x1 ![0] bcast_S600000_S600000x1_0 (select (cmpi .slt idx (broadcastInDim S600000 ![] bcast_S_S600000 (constantI S_ 32 0#32))) (addi idx (broadcastInDim S600000 ![] bcast_S_S600000 (constantI S_ 32 100000#32))) idx))) (broadcastInDim S600000x128 ![] bcast_S_S600000x128 (constant S_ .f32 0x7FC00000#32))

/-- With every index in 0 … 99999 the guard is true at every edge, and the guarded gather is the plain gather. -/
theorem takeU_eq (X : (⟨S100000x128, .f32⟩ : BufTy).Contents (Elt F)) (idx : (⟨S600000, .i32⟩ : BufTy).Contents (Elt F))
    (h : ∀ e : S600000.Idx, 0 ≤ (idx e).toInt ∧ (idx e).toInt ≤ 99999) :
    takeU X idx = Host.gather gather_S100000x128_S600000x1_S600000x128_1_0_n_n_0_1_1128 X (startIdxU idx) := by
  unfold takeU startIdxU
  have hw := wrap_eq_self idx (broadcastInDim S600000 ![] bcast_S_S600000 (constantI S_ 32 0#32))
    (broadcastInDim S600000 ![] bcast_S_S600000 (constantI S_ 32 100000#32)) (fun _ => rfl) (fun e => (h e).1)
  rw [hw]
  refine select_of_forall_one _ _ _ (fun j => bcast_one _ _ _ (fun e => reduce_andi_one _ _ _ _ rfl (fun i => ?_) e) j)
  exact range_bit _ _ 99999 (show (99999#32 : BitVec 32).toInt = 99999 by decide) (h _)

/-- The row index as the gather receives it: a negative index counted from the end, laid out as a column. -/
def startIdxP (idx : (⟨S600000, .i32⟩ : BufTy).Contents (Elt F)) : (⟨S600000x1, .i32⟩ : BufTy).Contents (Elt F) :=
  broadcastInDim S600000x1 ![0] bcast_S600000_S600000x1_0 (select (cmpi .slt idx (broadcastInDim S600000 ![] bcast_S_S600000 (constantI S_ 32 0#32))) (addi idx (broadcastInDim S600000 ![] bcast_S_S600000 (constantI S_ 32 20000#32))) idx)

/-- The kernel program's row gather from a table of 20000 rows: the gathered row where the (wrapped) index lies in 0 … 19999,
    and a row of not-a-number fill elsewhere. -/
def takeP (X : (⟨S20000x128, .f32⟩ : BufTy).Contents (Elt F)) (idx : (⟨S600000, .i32⟩ : BufTy).Contents (Elt F)) : (⟨S600000x128, .f32⟩ : BufTy).Contents (Elt F) :=
  select (broadcastInDim S600000x128 ![0] bcast_S600000_S600000x128_0 (Host.reduce IntOp.andi (andi (cmpi .sge (broadcastInDim S600000x1 ![0] bcast_S600000_S600000x1_0 (select (cmpi .slt idx (broadcastInDim S600000 ![] bcast_S_S600000 (constantI S_ 32 0#32))) (addi idx (broadcastInDim S600000 ![] bcast_S_S600000 (constantI S_ 32 20000#32))) idx)) (broadcastInDim S600000x1 ![] bcast_S_S600000x1 (constantI S_ 32 0#32))) (cmpi .sle (broadcastInDim S600000x1 ![0] bcast_S600000_S600000x1_0 (select (cmpi .slt idx (broadcastInDim S600000 ![] bcast_S_S600000 (constantI S_ 32 0#32))) (addi idx (broadcastInDim S600000 ![] bcast_S_S600000 (constantI S_ 32 20000#32))) idx)) (broadcastInDim S600000x1 ![0, 1] bcast_S1x1_S600000x1_0_1 (broadcastInDim S1x1 ![1] bcast_S1_S1x1_1 (constantI S1 32 19999#32))))) (constantI S_ 1 1#1) reducesTo_S600000x1_S600000_d1 h_S_)) (Host.gather gather_S20000x128_S600000x1_S600000x128_1_0_n_n_0_1_1128 X (broadcastInDim S600000x1 ![0] bcast_S600000_S600000x1_0 (select (cmpi .slt idx (broadcastInDim S600000 ![] bcast_S_S600000 (constantI S_ 32 0#32))) (addi idx (broadcastInDim S600000 ![] bcast_S_S600000 (constantI S_ 32 20000#32))) idx))) (broadcastInDim S600000x128 ![] bcast_S_S600000x128 (constant S_ .f32 0x7FC00000#32))

/-- With every index in 0 … 19999 the guard is true at every edge, and the guarded gather is the plain gather. -/
theorem takeP_eq (X : (⟨S20000x128, .f32⟩ : BufTy).Contents (Elt F)) (idx : (⟨S600000, .i32⟩ : BufTy).Contents (Elt F))
    (h : ∀ e : S600000.Idx, 0 ≤ (idx e).toInt ∧ (idx e).toInt ≤ 19999) :
    takeP X idx = Host.gather gather_S20000x128_S600000x1_S600000x128_1_0_n_n_0_1_1128 X (startIdxP idx) := by
  unfold takeP startIdxP
  have hw := wrap_eq_self idx (broadcastInDim S600000 ![] bcast_S_S600000 (constantI S_ 32 0#32))
    (broadcastInDim S600000 ![] bcast_S_S600000 (constantI S_ 32 20000#32)) (fun _ => rfl) (fun e => (h e).1)
  rw [hw]
  refine select_of_forall_one _ _ _ (fun j => bcast_one _ _ _ (fun e => reduce_andi_one _ _ _ _ rfl (fun i => ?_) e) j)
  exact range_bit _ _ 19999 (show (19999#32 : BitVec 32).toInt = 19999 by decide) (h _)

/-- The precondition, read at the two source-index inputs: every user-to-problem source index is a user row, every
    problem-to-user source index a problem row. -/
theorem idx_ranges_of_pre (m : (ℓ : Loc nD τ sig) → Buf (Elt Ideal) ℓ) (hpre : Cert.Pre_KernelIdeal m) (c : Dev nD) :
    (∀ e : S600000.Idx, 0 ≤ ((m ((c.tc : Thread nD τ).loc main_arg2)) e).toInt ∧ ((m ((c.tc : Thread nD τ).loc main_arg2)) e).toInt ≤ 99999)
    ∧ (∀ e : S600000.Idx, 0 ≤ ((m ((c.tc : Thread nD τ).loc main_arg4)) e).toInt ∧ ((m ((c.tc : Thread nD τ).loc main_arg4)) e).toInt ≤ 19999) := by
  have e := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at e
  -- the two outermost conjuncts of the chain are the two index tests
  obtain ⟨e', e4⟩ := andi_at _ _ _ e
  obtain ⟨-, e2⟩ := andi_at _ _ _ e'
  haveI : Subsingleton Cert.Pre_finite_inputs.S_.Idx := ⟨fun a b => funext fun d => d.elim0⟩
  refine ⟨fun i => ?_, fun i => ?_⟩
  · exact range_of_bit _ _ 99999 (show (99999#32 : BitVec 32).toInt = 99999 by decide) (Host.reduce_andi_all _ _ _ _ _ e2 i)
  · exact range_of_bit _ _ 19999 (show (19999#32 : BitVec 32).toInt = 19999 by decide) (Host.reduce_andi_all _ _ _ _ _ e4 i)

end Cert.KSpec

end
-- ==== Proof.Spec.lean ====
/-
  The targets of the bridge, as plain terms.
  `Cert.Spec`: what each of the six kernel calls has to compute, spelt with the reference program's own host operations
  (a linear layer x · Wᵀ + b; one SAGE update relu (mean · Aᵀ + b + root · Bᵀ); the update followed by an output head), each as a
  function of the arrays it is applied to. `Cert.KSpec`: the forms in which the kernel's program hands those arrays to its calls (the reciprocal count, the two
  weight matrices joined along the input axis and transposed, a transposed head weight, the guarded row gather).
-/
import proofs.«414659_j2095944040611_3_alg».proof.Proof.Gen.KernelIdeal
import proofs.«414659_j2095944040611_3_alg».proof.Proof.Gen.ReferenceIdeal

noncomputable section

namespace Cert.Spec

open Cert.ReferenceIdeal Cert.ReferenceIdeal.Gen Idealize.ShloMosaic Idealize.ShloMosaic.TcCoe Idealize.SL.Sem Idealize.ShloMosaic.StableHlo

variable {F : FTy → Type} [FloatOps F]

/-- The user input projection: x · Wᵀ + b over 100000 rows. -/
def linU (x : (⟨S100000x256, .f32⟩ : BufTy).Contents (Elt F)) (w : (⟨S128x256, .f32⟩ : BufTy).Contents (Elt F)) (b : (⟨S128, .f32⟩ : BufTy).Contents (Elt F)) : (⟨S100000x128, .f32⟩ : BufTy).Contents (Elt F) :=
  addf (Host.dotGeneral dot_S100000x256_S256x128_S100000x128_1_0_0_1_n_n none x (transpose S256x128 [1, 0] w transposes_S128x256_S256x128_1_0)) (broadcastInDim S100000x128 ![0, 1] bcast_S1x128_S100000x128_0_1 (broadcastInDim S1x128 ![1] bcast_S128_S1x128_1 b))

/-- The problem input projection: x · Wᵀ + b over 20000 rows. -/
def linP (x : (⟨S20000x128, .f32⟩ : BufTy).Contents (Elt F)) (w : (⟨S128x128, .f32⟩ : BufTy).Contents (Elt F)) (b : (⟨S128, .f32⟩ : BufTy).Contents (Elt F)) : (⟨S20000x128, .f32⟩ : BufTy).Contents (Elt F) :=
  addf (Host.dotGeneral dot_S20000x128_S128x128_S20000x128_1_0_0_1_n_n none x (transpose S128x128 [1, 0] w transposes_S128x128_S128x128_1_0)) (broadcastInDim S20000x128 ![0, 1] bcast_S1x128_S20000x128_0_1 (broadcastInDim S1x128 ![1] bcast_S128_S1x128_1 b))

/-- The mean of the neighbour sum: each row divided by its in-degree count raised to at least one. -/
def meanP (S : (⟨S20000x128, .f32⟩ : BufTy).Contents (Elt F)) (cnt : (⟨S20000x1, .f32⟩ : BufTy).Contents (Elt F)) : (⟨S20000x128, .f32⟩ : BufTy).Contents (Elt F) :=
  Host.divf S (broadcastInDim S20000x128 ![0, 1] bcast_S20000x1_S20000x128_0_1 (maximumf cnt (broadcastInDim S20000x1 ![] bcast_S_S20000x1 (constant S_ .f32 0x3F800000#32))))

/-- One SAGE update of 20000 rows: relu (mean · Aᵀ + b + root · Bᵀ). -/
def sageP (S : (⟨S20000x128, .f32⟩ : BufTy).Contents (Elt F)) (cnt : (⟨S20000x1, .f32⟩ : BufTy).Contents (Elt F)) (P : (⟨S20000x128, .f32⟩ : BufTy).Contents (Elt F)) (A B : (⟨S128x128, .f32⟩ : BufTy).Contents (Elt F)) (b : (⟨S128, .f32⟩ : BufTy).Contents (Elt F)) : (⟨S20000x128, .f32⟩ : BufTy).Contents (Elt F) :=
  maximumf (addf (addf (Host.dotGeneral dot_S20000x128_S128x128_S20000x128_1_0_0_1_n_n none (meanP S cnt) (transpose S128x128 [1, 0] A transposes_S128x128_S128x128_1_0)) (broadcastInDim S20000x128 ![0, 1] bcast_S1x128_S20000x128_0_1 (broadcastInDim S1x128 ![1] bcast_S128_S1x128_1 b))) (Host.dotGeneral dot_S20000x128_S128x128_S20000x128_1_0_0_1_n_n none P (transpose S128x128 [1, 0] B transposes_S128x128_S128x128_1_0))) (broadcastInDim S20000x128 ![] bcast_S_S20000x128 (constant S_ .f32 0x00000000#32))

/-- The SAGE update followed by the output head: (that) · Woᵀ + bo. -/
def headP (S : (⟨S20000x128, .f32⟩ : BufTy).Contents (Elt F)) (cnt : (⟨S20000x1, .f32⟩ : BufTy).Contents (Elt F)) (P : (⟨S20000x128, .f32⟩ : BufTy).Contents (Elt F)) (A B : (⟨S128x128, .f32⟩ : BufTy).Contents (Elt F)) (b : (⟨S128, .f32⟩ : BufTy).Contents (Elt F)) (Wo : (⟨S64x128, .f32⟩ : BufTy).Contents (Elt F)) (bo : (⟨S64, .f32⟩ : BufTy).Contents (Elt F)) : (⟨S20000x64, .f32⟩ : BufTy).Contents (Elt F) :=
  addf (Host.dotGeneral dot_S20000x128_S128x64_S20000x64_1_0_0_1_n_n none (sageP S cnt P A B b) (transpose S128x64 [1, 0] Wo transposes_S64x128_S128x64_1_0)) (broadcastInDim S20000x64 ![0, 1] bcast_S1x64_S20000x64_0_1 (broadcastInDim S1x64 ![1] bcast_S64_S1x64_1 bo))

/-- The mean of the neighbour sum: each row divided by its in-degree count raised to at least one. -/
def meanU (S : (⟨S100000x128, .f32⟩ : BufTy).Contents (Elt F)) (cnt : (⟨S100000x1, .f32⟩ : BufTy).Contents (Elt F)) : (⟨S100000x128, .f32⟩ : BufTy).Contents (Elt F) :=
  Host.divf S (broadcastInDim S100000x128 ![0, 1] bcast_S100000x1_S100000x128_0_1 (maximumf cnt (broadcastInDim S100000x1 ![] bcast_S_S100000x1 (constant S_ .f32 0x3F800000#32))))

/-- One SAGE update of 100000 rows: relu (mean · Aᵀ + b + root · Bᵀ). -/
def sageU (S : (⟨S100000x128, .f32⟩ : BufTy).Contents (Elt F)) (cnt : (⟨S100000x1, .f32⟩ : BufTy).Contents (Elt F)) (P : (⟨S100000x128, .f32⟩ : BufTy).Contents (Elt F)) (A B : (⟨S128x128, .f32⟩ : BufTy).Contents (Elt F)) (b : (⟨S128, .f32⟩ : BufTy).Contents (Elt F)) : (⟨S100000x128, .f32⟩ : BufTy).Contents (Elt F) :=
  maximumf (addf (addf (Host.dotGeneral dot_S100000x128_S128x128_S100000x128_1_0_0_1_n_n none (meanU S cnt) (transpose S128x128 [1, 0] A transposes_S128x128_S128x128_1_0)) (broadcastInDim S100000x128 ![0, 1] bcast_S1x128_S100000x128_0_1 (broadcastInDim S1x128 ![1] bcast_S128_S1x128_1 b))) (Host.dotGeneral dot_S100000x128_S128x128_S100000x128_1_0_0_1_n_n none P (transpose S128x128 [1, 0] B transposes_S128x128_S128x128_1_0))) (broadcastInDim S100000x128 ![] bcast_S_S100000x128 (constant S_ .f32 0x00000000#32))

/-- The SAGE update followed by the output head: (that) · Woᵀ + bo. -/
def headU (S : (⟨S100000x128, .f32⟩ : BufTy).Contents (Elt F)) (cnt : (⟨S100000x1, .f32⟩ : BufTy).Contents (Elt F)) (P : (⟨S100000x128, .f32⟩ : BufTy).Contents (Elt F)) (A B : (⟨S128x128, .f32⟩ : BufTy).Contents (Elt F)) (b : (⟨S128, .f32⟩ : BufTy).Contents (Elt F)) (Wo : (⟨S64x128, .f32⟩ : BufTy).Contents (Elt F)) (bo : (⟨S64, .f32⟩ : BufTy).Contents (Elt F)) : (⟨S100000x64, .f32⟩ : BufTy).Contents (Elt F) :=
  addf (Host.dotGeneral dot_S100000x128_S128x64_S100000x64_1_0_0_1_n_n none (sageU S cnt P A B b) (transpose S128x64 [1, 0] Wo transposes_S64x128_S128x64_1_0)) (broadcastInDim S100000x64 ![0, 1] bcast_S1x64_S100000x64_0_1 (broadcastInDim S1x64 ![1] bcast_S64_S1x64_1 bo))

end Cert.Spec

namespace Cert.KSpec

open Cert.KernelIdeal Cert.KernelIdeal.Gen Idealize.ShloMosaic Idealize.ShloMosaic.TcCoe Idealize.SL.Sem Idealize.ShloMosaic.StableHlo

variable {F : FTy → Type} [FloatOps F]

/-- The reciprocal of the in-degree count raised to at least one, as the kernel's program computes it once. -/
def invCntP (cnt : (⟨S20000x1, .f32⟩ : BufTy).Contents (Elt F)) : (⟨S20000x1, .f32⟩ : BufTy).Contents (Elt F) :=
  Host.divf (broadcastInDim S20000x1 ![] bcast_S_S20000x1 (constant S_ .f32 0x3F800000#32)) (maximumf cnt (broadcastInDim S20000x1 ![] bcast_S_S20000x1 (constant S_ .f32 0x3F800000#32)))

/-- The reciprocal of the in-degree count raised to at least one, as the kernel's program computes it once. -/
def invCntU (cnt : (⟨S100000x1, .f32⟩ : BufTy).Contents (Elt F)) : (⟨S100000x1, .f32⟩ : BufTy).Contents (Elt F) :=
  Host.divf (broadcastInDim S100000x1 ![] bcast_S_S100000x1 (constant S_ .f32 0x3F800000#32)) (maximumf cnt (broadcastInDim S100000x1 ![] bcast_S_S100000x1 (constant S_ .f32 0x3F800000#32)))

/-- Two square weight matrices joined along the input axis, transposed to (input, output) and narrowed for the matrix unit. -/
def wcat (A B : (⟨S128x128, .f32⟩ : BufTy).Contents (Elt F)) : (⟨S256x128, .bf16⟩ : BufTy).Contents (Elt F) :=
  truncf .bf16 (transpose S256x128 [1, 0] (concatenate S128x256 1 [⟨S128x128, A⟩, ⟨S128x128, B⟩] concatenates_S128x128_S128x128_S128x256_d1) transposes_S128x256_S256x128_1_0) bitsLt_bf16_f32

/-- The user projection's weight, transposed and narrowed. -/
def wtU (W : (⟨S128x256, .f32⟩ : BufTy).Contents (Elt F)) : (⟨S256x128, .bf16⟩ : BufTy).Contents (Elt F) :=
  truncf .bf16 (transpose S256x128 [1, 0] W transposes_S128x256_S256x128_1_0) bitsLt_bf16_f32

/-- The problem projection's weight, transposed and narrowed. -/
def wtP (W : (⟨S128x128, .f32⟩ : BufTy).Contents (Elt F)) : (⟨S128x128, .bf16⟩ : BufTy).Contents (Elt F) :=
  truncf .bf16 (transpose S128x128 [1, 0] W transposes_S128x128_S128x128_1_0) bitsLt_bf16_f32

/-- A head weight, transposed and narrowed. -/
def wtO (W : (⟨S64x128, .f32⟩ : BufTy).Contents (Elt F)) : (⟨S128x64, .bf16⟩ : BufTy).Contents (Elt F) :=
  truncf .bf16 (transpose S128x64 [1, 0] W transposes_S64x128_S128x64_1_0) bitsLt_bf16_f32

end Cert.KSpec

end
-- ==== Proof.Vals.lean ====
/-
  The kernel program's intermediate arrays as functions of the launch memory: the two projections, the two first-layer
  updates and the two results, each the bridge's target function (Cert.Spec) of the segment sums, counts and weight slices the
  program computes between its calls, those spelt as the kernel's program spells them (Cert.KSpec).
-/
import proofs.«414659_j2095944040611_3_alg».proof.Proof.Spec
import proofs.«414659_j2095944040611_3_alg».proof.Proof.Take

noncomputable section

namespace Cert.KSpec

open Cert.KernelIdeal Cert.KernelIdeal.Gen Idealize.ShloMosaic Idealize.ShloMosaic.TcCoe Idealize.SL.Sem Idealize.ShloMosaic.StableHlo

variable {F : FTy → Type} [FloatOps F]

/-- The in-degree of every problem: a one summed into the edge's destination row, for every edge. -/
def cntRawP (dst : (⟨S600000, .i32⟩ : BufTy).Contents (Elt F)) : (⟨S20000x1, .f32⟩ : BufTy).Contents (Elt F) :=
  Host.scatterAdd scatter_S20000x1_S600000x1_S600000x1_1_0_0_1 (broadcastInDim S20000x1 ![] bcast_S_S20000x1 (constant S_ .f32 0x00000000#32)) (broadcastInDim S600000x1 ![0] bcast_S600000_S600000x1_0 dst) (broadcastInDim S600000x1 ![] bcast_S_S600000x1 (constant S_ .f32 0x3F800000#32))

/-- The in-degree of every user. -/
def cntRawU (dst : (⟨S600000, .i32⟩ : BufTy).Contents (Elt F)) : (⟨S100000x1, .f32⟩ : BufTy).Contents (Elt F) :=
  Host.scatterAdd scatter_S100000x1_S600000x1_S600000x1_1_0_0_1 (broadcastInDim S100000x1 ![] bcast_S_S100000x1 (constant S_ .f32 0x00000000#32)) (broadcastInDim S600000x1 ![0] bcast_S600000_S600000x1_0 dst) (broadcastInDim S600000x1 ![] bcast_S_S600000x1 (constant S_ .f32 0x3F800000#32))

/-- The messages summed per destination problem. -/
def segP (dst : (⟨S600000, .i32⟩ : BufTy).Contents (Elt F)) (msg : (⟨S600000x128, .f32⟩ : BufTy).Contents (Elt F)) : (⟨S20000x128, .f32⟩ : BufTy).Contents (Elt F) :=
  Host.scatterAdd scatter_S20000x128_S600000x1_S600000x128_1_0_0_1 (broadcastInDim S20000x128 ![] bcast_S_S20000x128 (constant S_ .f32 0x00000000#32)) (broadcastInDim S600000x1 ![0] bcast_S600000_S600000x1_0 dst) msg

/-- The messages summed per destination user. -/
def segU (dst : (⟨S600000, .i32⟩ : BufTy).Contents (Elt F)) (msg : (⟨S600000x128, .f32⟩ : BufTy).Contents (Elt F)) : (⟨S100000x128, .f32⟩ : BufTy).Contents (Elt F) :=
  Host.scatterAdd scatter_S100000x128_S600000x1_S600000x128_1_0_0_1 (broadcastInDim S100000x128 ![] bcast_S_S100000x128 (constant S_ .f32 0x00000000#32)) (broadcastInDim S600000x1 ![0] bcast_S600000_S600000x1_0 dst) msg

/-- Layer 0's square weight matrix out of a stacked pair. -/
def slice0 (W : (⟨S2x128x128, .f32⟩ : BufTy).Contents (Elt F)) : (⟨S128x128, .f32⟩ : BufTy).Contents (Elt F) :=
  shapeCast S128x128 (extractStridedSlice S1x128x128 ![0, 0, 0] W slices_S2x128x128_S1x128x128_0_0_0) shapeCasts_S1x128x128_S128x128

/-- Layer 1's. -/
def slice1 (W : (⟨S2x128x128, .f32⟩ : BufTy).Contents (Elt F)) : (⟨S128x128, .f32⟩ : BufTy).Contents (Elt F) :=
  shapeCast S128x128 (extractStridedSlice S1x128x128 ![1, 0, 0] W slices_S2x128x128_S1x128x128_1_0_0) shapeCasts_S1x128x128_S128x128

/-- Layer 0's bias row out of a stacked pair. -/
def sliceb0 (b : (⟨S2x128, .f32⟩ : BufTy).Contents (Elt F)) : (⟨S128, .f32⟩ : BufTy).Contents (Elt F) :=
  shapeCast S128 (extractStridedSlice S1x128 ![0, 0] b slices_S2x128_S1x128_0_0) shapeCasts_S1x128_S128

/-- Layer 1's. -/
def sliceb1 (b : (⟨S2x128, .f32⟩ : BufTy).Contents (Elt F)) : (⟨S128, .f32⟩ : BufTy).Contents (Elt F) :=
  shapeCast S128 (extractStridedSlice S1x128 ![1, 0] b slices_S2x128_S1x128_1_0) shapeCasts_S1x128_S128

variable (m : (ℓ : Loc nD τ sig) → Buf (Elt F) ℓ) (c : Dev nD)

/-- An argument array as launched. -/
abbrev ld (b : Ref sig .tc) : Buf (Elt F) ((c.tc : Thread nD τ).loc b) := m ((c.tc : Thread nD τ).loc b)

/-- The user features after the input projection. -/
def kU0 : (⟨S100000x128, .f32⟩ : BufTy).Contents (Elt F) := Cert.Spec.linU (ld m c main_arg0) (ld m c main_arg6) (ld m c main_arg7)
/-- The problem features after the input projection. -/
def kP0 : (⟨S20000x128, .f32⟩ : BufTy).Contents (Elt F) := Cert.Spec.linP (ld m c main_arg1) (ld m c main_arg8) (ld m c main_arg9)
/-- The problem features after the first layer: users' rows gathered along the user-to-problem edges, summed per problem. -/
def kP1 : (⟨S20000x128, .f32⟩ : BufTy).Contents (Elt F) :=
  Cert.Spec.sageP (segP (ld m c main_arg3) (Host.gather gather_S100000x128_S600000x1_S600000x128_1_0_n_n_0_1_1128 (kU0 m c) (startIdxU (ld m c main_arg2)))) (cntRawP (ld m c main_arg3)) (kP0 m c) (slice0 (ld m c main_arg10)) (slice0 (ld m c main_arg12)) (sliceb0 (ld m c main_arg11))
/-- The user features after the first layer. -/
def kU1 : (⟨S100000x128, .f32⟩ : BufTy).Contents (Elt F) :=
  Cert.Spec.sageU (segU (ld m c main_arg5) (Host.gather gather_S20000x128_S600000x1_S600000x128_1_0_n_n_0_1_1128 (kP0 m c) (startIdxP (ld m c main_arg4)))) (cntRawU (ld m c main_arg5)) (kU0 m c) (slice0 (ld m c main_arg13)) (slice0 (ld m c main_arg15)) (sliceb0 (ld m c main_arg14))
/-- The problems' result: the second layer and the head. -/
def kOutP : (⟨S20000x64, .f32⟩ : BufTy).Contents (Elt F) :=
  Cert.Spec.headP (segP (ld m c main_arg3) (Host.gather gather_S100000x128_S600000x1_S600000x128_1_0_n_n_0_1_1128 (kU1 m c) (startIdxU (ld m c main_arg2)))) (cntRawP (ld m c main_arg3)) (kP1 m c) (slice1 (ld m c main_arg10)) (slice1 (ld m c main_arg12)) (sliceb1 (ld m c main_arg11)) (ld m c main_arg18) (ld m c main_arg19)
/-- The users' result. -/
def kOutU : (⟨S100000x64, .f32⟩ : BufTy).Contents (Elt F) :=
  Cert.Spec.headU (segU (ld m c main_arg5) (Host.gather gather_S20000x128_S600000x1_S600000x128_1_0_n_n_0_1_1128 (kP1 m c) (startIdxP (ld m c main_arg4)))) (cntRawU (ld m c main_arg5)) (kU1 m c) (slice1 (ld m c main_arg13)) (slice1 (ld m c main_arg15)) (sliceb1 (ld m c main_arg14)) (ld m c main_arg16) (ld m c main_arg17)

end Cert.KSpec

end
-- ==== Proof.ChainTac.lean ====
/-
  Reading a buffer back through a stretch of host operations: the fold over the stretch is computed at the buffer, one
  operation at a time, down to the contents the stretch started from.
-/
import Idealize.ShloMosaic.Lib.StableHlo.Run

namespace Cert.Bridge

open Idealize.ShloMosaic Idealize.ShloMosaic.StableHlo

/-- Read a buffer back through the host operations since the last call's exit. -/
macro "host_back" : tactic =>
  `(tactic| (after_results_simp <;> (try simp only [TRef.ofBuf, TRef.toBuf, cast_eq]) <;> (try rfl)))

end Cert.Bridge
-- ==== Proof.ChainA.lean ====
/-
  The kernel program's buffers, followed through @main up to the exit of call 3 (the first layer): the light part, every buffer but the two
  segment sums. Between two calls the host
  operations are read back as one composed term of the contents at the previous call's exit; at a call's exit its output array
  is the call's function of the arrays it was entered with, and every buffer the call does not own is as entered.
-/
import proofs.«414659_j2095944040611_3_alg».proof.Proof.Gen.KernelIdeal.Frame
import proofs.«414659_j2095944040611_3_alg».proof.Proof.Vals
import proofs.«414659_j2095944040611_3_alg».proof.Proof.ChainTac
import Idealize.ShloMosaic.Lib.StableHlo.Run

set_option maxRecDepth 16384
set_option Elab.async false

noncomputable section

namespace Cert.Bridge

open Cert.KernelIdeal Cert.KernelIdeal.Gen
open Idealize.ShloMosaic Idealize.ShloMosaic.TcCoe Idealize.SL.Sem Idealize.ShloMosaic.StableHlo
open Cert.KSpec (ld kU0 kP0 kP1 kU1 cntRawP cntRawU segP segU slice0 slice1 sliceb0 sliceb1 takeU takeP startIdxU startIdxP invCntP invCntU wcat wtU wtP wtO)

section Generic

variable {F : FTy → Type} [FloatOps F]
variable (m : (ℓ : Loc nD τ sig) → Buf (Elt F) ℓ) (ρ : Dev nD → PrngReg) (c : Dev nD)

/-! ## Before call 0, and call 1's entry -/

theorem V1_x : V1 m ρ c (Pipeline.arrRef spec0 0) = (Cert.KSpec.ld m c main_arg0) := by
  show StableHlo.after hostOps0 (W0 m ρ c) (Proc.devRef .tc main_arg0) = _
  host_back
theorem V1_w : V1 m ρ c (Pipeline.arrRef spec0 1) = wtU (Cert.KSpec.ld m c main_arg6) := by
  show StableHlo.after hostOps0 (W0 m ρ c) (Proc.devRef .tc main_v1) = _
  host_back
theorem V1_b : V1 m ρ c (Pipeline.arrRef spec0 2) = (Cert.KSpec.ld m c main_arg7) := by
  show StableHlo.after hostOps0 (W0 m ρ c) (Proc.devRef .tc main_arg7) = _
  host_back

theorem V2_x : V2 m ρ c (Pipeline.arrRef spec1 0) = (Cert.KSpec.ld m c main_arg1) := by
  show W2 m ρ c (Proc.devRef .tc main_arg1) = _
  rw [W2_of_ne m ρ c main_arg1 (by decide)]
  show StableHlo.after hostOps0 (W0 m ρ c) (Proc.devRef .tc main_arg1) = _
  host_back
theorem V2_w : V2 m ρ c (Pipeline.arrRef spec1 1) = wtP (Cert.KSpec.ld m c main_arg8) := by
  show W2 m ρ c (Proc.devRef .tc main_v3) = _
  rw [W2_of_ne m ρ c main_v3 (by decide)]
  show StableHlo.after hostOps0 (W0 m ρ c) (Proc.devRef .tc main_v3) = _
  host_back
theorem V2_b : V2 m ρ c (Pipeline.arrRef spec1 2) = (Cert.KSpec.ld m c main_arg9) := by
  show W2 m ρ c (Proc.devRef .tc main_arg9) = _
  rw [W2_of_ne m ρ c main_arg9 (by decide)]
  show StableHlo.after hostOps0 (W0 m ρ c) (Proc.devRef .tc main_arg9) = _
  host_back

/-! ## At call 1's exit: the arguments later stretches read are as launched -/

theorem W3_a2 : W3 m ρ c (Proc.devRef .tc main_arg2) = (Cert.KSpec.ld m c main_arg2) := by
  rw [W3_of_ne m ρ c main_arg2 (by decide), W2_of_ne m ρ c main_arg2 (by decide)]
  show StableHlo.after hostOps0 (W0 m ρ c) (Proc.devRef .tc main_arg2) = _
  host_back
theorem W3_a3 : W3 m ρ c (Proc.devRef .tc main_arg3) = (Cert.KSpec.ld m c main_arg3) := by
  rw [W3_of_ne m ρ c main_arg3 (by decide), W2_of_ne m ρ c main_arg3 (by decide)]
  show StableHlo.after hostOps0 (W0 m ρ c) (Proc.devRef .tc main_arg3) = _
  host_back
theorem W3_a4 : W3 m ρ c (Proc.devRef .tc main_arg4) = (Cert.KSpec.ld m c main_arg4) := by
  rw [W3_of_ne m ρ c main_arg4 (by decide), W2_of_ne m ρ c main_arg4 (by decide)]
  show StableHlo.after hostOps0 (W0 m ρ c) (Proc.devRef .tc main_arg4) = _
  host_back
theorem W3_a5 : W3 m ρ c (Proc.devRef .tc main_arg5) = (Cert.KSpec.ld m c main_arg5) := by
  rw [W3_of_ne m ρ c main_arg5 (by decide), W2_of_ne m ρ c main_arg5 (by decide)]
  show StableHlo.after hostOps0 (W0 m ρ c) (Proc.devRef .tc main_arg5) = _
  host_back
theorem W3_a10 : W3 m ρ c (Proc.devRef .tc main_arg10) = (Cert.KSpec.ld m c main_arg10) := by
  rw [W3_of_ne m ρ c main_arg10 (by decide), W2_of_ne m ρ c main_arg10 (by decide)]
  show StableHlo.after hostOps0 (W0 m ρ c) (Proc.devRef .tc main_arg10) = _
  host_back
theorem W3_a11 : W3 m ρ c (Proc.devRef .tc main_arg11) = (Cert.KSpec.ld m c main_arg11) := by
  rw [W3_of_ne m ρ c main_arg11 (by decide), W2_of_ne m ρ c main_arg11 (by decide)]
  show StableHlo.after hostOps0 (W0 m ρ c) (Proc.devRef .tc main_arg11) = _
  host_back
theorem W3_a12 : W3 m ρ c (Proc.devRef .tc main_arg12) = (Cert.KSpec.ld m c main_arg12) := by
  rw [W3_of_ne m ρ c main_arg12 (by decide), W2_of_ne m ρ c main_arg12 (by decide)]
  show StableHlo.after hostOps0 (W0 m ρ c) (Proc.devRef .tc main_arg12) = _
  host_back
theorem W3_a13 : W3 m ρ c (Proc.devRef .tc main_arg13) = (Cert.KSpec.ld m c main_arg13) := by
  rw [W3_of_ne m ρ c main_arg13 (by decide), W2_of_ne m ρ c main_arg13 (by decide)]
  show StableHlo.after hostOps0 (W0 m ρ c) (Proc.devRef .tc main_arg13) = _
  host_back
theorem W3_a14 : W3 m ρ c (Proc.devRef .tc main_arg14) = (Cert.KSpec.ld m c main_arg14) := by
  rw [W3_of_ne m ρ c main_arg14 (by decide), W2_of_ne m ρ c main_arg14 (by decide)]
  show StableHlo.after hostOps0 (W0 m ρ c) (Proc.devRef .tc main_arg14) = _
  host_back
theorem W3_a15 : W3 m ρ c (Proc.devRef .tc main_arg15) = (Cert.KSpec.ld m c main_arg15) := by
  rw [W3_of_ne m ρ c main_arg15 (by decide), W2_of_ne m ρ c main_arg15 (by decide)]
  show StableHlo.after hostOps0 (W0 m ρ c) (Proc.devRef .tc main_arg15) = _
  host_back
theorem W3_a16 : W3 m ρ c (Proc.devRef .tc main_arg16) = (Cert.KSpec.ld m c main_arg16) := by
  rw [W3_of_ne m ρ c main_arg16 (by decide), W2_of_ne m ρ c main_arg16 (by decide)]
  show StableHlo.after hostOps0 (W0 m ρ c) (Proc.devRef .tc main_arg16) = _
  host_back
theorem W3_a17 : W3 m ρ c (Proc.devRef .tc main_arg17) = (Cert.KSpec.ld m c main_arg17) := by
  rw [W3_of_ne m ρ c main_arg17 (by decide), W2_of_ne m ρ c main_arg17 (by decide)]
  show StableHlo.after hostOps0 (W0 m ρ c) (Proc.devRef .tc main_arg17) = _
  host_back
theorem W3_a18 : W3 m ρ c (Proc.devRef .tc main_arg18) = (Cert.KSpec.ld m c main_arg18) := by
  rw [W3_of_ne m ρ c main_arg18 (by decide), W2_of_ne m ρ c main_arg18 (by decide)]
  show StableHlo.after hostOps0 (W0 m ρ c) (Proc.devRef .tc main_arg18) = _
  host_back
theorem W3_a19 : W3 m ρ c (Proc.devRef .tc main_arg19) = (Cert.KSpec.ld m c main_arg19) := by
  rw [W3_of_ne m ρ c main_arg19 (by decide), W2_of_ne m ρ c main_arg19 (by decide)]
  show StableHlo.after hostOps0 (W0 m ρ c) (Proc.devRef .tc main_arg19) = _
  host_back

/-! ## Call 2's entry, read back to call 1's exit -/

theorem V8_inv : V8 m ρ c (Pipeline.arrRef spec2 1) = invCntP (cntRawP (W3 m ρ c (Proc.devRef .tc main_arg3))) := by
  show StableHlo.after hostOps2_4 (W7 m ρ c) (Proc.devRef .tc main_v19) = _
  host_back
theorem V8_root : V8 m ρ c (Pipeline.arrRef spec2 2) = W3 m ρ c (Proc.devRef .tc main_v5) := by
  show StableHlo.after hostOps2_4 (W7 m ρ c) (Proc.devRef .tc main_v5) = _
  host_back
theorem V8_wcat : V8 m ρ c (Pipeline.arrRef spec2 3) = wcat (slice0 (W3 m ρ c (Proc.devRef .tc main_arg10))) (slice0 (W3 m ρ c (Proc.devRef .tc main_arg12))) := by
  show StableHlo.after hostOps2_4 (W7 m ρ c) (Proc.devRef .tc main_v36) = _
  host_back
theorem V8_b : V8 m ρ c (Pipeline.arrRef spec2 4) = sliceb0 (W3 m ρ c (Proc.devRef .tc main_arg11)) := by
  show StableHlo.after hostOps2_4 (W7 m ρ c) (Proc.devRef .tc main_v45) = _
  host_back

/-! ## At call 2's exit, what call 3 and the later stretches read: back to call 1's exit -/

theorem W9_invU : W9 m ρ c (Proc.devRef .tc main_v21) = invCntU (cntRawU (W3 m ρ c (Proc.devRef .tc main_arg5))) := by
  rw [W9_of_ne m ρ c main_v21 (by decide)]
  show StableHlo.after hostOps2_4 (W7 m ρ c) (Proc.devRef .tc main_v21) = _
  host_back
theorem W9_invP : W9 m ρ c (Proc.devRef .tc main_v19) = invCntP (cntRawP (W3 m ρ c (Proc.devRef .tc main_arg3))) :=
  (W9_arr m ρ c 1).trans (((dat2 (V8 m ρ) c).arrAt_in 1 rfl _).trans ((A_eq2 (V8 m ρ) c 1).trans (V8_inv m ρ c)))
theorem W9_u : W9 m ρ c (Proc.devRef .tc main_v4) = W3 m ρ c (Proc.devRef .tc main_v4) := by
  rw [W9_of_ne m ρ c main_v4 (by decide)]
  show StableHlo.after hostOps2_4 (W7 m ρ c) (Proc.devRef .tc main_v4) = _
  host_back
theorem W9_wcatU : W9 m ρ c (Proc.devRef .tc main_v43) = wcat (slice0 (W3 m ρ c (Proc.devRef .tc main_arg13))) (slice0 (W3 m ρ c (Proc.devRef .tc main_arg15))) := by
  rw [W9_of_ne m ρ c main_v43 (by decide)]
  show StableHlo.after hostOps2_4 (W7 m ρ c) (Proc.devRef .tc main_v43) = _
  host_back

theorem W9_a2 : W9 m ρ c (Proc.devRef .tc main_arg2) = (Cert.KSpec.ld m c main_arg2) := by
  rw [W9_of_ne m ρ c main_arg2 (by decide)]
  show StableHlo.after hostOps2_4 (W7 m ρ c) (Proc.devRef .tc main_arg2) = _
  host_back
theorem W9_a3 : W9 m ρ c (Proc.devRef .tc main_arg3) = (Cert.KSpec.ld m c main_arg3) := by
  rw [W9_of_ne m ρ c main_arg3 (by decide)]
  show StableHlo.after hostOps2_4 (W7 m ρ c) (Proc.devRef .tc main_arg3) = _
  host_back
theorem W9_a4 : W9 m ρ c (Proc.devRef .tc main_arg4) = (Cert.KSpec.ld m c main_arg4) := by
  rw [W9_of_ne m ρ c main_arg4 (by decide)]
  show StableHlo.after hostOps2_4 (W7 m ρ c) (Proc.devRef .tc main_arg4) = _
  host_back
theorem W9_a5 : W9 m ρ c (Proc.devRef .tc main_arg5) = (Cert.KSpec.ld m c main_arg5) := by
  rw [W9_of_ne m ρ c main_arg5 (by decide)]
  show StableHlo.after hostOps2_4 (W7 m ρ c) (Proc.devRef .tc main_arg5) = _
  host_back
theorem W9_a10 : W9 m ρ c (Proc.devRef .tc main_arg10) = (Cert.KSpec.ld m c main_arg10) := by
  rw [W9_of_ne m ρ c main_arg10 (by decide)]
  show StableHlo.after hostOps2_4 (W7 m ρ c) (Proc.devRef .tc main_arg10) = _
  host_back
theorem W9_a11 : W9 m ρ c (Proc.devRef .tc main_arg11) = (Cert.KSpec.ld m c main_arg11) := by
  rw [W9_of_ne m ρ c main_arg11 (by decide)]
  show StableHlo.after hostOps2_4 (W7 m ρ c) (Proc.devRef .tc main_arg11) = _
  host_back
theorem W9_a12 : W9 m ρ c (Proc.devRef .tc main_arg12) = (Cert.KSpec.ld m c main_arg12) := by
  rw [W9_of_ne m ρ c main_arg12 (by decide)]
  show StableHlo.after hostOps2_4 (W7 m ρ c) (Proc.devRef .tc main_arg12) = _
  host_back
theorem W9_a13 : W9 m ρ c (Proc.devRef .tc main_arg13) = (Cert.KSpec.ld m c main_arg13) := by
  rw [W9_of_ne m ρ c main_arg13 (by decide)]
  show StableHlo.after hostOps2_4 (W7 m ρ c) (Proc.devRef .tc main_arg13) = _
  host_back
theorem W9_a14 : W9 m ρ c (Proc.devRef .tc main_arg14) = (Cert.KSpec.ld m c main_arg14) := by
  rw [W9_of_ne m ρ c main_arg14 (by decide)]
  show StableHlo.after hostOps2_4 (W7 m ρ c) (Proc.devRef .tc main_arg14) = _
  host_back
theorem W9_a15 : W9 m ρ c (Proc.devRef .tc main_arg15) = (Cert.KSpec.ld m c main_arg15) := by
  rw [W9_of_ne m ρ c main_arg15 (by decide)]
  show StableHlo.after hostOps2_4 (W7 m ρ c) (Proc.devRef .tc main_arg15) = _
  host_back
theorem W9_a16 : W9 m ρ c (Proc.devRef .tc main_arg16) = (Cert.KSpec.ld m c main_arg16) := by
  rw [W9_of_ne m ρ c main_arg16 (by decide)]
  show StableHlo.after hostOps2_4 (W7 m ρ c) (Proc.devRef .tc main_arg16) = _
  host_back
theorem W9_a17 : W9 m ρ c (Proc.devRef .tc main_arg17) = (Cert.KSpec.ld m c main_arg17) := by
  rw [W9_of_ne m ρ c main_arg17 (by decide)]
  show StableHlo.after hostOps2_4 (W7 m ρ c) (Proc.devRef .tc main_arg17) = _
  host_back
theorem W9_a18 : W9 m ρ c (Proc.devRef .tc main_arg18) = (Cert.KSpec.ld m c main_arg18) := by
  rw [W9_of_ne m ρ c main_arg18 (by decide)]
  show StableHlo.after hostOps2_4 (W7 m ρ c) (Proc.devRef .tc main_arg18) = _
  host_back
theorem W9_a19 : W9 m ρ c (Proc.devRef .tc main_arg19) = (Cert.KSpec.ld m c main_arg19) := by
  rw [W9_of_ne m ρ c main_arg19 (by decide)]
  show StableHlo.after hostOps2_4 (W7 m ρ c) (Proc.devRef .tc main_arg19) = _
  host_back

/-! ## Call 3's entry, read back to call 2's exit -/

theorem V10_S : V10 m ρ c (Pipeline.arrRef spec3 0) = W9 m ρ c (Proc.devRef .tc main_v29) := by
  show StableHlo.after hostOps3 (W9 m ρ c) (Proc.devRef .tc main_v29) = _
  host_back
theorem V10_inv : V10 m ρ c (Pipeline.arrRef spec3 1) = W9 m ρ c (Proc.devRef .tc main_v21) := by
  show StableHlo.after hostOps3 (W9 m ρ c) (Proc.devRef .tc main_v21) = _
  host_back
theorem V10_root : V10 m ρ c (Pipeline.arrRef spec3 2) = W9 m ρ c (Proc.devRef .tc main_v4) := by
  show StableHlo.after hostOps3 (W9 m ρ c) (Proc.devRef .tc main_v4) = _
  host_back
theorem V10_wcat : V10 m ρ c (Pipeline.arrRef spec3 3) = W9 m ρ c (Proc.devRef .tc main_v43) := by
  show StableHlo.after hostOps3 (W9 m ρ c) (Proc.devRef .tc main_v43) = _
  host_back
theorem V10_b : V10 m ρ c (Pipeline.arrRef spec3 4) = sliceb0 (W9 m ρ c (Proc.devRef .tc main_arg14)) := by
  show StableHlo.after hostOps3 (W9 m ρ c) (Proc.devRef .tc main_v48) = _
  host_back

/-! ## At call 3's exit: what is not call 3's own is as at call 2's exit -/

theorem W11_of_W9 (b : Ref sig .tc) (h3 : ∀ w, Pipeline.arrRef spec3 w ≠ b)
    (hh : ∀ op ∈ (hostOps3 : List (HloOp τ sig (Elt F))), Proc.devRef .tc b ∉ op.writes) :
    W11 m ρ c (Proc.devRef .tc b) = W9 m ρ c (Proc.devRef .tc b) :=
  (W11_of_ne m ρ c b h3).trans (StableHlo.after_of_forall_not_mem (b := Proc.devRef .tc b) _ _ hh)

end Generic

end Cert.Bridge

end
-- ==== Proof.ChainS.lean ====
/-
  The kernel program's buffers, followed through @main up to the exit of call 3 (the first layer): the two segment sums of the first layer, each a
  scatter-add of the guarded row gather, read back to call 1's exit. Between two calls the host
  operations are read back as one composed term of the contents at the previous call's exit; at a call's exit its output array
  is the call's function of the arrays it was entered with, and every buffer the call does not own is as entered.
-/
import proofs.«414659_j2095944040611_3_alg».proof.Proof.Gen.KernelIdeal.Frame
import proofs.«414659_j2095944040611_3_alg».proof.Proof.Vals
import proofs.«414659_j2095944040611_3_alg».proof.Proof.ChainTac
import Idealize.ShloMosaic.Lib.StableHlo.Run

set_option maxRecDepth 16384
set_option Elab.async false

noncomputable section

namespace Cert.Bridge

open Cert.KernelIdeal Cert.KernelIdeal.Gen
open Idealize.ShloMosaic Idealize.ShloMosaic.TcCoe Idealize.SL.Sem Idealize.ShloMosaic.StableHlo
open Cert.KSpec (ld kU0 kP0 kP1 kU1 cntRawP cntRawU segP segU slice0 slice1 sliceb0 sliceb1 takeU takeP startIdxU startIdxP invCntP invCntU wcat wtU wtP wtO)

section Generic

variable {F : FTy → Type} [FloatOps F]
variable (m : (ℓ : Loc nD τ sig) → Buf (Elt F) ℓ) (ρ : Dev nD → PrngReg) (c : Dev nD)

theorem V8_S : V8 m ρ c (Pipeline.arrRef spec2 0) = segP (W3 m ρ c (Proc.devRef .tc main_arg3)) (takeU (W3 m ρ c (Proc.devRef .tc main_v4)) (W3 m ρ c (Proc.devRef .tc main_arg2))) := by
  show StableHlo.after hostOps2_4 (W7 m ρ c) (Proc.devRef .tc main_v25) = _
  host_back

theorem W9_sumU : W9 m ρ c (Proc.devRef .tc main_v29) = segU (W3 m ρ c (Proc.devRef .tc main_arg5)) (takeP (W3 m ρ c (Proc.devRef .tc main_v5)) (W3 m ρ c (Proc.devRef .tc main_arg4))) := by
  rw [W9_of_ne m ρ c main_v29 (by decide)]
  show StableHlo.after hostOps2_4 (W7 m ρ c) (Proc.devRef .tc main_v29) = _
  host_back

end Generic

end Cert.Bridge

end
-- ==== Proof.RegLin.lean ====
/-
  The two input projections. Each call tiles its rows in blocks of 4000; a block's result is the block of rows times the
  (input, output) weight plus the bias row, and the blocks fill the whole output, so the array the call leaves is x · Wᵀ + b.
-/
import proofs.«414659_j2095944040611_3_alg».proof.Proof.Gen.KernelIdeal.Frame
import proofs.«414659_j2095944040611_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## Call 0: the block's result at an index -/

theorem mm0_lhs_0 (i : Cert.KernelIdeal.S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin Cert.KernelIdeal.S4000x256.rank) ∈ dot_S4000x256_S256x128_S4000x128_1_0_0_1_n_n.lhsBatch by decide), dif_pos (show (0 : Fin Cert.KernelIdeal.S4000x256.rank) ∈ dot_S4000x256_S256x128_S4000x128_1_0_0_1_n_n.lhsNonContracting by decide)]
  rfl
theorem mm0_lhs_1 (i : Cert.KernelIdeal.S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem mm0_rhs_0 (i : Cert.KernelIdeal.S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem mm0_rhs_1 (i : Cert.KernelIdeal.S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin Cert.KernelIdeal.S256x128.rank) ∈ dot_S4000x256_S256x128_S4000x128_1_0_0_1_n_n.rhsBatch by decide), dif_pos (show (1 : Fin Cert.KernelIdeal.S256x128.rank) ∈ dot_S4000x256_S256x128_S4000x128_1_0_0_1_n_n.rhsNonContracting by decide)]
  rfl

/-- The block's matrix product into the zero splat, at row r and column j: the sum over the 256 input features. -/
theorem mm0_apply (a : FVec Ideal Cert.KernelIdeal.S4000x256 .bf16) (w : FVec Ideal Cert.KernelIdeal.S256x128 .bf16) (r : Fin 4000) (j : Fin 128) :
    matmul dot_S4000x256_S256x128_S4000x128_1_0_0_1_n_n none a w (constant Cert.KernelIdeal.S4000x128 .f32 0x00000000#32) (ix2 r j)
      = ∑ k : Fin 256, a (ix2 r k) * w (ix2 k j) := by
  simp only [matmul]
  rw [Ideal.matmul_constant_zero_apply, ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 r j) ((contrEquiv1 dot_S4000x256_S256x128_S4000x128_1_0_0_1_n_n 256 rfl rfl).symm k) = ix2 r k := funext fun a => Fin.ext (by
    match a with
    | ⟨0, _⟩ => exact mm0_lhs_0 _ _
    | ⟨1, _⟩ => exact (mm0_lhs_1 _ _).trans hk)
  have er : dot_S4000x256_S256x128_S4000x128_1_0_0_1_n_n.rhsIdx (ix2 r j) ((contrEquiv1 dot_S4000x256_S256x128_S4000x128_1_0_0_1_n_n 256 rfl rfl).symm k) = ix2 k j := funext fun a => Fin.ext (by
    match a with
    | ⟨0, _⟩ => exact (mm0_rhs_0 _ _).trans hk
    | ⟨1, _⟩ => exact mm0_rhs_1 _ _)
  rw [el, er]

/-- The body's stored value at row r and column j of the block: the row times the (input, output) weight's column, plus the bias. -/
theorem pay0_apply (v0 : Vec Ideal Cert.KernelIdeal.S4000x256 .f32) (v2 : Vec Ideal Cert.KernelIdeal.S256x128 .bf16) (v5 : Vec Ideal Cert.KernelIdeal.S128 .f32) (r : Fin 4000) (j : Fin 128) :
    k0_pay1 (F := Ideal) v0 v2 v5 (ix2 r j) = (∑ k : Fin 256, v0 (ix2 r k) * v2 (ix2 k j)) + v5 (ix1 j) := by
  unfold k0_pay1
  refine (addf_apply _ _ (ix2 r j)).trans ?_
  refine congrArg₂ (· + ·) ?_ ?_
  · refine (mm0_apply _ _ r j).trans ?_
    refine Finset.sum_congr rfl fun k _ => ?_
    rw [shapeCast_self]
    rfl
  · refine (broadcastTo_1b_ab_apply _ _ r j).trans ?_
    exact shapeCast_a_1a_apply v5 _ 0 j

/-! ## Call 0: from the blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- Row r of x times column j of the (input, output) weight, plus the bias at j. -/
def lin0At (x : FVec Ideal Cert.KernelIdeal.S100000x256 .f32) (wt : FVec Ideal Cert.KernelIdeal.S256x128 .bf16) (b : FVec Ideal Cert.KernelIdeal.S128 .f32)
    (r : Fin 100000) (j : Fin 128) : EReal :=
  (∑ k : Fin 256, x (ix2 r k) * wt (ix2 k j)) + b (ix1 j)

/-- The array call 0 leaves: x · Wt + b at every index. -/
def lin0G (x : FVec Ideal Cert.KernelIdeal.S100000x256 .f32) (wt : FVec Ideal Cert.KernelIdeal.S256x128 .bf16) (b : FVec Ideal Cert.KernelIdeal.S128 .f32) :
    FVec Ideal Cert.KernelIdeal.S100000x128 .f32 :=
  fun i => lin0At x wt b ⟨(i 0).val, idx2_lt0 i⟩ ⟨(i 1).val, idx2_lt1 i⟩

/-- The printed index maps over the 25 points: the row windows sit at block t, the weight and the bias at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- One point's stored block against the array: with the rows of the block being rows 4000 n … of x, the block's entry at y
    is the array's entry at (4000 n + y₀, y₁). -/
theorem point0 (x : FVec Ideal Cert.KernelIdeal.S100000x256 .f32) (wt : FVec Ideal Cert.KernelIdeal.S256x128 .bf16) (b : FVec Ideal Cert.KernelIdeal.S128 .f32)
    (x0 : Vec Ideal Cert.KernelIdeal.S4000x256 .f32) (n : Nat)
    (hx0 : ∀ (r : Fin 4000) (k : Fin 256) (hr : n * 4000 + r.val < 100000), x0 (ix2 r k) = x (ix2 ⟨n * 4000 + r.val, hr⟩ k))
    (y : Cert.KernelIdeal.S4000x128.Idx) (i : Cert.KernelIdeal.S100000x128.Idx)
    (hi0 : (i 0).val = n * 4000 + (y 0).val) (hi1 : (i 1).val = (y 1).val) :
    k0_pay1 (F := Ideal) x0 wt b y = lin0G x wt b i := by
  obtain ⟨r, j, rfl⟩ : ∃ (r : Fin 4000) (j : Fin 128), y = ix2 r j := ⟨y 0, y 1, eq_ix2 y⟩
  have hi0' : (i 0).val = n * 4000 + r.val := hi0
  have hi1' : (i 1).val = j.val := hi1
  have hr : n * 4000 + r.val < 100000 := by have := idx2_lt0 i; omega
  have e0 : (⟨(i 0).val, idx2_lt0 i⟩ : Fin 100000) = ⟨n * 4000 + r.val, hr⟩ := Fin.ext hi0'
  have e1 : (⟨(i 1).val, idx2_lt1 i⟩ : Fin 128) = j := Fin.ext hi1'
  rw [pay0_apply]
  unfold lin0G lin0At
  rw [e0, e1]
  refine congrArg (· + b (ix1 j)) (Finset.sum_congr rfl fun k _ => ?_)
  rw [hx0 r k hr]

/-! ## Call 0: the reference's form of the same array -/

theorem dg0_lhs_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x128_S100000x128_1_0_0_1_n_n.lhsBatch by decide), dif_pos (show (0 : Fin Cert.ReferenceIdeal.S100000x256.rank) ∈ Cert.ReferenceIdeal.dot_S100000x256_S256x128_S100000x128_1_0_0_1_n_n.lhsNonContracting by decide)]
  rfl
theorem dg0_lhs_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 1).val = (q ⟨0, by decide⟩).val :=
  Cert.ReferenceIdeal.dot_S100000x256_S256x128_S100000x128_1_0_0_1_n_n.lhsIdx_val_of_single rfl i q
theorem dg0_rhs_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 0).val = (q ⟨0, by decide⟩).val :=
  Cert.ReferenceIdeal.dot_S100000x256_S256x128_S100000x128_1_0_0_1_n_n.rhsIdx_val_of_single rfl i q
theorem dg0_rhs_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 1).val = (i 1).val := by
  unfold DotDims.rhsIdx
  rw [dif_neg (show ¬(1 : Fin Cert.ReferenceIdeal.S256x128.rank) ∈ Cert.ReferenceIdeal.dot_S100000x256_S256x128_S100000x128_1_0_0_1_n_n.rhsBatch by decide), dif_pos (show (1 : Fin Cert.ReferenceIdeal.S256x128.rank) ∈ Cert.ReferenceIdeal.dot_S100000x256_S256x128_S100000x128_1_0_0_1_n_n.rhsNonContracting by decide)]
  rfl

/-- The host's product of the whole arrays at row r and column j: the same sum over the 256 input features. -/
theorem dg0_apply (x : FVec Ideal Cert.ReferenceIdeal.S100000x256 .f32) (y : FVec Ideal Cert.ReferenceIdeal.S256x128 .f32) (r : Fin 100000) (j : Fin 128) :
    Host.dotGeneral Cert.ReferenceIdeal.dot_S100000x256_S256x128_S100000x128_1_0_0_1_n_n none x y (ix2 r j)
      = ∑ k : Fin 256, x (ix2 r k) * y (ix2 k j) := by
  simp only [Host.dotGeneral]
  rw [Ideal.dotGeneral_apply, ← Equiv.sum_comp (contrEquiv1 Cert.ReferenceIdeal.dot_S100000x256_S256x128_S100000x128_1_0_0_1_n_n 256 rfl rfl).symm]
  refine Finset.sum_congr rfl fun k _ => ?_
  have hk := contrEquiv1_symm_val Cert.ReferenceIdeal.dot_S100000x256_S256x128_S100000x128_1_0_0_1_n_n 256 rfl rfl k
  have el : Cert.ReferenceIdeal.dot_S100000x256_S256x128_S100000x128_1_0_0_1_n_n.lhsIdx (ix2 r j) ((contrEquiv1 Cert.ReferenceIdeal.dot_S100000x256_S256x128_S100000x128_1_0_0_1_n_n 256 rfl rfl).symm k) = ix2 r k := funext fun a => Fin.ext (by
    match a with
    | ⟨0, _⟩ => exact dg0_lhs_0 _ _
    | ⟨1, _⟩ => exact (dg0_lhs_1 _ _).trans hk)
  have er : Cert.ReferenceIdeal.dot_S100000x256_S256x128_S100000x128_1_0_0_1_n_n.rhsIdx (ix2 r j) ((contrEquiv1 Cert.ReferenceIdeal.dot_S100000x256_S256x128_S100000x128_1_0_0_1_n_n 256 rfl rfl).symm k) = ix2 k j := funext fun a => Fin.ext (by
    match a with
    | ⟨0, _⟩ => exact (dg0_rhs_0 _ _).trans hk
    | ⟨1, _⟩ => exact dg0_rhs_1 _ _)
  rw [el, er]

/-- The bias laid along the columns of the 100000-row array reads, at (r, j), the bias at j. -/
theorem bias0_apply (h₁ : Cert.ReferenceIdeal.S128.BroadcastsInDim Cert.ReferenceIdeal.S1x128 (![1] : Fin 1 → Fin Cert.ReferenceIdeal.S1x128.rank))
    (h₂ : Cert.ReferenceIdeal.S1x128.BroadcastsInDim Cert.ReferenceIdeal.S100000x128 (![0, 1] : Fin 2 → Fin Cert.ReferenceIdeal.S100000x128.rank))
    (b : FVec Ideal Cert.ReferenceIdeal.S128 .f32) (r : Fin 100000) (j : Fin 128) :
    broadcastInDim Cert.ReferenceIdeal.S100000x128 ![0, 1] h₂ (broadcastInDim Cert.ReferenceIdeal.S1x128 ![1] h₁ b) (ix2 r j) = b (ix1 j) := by
  refine (broadcastInDim_apply _ h₂ _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ h₁ b (ix2 (0 : Fin 1) j) (ix1 j) (fun a => match a with
    | ⟨0, _⟩ => by show j.val = if (128 : Nat) = 1 then 0 else j.val; rw [if_neg (by decide)])

/-- x · Wt + b with Wt the transposed, narrowed weight is the reference's linear layer of x, W, b. -/
theorem lin0G_eq (x : FVec Ideal Cert.KernelIdeal.S100000x256 .f32) (w : FVec Ideal Cert.KernelIdeal.S128x256 .f32) (b : FVec Ideal Cert.KernelIdeal.S128 .f32) :
    lin0G x (Cert.KSpec.wtU (F := Ideal) w) b = Cert.Spec.linU (F := Ideal) x w b := by
  funext i
  obtain ⟨r, j, rfl⟩ : ∃ (r : Fin 100000) (j : Fin 128), i = ix2 r j := ⟨i 0, i 1, eq_ix2 i⟩
  unfold Cert.Spec.linU
  refine Eq.trans ?_ (addf_apply _ _ (ix2 r j)).symm
  rw [dg0_apply, bias0_apply]
  rfl

/-! ## Call 1: the block's result at an index -/

theorem mm1_lhs_0 (i : Cert.KernelIdeal.S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin Cert.KernelIdeal.S4000x128.rank) ∈ dot_S4000x128_S128x128_S4000x128_1_0_0_1_n_n.lhsBatch by decide), dif_pos (show (0 : Fin Cert.KernelIdeal.S4000x128.rank) ∈ dot_S4000x128_S128x128_S4000x128_1_0_0_1_n_n.lhsNonContracting by decide)]
  rfl
theorem mm1_lhs_1 (i : Cert.KernelIdeal.S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem mm1_rhs_0 (i : Cert.KernelIdeal.S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem mm1_rhs_1 (i : Cert.KernelIdeal.S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin Cert.KernelIdeal.S128x128.rank) ∈ dot_S4000x128_S128x128_S4000x128_1_0_0_1_n_n.rhsBatch by decide), dif_pos (show (1 : Fin Cert.KernelIdeal.S128x128.rank) ∈ dot_S4000x128_S128x128_S4000x128_1_0_0_1_n_n.rhsNonContracting by decide)]
  rfl

/-- The block's matrix product into the zero splat, at row r and column j: the sum over the 128 input features. -/
theorem mm1_apply (a : FVec Ideal Cert.KernelIdeal.S4000x128 .bf16) (w : FVec Ideal Cert.KernelIdeal.S128x128 .bf16) (r : Fin 4000) (j : Fin 128) :
    matmul dot_S4000x128_S128x128_S4000x128_1_0_0_1_n_n none a w (constant Cert.KernelIdeal.S4000x128 .f32 0x00000000#32) (ix2 r j)
      = ∑ k : Fin 128, a (ix2 r k) * w (ix2 k j) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r j) ((contrEquiv1 dot_S4000x128_S128x128_S4000x128_1_0_0_1_n_n 128 rfl rfl).symm k) = ix2 r k := funext fun a => Fin.ext (by
    match a with
    | ⟨0, _⟩ => exact mm1_lhs_0 _ _
    | ⟨1, _⟩ => exact (mm1_lhs_1 _ _).trans hk)
  have er : dot_S4000x128_S128x128_S4000x128_1_0_0_1_n_n.rhsIdx (ix2 r j) ((contrEquiv1 dot_S4000x128_S128x128_S4000x128_1_0_0_1_n_n 128 rfl rfl).symm k) = ix2 k j := funext fun a => Fin.ext (by
    match a with
    | ⟨0, _⟩ => exact (mm1_rhs_0 _ _).trans hk
    | ⟨1, _⟩ => exact mm1_rhs_1 _ _)
  rw [el, er]

/-- The body's stored value at row r and column j of the block: the row times the (input, output) weight's column, plus the bias. -/
theorem pay1_apply (v0 : Vec Ideal Cert.KernelIdeal.S4000x128 .f32) (v2 : Vec Ideal Cert.KernelIdeal.S128x128 .bf16) (v5 : Vec Ideal Cert.KernelIdeal.S128 .f32) (r : Fin 4000) (j : Fin 128) :
    k1_pay1 (F := Ideal) v0 v2 v5 (ix2 r j) = (∑ k : Fin 128, v0 (ix2 r k) * v2 (ix2 k j)) + v5 (ix1 j) := by
  unfold k1_pay1
  refine (addf_apply _ _ (ix2 r j)).trans ?_
  refine congrArg₂ (· + ·) ?_ ?_
  · refine (mm1_apply _ _ r j).trans ?_
    refine Finset.sum_congr rfl fun k _ => ?_
    rw [shapeCast_self]
    rfl
  · refine (broadcastTo_1b_ab_apply _ _ r j).trans ?_
    exact shapeCast_a_1a_apply v5 _ 0 j

/-! ## Call 1: from the blocks to the array -/

/-- Row r of x times column j of the (input, output) weight, plus the bias at j. -/
def lin1At (x : FVec Ideal Cert.KernelIdeal.S20000x128 .f32) (wt : FVec Ideal Cert.KernelIdeal.S128x128 .bf16) (b : FVec Ideal Cert.KernelIdeal.S128 .f32)
    (r : Fin 20000) (j : Fin 128) : EReal :=
  (∑ k : Fin 128, x (ix2 r k) * wt (ix2 k j)) + b (ix1 j)

/-- The array call 1 leaves: x · Wt + b at every index. -/
def lin1G (x : FVec Ideal Cert.KernelIdeal.S20000x128 .f32) (wt : FVec Ideal Cert.KernelIdeal.S128x128 .bf16) (b : FVec Ideal Cert.KernelIdeal.S128 .f32) :
    FVec Ideal Cert.KernelIdeal.S20000x128 .f32 :=
  fun i => lin1At x wt b ⟨(i 0).val, idx2_lt0 i⟩ ⟨(i 1).val, idx2_lt1 i⟩

/-- The printed index maps over the 5 points: the row windows sit at block t, the weight and the bias at block 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- One point's stored block against the array: with the rows of the block being rows 4000 n … of x, the block's entry at y
    is the array's entry at (4000 n + y₀, y₁). -/
theorem point1 (x : FVec Ideal Cert.KernelIdeal.S20000x128 .f32) (wt : FVec Ideal Cert.KernelIdeal.S128x128 .bf16) (b : FVec Ideal Cert.KernelIdeal.S128 .f32)
    (x0 : Vec Ideal Cert.KernelIdeal.S4000x128 .f32) (n : Nat)
    (hx0 : ∀ (r : Fin 4000) (k : Fin 128) (hr : n * 4000 + r.val < 20000), x0 (ix2 r k) = x (ix2 ⟨n * 4000 + r.val, hr⟩ k))
    (y : Cert.KernelIdeal.S4000x128.Idx) (i : Cert.KernelIdeal.S20000x128.Idx)
    (hi0 : (i 0).val = n * 4000 + (y 0).val) (hi1 : (i 1).val = (y 1).val) :
    k1_pay1 (F := Ideal) x0 wt b y = lin1G x wt b i := by
  obtain ⟨r, j, rfl⟩ : ∃ (r : Fin 4000) (j : Fin 128), y = ix2 r j := ⟨y 0, y 1, eq_ix2 y⟩
  have hi0' : (i 0).val = n * 4000 + r.val := hi0
  have hi1' : (i 1).val = j.val := hi1
  have hr : n * 4000 + r.val < 20000 := by have := idx2_lt0 i; omega
  have e0 : (⟨(i 0).val, idx2_lt0 i⟩ : Fin 20000) = ⟨n * 4000 + r.val, hr⟩ := Fin.ext hi0'
  have e1 : (⟨(i 1).val, idx2_lt1 i⟩ : Fin 128) = j := Fin.ext hi1'
  rw [pay1_apply]
  unfold lin1G lin1At
  rw [e0, e1]
  refine congrArg (· + b (ix1 j)) (Finset.sum_congr rfl fun k _ => ?_)
  rw [hx0 r k hr]

/-! ## Call 1: the reference's form of the same array -/

theorem dg1_lhs_0 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 0).val = (i 0).val := by
  unfold DotDims.lhsIdx
  rw [dif_neg (show ¬(0 : Fin Cert.ReferenceIdeal.S20000x128.rank) ∈ Cert.ReferenceIdeal.dot_S20000x128_S128x128_S20000x128_1_0_0_1_n_n.lhsBatch by decide), dif_pos (show (0 : Fin Cert.ReferenceIdeal.S20000x128.rank) ∈ Cert.ReferenceIdeal.dot_S20000x128_S128x128_S20000x128_1_0_0_1_n_n.lhsNonContracting by decide)]
  rfl
theorem dg1_lhs_1 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 1).val = (q ⟨0, by decide⟩).val :=
  Cert.ReferenceIdeal.dot_S20000x128_S128x128_S20000x128_1_0_0_1_n_n.lhsIdx_val_of_single rfl i q
theorem dg1_rhs_0 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 0).val = (q ⟨0, by decide⟩).val :=
  Cert.ReferenceIdeal.dot_S20000x128_S128x128_S20000x128_1_0_0_1_n_n.rhsIdx_val_of_single rfl i q
theorem dg1_rhs_1 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 1).val = (i 1).val := by
  unfold DotDims.rhsIdx
  rw [dif_neg (show ¬(1 : Fin Cert.ReferenceIdeal.S128x128.rank) ∈ Cert.ReferenceIdeal.dot_S20000x128_S128x128_S20000x128_1_0_0_1_n_n.rhsBatch by decide), dif_pos (show (1 : Fin Cert.ReferenceIdeal.S128x128.rank) ∈ Cert.ReferenceIdeal.dot_S20000x128_S128x128_S20000x128_1_0_0_1_n_n.rhsNonContracting by decide)]
  rfl

/-- The host's product of the whole arrays at row r and column j: the same sum over the 128 input features. -/
theorem dg1_apply (x : FVec Ideal Cert.ReferenceIdeal.S20000x128 .f32) (y : FVec Ideal Cert.ReferenceIdeal.S128x128 .f32) (r : Fin 20000) (j : Fin 128) :
    Host.dotGeneral Cert.ReferenceIdeal.dot_S20000x128_S128x128_S20000x128_1_0_0_1_n_n none x y (ix2 r j)
      = ∑ k : Fin 128, x (ix2 r k) * y (ix2 k j) := by
  simp only [Host.dotGeneral]
  rw [Ideal.dotGeneral_apply, ← Equiv.sum_comp (contrEquiv1 Cert.ReferenceIdeal.dot_S20000x128_S128x128_S20000x128_1_0_0_1_n_n 128 rfl rfl).symm]
  refine Finset.sum_congr rfl fun k _ => ?_
  have hk := contrEquiv1_symm_val Cert.ReferenceIdeal.dot_S20000x128_S128x128_S20000x128_1_0_0_1_n_n 128 rfl rfl k
  have el : Cert.ReferenceIdeal.dot_S20000x128_S128x128_S20000x128_1_0_0_1_n_n.lhsIdx (ix2 r j) ((contrEquiv1 Cert.ReferenceIdeal.dot_S20000x128_S128x128_S20000x128_1_0_0_1_n_n 128 rfl rfl).symm k) = ix2 r k := funext fun a => Fin.ext (by
    match a with
    | ⟨0, _⟩ => exact dg1_lhs_0 _ _
    | ⟨1, _⟩ => exact (dg1_lhs_1 _ _).trans hk)
  have er : Cert.ReferenceIdeal.dot_S20000x128_S128x128_S20000x128_1_0_0_1_n_n.rhsIdx (ix2 r j) ((contrEquiv1 Cert.ReferenceIdeal.dot_S20000x128_S128x128_S20000x128_1_0_0_1_n_n 128 rfl rfl).symm k) = ix2 k j := funext fun a => Fin.ext (by
    match a with
    | ⟨0, _⟩ => exact (dg1_rhs_0 _ _).trans hk
    | ⟨1, _⟩ => exact dg1_rhs_1 _ _)
  rw [el, er]

/-- The bias laid along the columns of the 20000-row array reads, at (r, j), the bias at j. -/
theorem bias1_apply (h₁ : Cert.ReferenceIdeal.S128.BroadcastsInDim Cert.ReferenceIdeal.S1x128 (![1] : Fin 1 → Fin Cert.ReferenceIdeal.S1x128.rank))
    (h₂ : Cert.ReferenceIdeal.S1x128.BroadcastsInDim Cert.ReferenceIdeal.S20000x128 (![0, 1] : Fin 2 → Fin Cert.ReferenceIdeal.S20000x128.rank))
    (b : FVec Ideal Cert.ReferenceIdeal.S128 .f32) (r : Fin 20000) (j : Fin 128) :
    broadcastInDim Cert.ReferenceIdeal.S20000x128 ![0, 1] h₂ (broadcastInDim Cert.ReferenceIdeal.S1x128 ![1] h₁ b) (ix2 r j) = b (ix1 j) := by
  refine (broadcastInDim_apply _ h₂ _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ h₁ b (ix2 (0 : Fin 1) j) (ix1 j) (fun a => match a with
    | ⟨0, _⟩ => by show j.val = if (128 : Nat) = 1 then 0 else j.val; rw [if_neg (by decide)])

/-- x · Wt + b with Wt the transposed, narrowed weight is the reference's linear layer of x, W, b. -/
theorem lin1G_eq (x : FVec Ideal Cert.KernelIdeal.S20000x128 .f32) (w : FVec Ideal Cert.KernelIdeal.S128x128 .f32) (b : FVec Ideal Cert.KernelIdeal.S128 .f32) :
    lin1G x (Cert.KSpec.wtP (F := Ideal) w) b = Cert.Spec.linP (F := Ideal) x w b := by
  funext i
  obtain ⟨r, j, rfl⟩ : ∃ (r : Fin 20000) (j : Fin 128), i = ix2 r j := ⟨i 0, i 1, eq_ix2 i⟩
  unfold Cert.Spec.linP
  refine Eq.trans ?_ (addf_apply _ _ (ix2 r j)).symm
  rw [dg1_apply, bias1_apply]
  rfl

/- the TensorCore's buffer contents when the region is entered, at the extended reals -/
variable (V : (c : Dev nD) → (b : Ref sig .tc) → Buf (Elt Ideal) ((c : Thread nD τ).loc b))

/-! ## Call 0: the blocks of the arrays it reads, and what it leaves -/

/-- Window 0's block at point t is rows 4000 t … 4000 t + 3999 of x. -/
theorem xblk0 (c : Dev nD) (x : FVec Ideal Cert.KernelIdeal.S100000x256 .f32) (h0 : V c (Pipeline.arrRef spec0 0) = x) (t : Fin cfg0.N)
    (r : Fin 4000) (k : Fin 256) (hr : t.val * 4000 + r.val < 100000) :
    (iblk0 V c 0 t : Vec Ideal Cert.KernelIdeal.S4000x256 .f32) (ix2 r k) = x (ix2 ⟨t.val * 4000 + r.val, hr⟩ k) := by
  obtain ⟨e0, e1, -⟩ := idx0 t
  unfold iblk0
  rw [View.read_apply]
  show V c (Pipeline.arrRef spec0 0) (((cfg0.win 0).blk t).view.emb (ix2 r k)) = _
  rw [h0]
  refine congrArg x (funext fun a => Fin.ext ?_)
  match a with
  | ⟨0, _⟩ => show win0_0.index t (0 : Fin 2) * 4000 + 1 * r.val = t.val * 4000 + r.val; rw [e0]; omega
  | ⟨1, _⟩ => show win0_0.index t (1 : Fin 2) * 256 + 1 * k.val = k.val; rw [e1]; omega

/-- Window 1's block at every point is the whole (input, output) weight. -/
theorem wblk0 (c : Dev nD) (wt : FVec Ideal Cert.KernelIdeal.S256x128 .bf16) (h1 : V c (Pipeline.arrRef spec0 1) = wt) (t : Fin cfg0.N) :
    (iblk0 V c 1 t : Vec Ideal Cert.KernelIdeal.S256x128 .bf16) = wt := by
  obtain ⟨-, -, e0, e1, -⟩ := idx0 t
  funext y
  unfold iblk0
  rw [View.read_apply]
  show V c (Pipeline.arrRef spec0 1) (((cfg0.win 1).blk t).view.emb y) = _
  rw [h1]
  refine congrArg wt (funext fun a => Fin.ext ?_)
  match a with
  | ⟨0, _⟩ => show win0_1.index t (0 : Fin 2) * 256 + 1 * (y 0).val = (y 0).val; rw [e0]; omega
  | ⟨1, _⟩ => show win0_1.index t (1 : Fin 2) * 128 + 1 * (y 1).val = (y 1).val; rw [e1]; omega

/-- Window 2's block at every point is the whole bias. -/
theorem bblk0 (c : Dev nD) (b : FVec Ideal Cert.KernelIdeal.S128 .f32) (h2 : V c (Pipeline.arrRef spec0 2) = b) (t : Fin cfg0.N) :
    (iblk0 V c 2 t : Vec Ideal Cert.KernelIdeal.S128 .f32) = b := by
  obtain ⟨-, -, -, -, e0, -⟩ := idx0 t
  funext y
  unfold iblk0
  rw [View.read_apply]
  show V c (Pipeline.arrRef spec0 2) (((cfg0.win 2).blk t).view.emb y) = _
  rw [h2]
  refine congrArg b (funext fun a => Fin.ext ?_)
  match a with
  | ⟨0, _⟩ => show win0_2.index t (0 : Fin 1) * 128 + 1 * (y 0).val = (y 0).val; rw [e0]; omega

/-- What point t writes back is block t of x · Wt + b. -/
theorem flushed0 (c : Dev nD) (x : FVec Ideal Cert.KernelIdeal.S100000x256 .f32) (wt : FVec Ideal Cert.KernelIdeal.S256x128 .bf16) (b : FVec Ideal Cert.KernelIdeal.S128 .f32)
    (h0 : V c (Pipeline.arrRef spec0 0) = x) (h1 : V c (Pipeline.arrRef spec0 1) = wt) (h2 : V c (Pipeline.arrRef spec0 2) = b) (t : Fin cfg0.N) :
    (dat0 (F := Ideal) V c).flushed 3 t = ((cfg0.win 3).blk t).view.read (Elt Ideal) (lin0G x wt b) := by
  show (cfg0.win 3).cut (grid0.coords t) ((dat0 (F := Ideal) V c).after 3 t) = _
  rw [after0_3]
  unfold out0_3
  rw [View.canon_unit_zero zeros2]
  simp only [View.ld_unit_zero (S := Cert.KernelIdeal.S4000x256) zeros2, View.ld_unit_zero (S := Cert.KernelIdeal.S256x128) zeros2, View.ld_unit_zero (S := Cert.KernelIdeal.S128) zeros1]
  rw [wblk0 V c wt h1 t, bblk0 V c b h2 t]
  obtain ⟨-, -, -, -, -, e0, e1⟩ := idx0 t
  funext y
  refine point0 x wt b (iblk0 V c 0 t) t.val (fun r k hr => xblk0 V c x h0 t r k hr) y (((cfg0.win 3).blk t).view.emb y) ?_ ?_
  · show win0_3.index t (0 : Fin 2) * 4000 + 1 * (y 0).val = t.val * 4000 + (y 0).val; rw [e0]; omega
  · show win0_3.index t (1 : Fin 2) * 128 + 1 * (y 1).val = (y 1).val; rw [e1]; omega

/-- An index of the array is in point t's block iff each coordinate is in the block's range on its axis. -/
theorem mem_blk0 (t : Fin cfg0.N) (i : Cert.KernelIdeal.S100000x128.Idx) :
    i ∈ ((cfg0.win 3).blk t).view.set ↔ ∀ a : Fin 2, win0_3.index t a * Cert.KernelIdeal.S4000x128.size a ≤ (i a).val ∧ (i a).val < win0_3.index t a * Cert.KernelIdeal.S4000x128.size a + Cert.KernelIdeal.S4000x128.size a := by
  show i ∈ ((View.whole main_v4).slice (win0_3.rect t)).set ↔ _
  rw [View.set_slice_whole, Rect.mem_set_unit]
  exact Iff.rfl

/-- Every index of the array is in the block of the point its row's quotient by 4000 names. -/
theorem cover0 (i : Cert.KernelIdeal.S100000x128.Idx) : ∃ t : Fin cfg0.N, (cfg0.win 3).flush t = true ∧ i ∈ ((cfg0.win 3).blk t).view.set := by
  have hi0 : (i 0).val < 100000 := idx2_lt0 i
  have hi1 : (i 1).val < 128 := idx2_lt1 i
  have hN : grid0.N = 25 := N_0
  have ht : (i 0).val / 4000 < grid0.N := by rw [hN]; omega
  obtain ⟨-, -, -, -, -, e0, e1⟩ := idx0 ⟨(i 0).val / 4000, ht⟩
  refine ⟨⟨(i 0).val / 4000, ht⟩, flush0_3 _, ?_⟩
  rw [mem_blk0]
  intro a
  match a with
  | ⟨0, _⟩ =>
    show win0_3.index ⟨(i 0).val / 4000, ht⟩ (0 : Fin 2) * 4000 ≤ (i 0).val ∧ (i 0).val < win0_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_3.index ⟨(i 0).val / 4000, ht⟩ (1 : Fin 2) * 128 ≤ (i 1).val ∧ (i 1).val < win0_3.index ⟨(i 0).val / 4000, ht⟩ (1 : Fin 2) * 128 + 128
    rw [e1]; omega

/-- So call 0 leaves x · Wt + b. -/
theorem final0 (c : Dev nD) (x : FVec Ideal Cert.KernelIdeal.S100000x256 .f32) (wt : FVec Ideal Cert.KernelIdeal.S256x128 .bf16) (b : FVec Ideal Cert.KernelIdeal.S128 .f32)
    (h0 : V c (Pipeline.arrRef spec0 0) = x) (h1 : V c (Pipeline.arrRef spec0 1) = wt) (h2 : V c (Pipeline.arrRef spec0 2) = b) :
    (dat0 (F := Ideal) V c).arrAt 3 cfg0.N = lin0G x wt b :=
  (dat0 (F := Ideal) V c).arrAt_eq_of_cover 3 (lin0G x wt b) (fun t _ => flushed0 V c x wt b h0 h1 h2 t) cover0

/-- Call 0 (the user projection, 25 blocks): the output array, as a function of the arrays the call reads. -/
theorem region0_value (c : Dev nD) (x : FVec Ideal S100000x256 .f32) (w : FVec Ideal S128x256 .f32) (b : FVec Ideal S128 .f32)
    (h0 : V c (Pipeline.arrRef spec0 0) = x) (h1 : V c (Pipeline.arrRef spec0 1) = Cert.KSpec.wtU w)
    (h2 : V c (Pipeline.arrRef spec0 2) = b) :
    (dat0 (F := Ideal) V c).arrAt 3 cfg0.N = Cert.Spec.linU x w b :=
  (final0 V c x (Cert.KSpec.wtU (F := Ideal) w) b h0 h1 h2).trans (lin0G_eq x w b)

/-! ## Call 1: the blocks of the arrays it reads, and what it leaves -/

/-- Window 0's block at point t is rows 4000 t … 4000 t + 3999 of x. -/
theorem xblk1 (c : Dev nD) (x : FVec Ideal Cert.KernelIdeal.S20000x128 .f32) (h0 : V c (Pipeline.arrRef spec1 0) = x) (t : Fin cfg1.N)
    (r : Fin 4000) (k : Fin 128) (hr : t.val * 4000 + r.val < 20000) :
    (iblk1 V c 0 t : Vec Ideal Cert.KernelIdeal.S4000x128 .f32) (ix2 r k) = x (ix2 ⟨t.val * 4000 + r.val, hr⟩ k) := by
  obtain ⟨e0, e1, -⟩ := idx1 t
  unfold iblk1
  rw [View.read_apply]
  show V c (Pipeline.arrRef spec1 0) (((cfg1.win 0).blk t).view.emb (ix2 r k)) = _
  rw [h0]
  refine congrArg x (funext fun a => Fin.ext ?_)
  match a with
  | ⟨0, _⟩ => show win1_0.index t (0 : Fin 2) * 4000 + 1 * r.val = t.val * 4000 + r.val; rw [e0]; omega
  | ⟨1, _⟩ => show win1_0.index t (1 : Fin 2) * 128 + 1 * k.val = k.val; rw [e1]; omega

/-- Window 1's block at every point is the whole (input, output) weight. -/
theorem wblk1 (c : Dev nD) (wt : FVec Ideal Cert.KernelIdeal.S128x128 .bf16) (h1 : V c (Pipeline.arrRef spec1 1) = wt) (t : Fin cfg1.N) :
    (iblk1 V c 1 t : Vec Ideal Cert.KernelIdeal.S128x128 .bf16) = wt := by
  obtain ⟨-, -, e0, e1, -⟩ := idx1 t
  funext y
  unfold iblk1
  rw [View.read_apply]
  show V c (Pipeline.arrRef spec1 1) (((cfg1.win 1).blk t).view.emb y) = _
  rw [h1]
  refine congrArg wt (funext fun a => Fin.ext ?_)
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- Window 2's block at every point is the whole bias. -/
theorem bblk1 (c : Dev nD) (b : FVec Ideal Cert.KernelIdeal.S128 .f32) (h2 : V c (Pipeline.arrRef spec1 2) = b) (t : Fin cfg1.N) :
    (iblk1 V c 2 t : Vec Ideal Cert.KernelIdeal.S128 .f32) = b := by
  obtain ⟨-, -, -, -, e0, -⟩ := idx1 t
  funext y
  unfold iblk1
  rw [View.read_apply]
  show V c (Pipeline.arrRef spec1 2) (((cfg1.win 2).blk t).view.emb y) = _
  rw [h2]
  refine congrArg b (funext fun a => Fin.ext ?_)
  match a with
  | ⟨0, _⟩ => show win1_2.index t (0 : Fin 1) * 128 + 1 * (y 0).val = (y 0).val; rw [e0]; omega

/-- What point t writes back is block t of x · Wt + b. -/
theorem flushed1 (c : Dev nD) (x : FVec Ideal Cert.KernelIdeal.S20000x128 .f32) (wt : FVec Ideal Cert.KernelIdeal.S128x128 .bf16) (b : FVec Ideal Cert.KernelIdeal.S128 .f32)
    (h0 : V c (Pipeline.arrRef spec1 0) = x) (h1 : V c (Pipeline.arrRef spec1 1) = wt) (h2 : V c (Pipeline.arrRef spec1 2) = b) (t : Fin cfg1.N) :
    (dat1 (F := Ideal) V c).flushed 3 t = ((cfg1.win 3).blk t).view.read (Elt Ideal) (lin1G x wt b) := by
  show (cfg1.win 3).cut (grid1.coords t) ((dat1 (F := Ideal) V c).after 3 t) = _
  rw [after1_3]
  unfold out1_3
  rw [View.canon_unit_zero zeros2]
  simp only [View.ld_unit_zero (S := Cert.KernelIdeal.S4000x128) zeros2, View.ld_unit_zero (S := Cert.KernelIdeal.S128x128) zeros2, View.ld_unit_zero (S := Cert.KernelIdeal.S128) zeros1]
  rw [wblk1 V c wt h1 t, bblk1 V c b h2 t]
  obtain ⟨-, -, -, -, -, e0, e1⟩ := idx1 t
  funext y
  refine point1 x wt b (iblk1 V c 0 t) t.val (fun r k hr => xblk1 V c x h0 t r k hr) y (((cfg1.win 3).blk t).view.emb y) ?_ ?_
  · show win1_3.index t (0 : Fin 2) * 4000 + 1 * (y 0).val = t.val * 4000 + (y 0).val; rw [e0]; omega
  · show win1_3.index t (1 : Fin 2) * 128 + 1 * (y 1).val = (y 1).val; rw [e1]; omega

/-- An index of the array is in point t's block iff each coordinate is in the block's range on its axis. -/
theorem mem_blk1 (t : Fin cfg1.N) (i : Cert.KernelIdeal.S20000x128.Idx) :
    i ∈ ((cfg1.win 3).blk t).view.set ↔ ∀ a : Fin 2, win1_3.index t a * Cert.KernelIdeal.S4000x128.size a ≤ (i a).val ∧ (i a).val < win1_3.index t a * Cert.KernelIdeal.S4000x128.size a + Cert.KernelIdeal.S4000x128.size a := by
  show i ∈ ((View.whole main_v5).slice (win1_3.rect t)).set ↔ _
  rw [View.set_slice_whole, Rect.mem_set_unit]
  exact Iff.rfl

/-- Every index of the array is in the block of the point its row's quotient by 4000 names. -/
theorem cover1 (i : Cert.KernelIdeal.S20000x128.Idx) : ∃ t : Fin cfg1.N, (cfg1.win 3).flush t = true ∧ i ∈ ((cfg1.win 3).blk t).view.set := by
  have hi0 : (i 0).val < 20000 := idx2_lt0 i
  have hi1 : (i 1).val < 128 := idx2_lt1 i
  have hN : grid1.N = 5 := N_1
  have ht : (i 0).val / 4000 < grid1.N := by rw [hN]; omega
  obtain ⟨-, -, -, -, -, e0, e1⟩ := idx1 ⟨(i 0).val / 4000, ht⟩
  refine ⟨⟨(i 0).val / 4000, ht⟩, flush1_3 _, ?_⟩
  rw [mem_blk1]
  intro a
  match a with
  | ⟨0, _⟩ =>
    show win1_3.index ⟨(i 0).val / 4000, ht⟩ (0 : Fin 2) * 4000 ≤ (i 0).val ∧ (i 0).val < win1_3.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_3.index ⟨(i 0).val / 4000, ht⟩ (1 : Fin 2) * 128 ≤ (i 1).val ∧ (i 1).val < win1_3.index ⟨(i 0).val / 4000, ht⟩ (1 : Fin 2) * 128 + 128
    rw [e1]; omega

/-- So call 1 leaves x · Wt + b. -/
theorem final1 (c : Dev nD) (x : FVec Ideal Cert.KernelIdeal.S20000x128 .f32) (wt : FVec Ideal Cert.KernelIdeal.S128x128 .bf16) (b : FVec Ideal Cert.KernelIdeal.S128 .f32)
    (h0 : V c (Pipeline.arrRef spec1 0) = x) (h1 : V c (Pipeline.arrRef spec1 1) = wt) (h2 : V c (Pipeline.arrRef spec1 2) = b) :
    (dat1 (F := Ideal) V c).arrAt 3 cfg1.N = lin1G x wt b :=
  (dat1 (F := Ideal) V c).arrAt_eq_of_cover 3 (lin1G x wt b) (fun t _ => flushed1 V c x wt b h0 h1 h2 t) cover1

/-- Call 1 (the problem projection, 5 blocks). -/
theorem region1_value (c : Dev nD) (x : FVec Ideal S20000x128 .f32) (w : FVec Ideal S128x128 .f32) (b : FVec Ideal S128 .f32)
    (h0 : V c (Pipeline.arrRef spec1 0) = x) (h1 : V c (Pipeline.arrRef spec1 1) = Cert.KSpec.wtP w)
    (h2 : V c (Pipeline.arrRef spec1 2) = b) :
    (dat1 (F := Ideal) V c).arrAt 3 cfg1.N = Cert.Spec.linP x w b :=
  (final1 V c x (Cert.KSpec.wtP (F := Ideal) w) b h0 h1 h2).trans (lin1G_eq x w b)

end Cert.Bridge

end
-- ==== Proof.RegSage.lean ====
/-
  The two first-layer SAGE updates. A block multiplies the neighbour sum by the reciprocal count, joins it with the root rows
  along the feature axis, multiplies by the joined weight, adds the bias and clips at zero. On the extended reals the product
  with 1 / max(count, 1) is the quotient by max(count, 1) (the divisor is at least one, so never zero), the sum over the 256
  joined features is the sum over the first 128 plus the sum over the last 128, and addition is commutative and associative:
  the array the call leaves is relu (mean · Aᵀ + b + root · Bᵀ).
-/
import proofs.«414659_j2095944040611_3_alg».proof.Proof.Gen.KernelIdeal.Frame
import proofs.«414659_j2095944040611_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.Bridge

open Cert.KernelIdeal Cert.KernelIdeal.Gen
open Idealize.ShloMosaic Idealize.ShloMosaic.TcCoe Idealize.SL.Sem
open Idealize.ShloMosaic.Pipeline (Dat Cfg Window)
open Idealize.ShloMosaic.ValueIdx
open scoped BigOperators

/-! ## Layout operations read at an index -/

/-- A column broadcast along the rows' features: a `[a, 1]` array broadcast to `[a, b]` reads, at `(p, c)`, row `p`'s one entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over 256 joined features is the sum over the first 128 plus the sum over the last 128. -/
theorem sum_fin256 {M : Type} [AddCommMonoid M] (f : Fin 256 → M) :
    ∑ k : Fin 256, f k = ∑ k : Fin 128, f ⟨k.val, by omega⟩ + ∑ k : Fin 128, f ⟨128 + k.val, by omega⟩ :=
  Fin.sum_univ_add (a := 128) (b := 128) f

/-- Two `[n, 128]` arrays joined along the feature axis read, at a feature below 128, the first array. -/
theorem cat_feat_left {α : Type} {n : ℕ} (x₁ x₂ : (⟨2, ![n, 128]⟩ : Shape).Idx → α)
    (h : Shape.Concatenates [(⟨2, ![n, 128]⟩ : Shape), ⟨2, ![n, 128]⟩] ⟨2, ![n, 256]⟩ 1) (r : Fin n) (k : Fin 128) :
    concatenate ⟨2, ![n, 256]⟩ 1 [⟨⟨2, ![n, 128]⟩, x₁⟩, ⟨⟨2, ![n, 128]⟩, x₂⟩] h (ix2 r (⟨k.val, by omega⟩ : Fin 256)) = x₁ (ix2 r k) :=
  concatenate_pair_apply_left 1 x₁ x₂ h _ rfl (ix2 r k) (fun b => match b with
    | ⟨0, _⟩ => rfl
    | ⟨1, _⟩ => rfl)

/-- … and, at a feature from 128 on, the second array at that feature less 128. -/
theorem cat_feat_right {α : Type} {n : ℕ} (x₁ x₂ : (⟨2, ![n, 128]⟩ : Shape).Idx → α)
    (h : Shape.Concatenates [(⟨2, ![n, 128]⟩ : Shape), ⟨2, ![n, 128]⟩] ⟨2, ![n, 256]⟩ 1) (r : Fin n) (k : Fin 128) :
    concatenate ⟨2, ![n, 256]⟩ 1 [⟨⟨2, ![n, 128]⟩, x₁⟩, ⟨⟨2, ![n, 128]⟩, x₂⟩] h (ix2 r (⟨128 + k.val, by omega⟩ : Fin 256)) = x₂ (ix2 r k) :=
  concatenate_pair_apply_right 1 x₁ x₂ h _ rfl rfl (ix2 r k) (fun b hb => match b with
    | ⟨0, _⟩ => rfl
    | ⟨1, _⟩ => absurd rfl hb) (by show k.val + 128 = 128 + k.val; omega)

/-! ## The block's matrix product read at an index -/

theorem lhs_mm_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs_mm_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs_mm_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs_mm_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The block's product into the zero splat, at row `r` and output feature `j`: the sum over the 256 joined features. -/
theorem matmul_at (x : FVec Ideal S4000x256 .bf16) (y : FVec Ideal S256x128 .bf16) (r : Fin 4000) (j : Fin 128) :
    matmul dot_S4000x256_S256x128_S4000x128_1_0_0_1_n_n none x y (constant S4000x128 .f32 0x00000000#32) (ix2 r j) = ∑ k : Fin 256, x (ix2 r k) * y (ix2 k j) := by
  simp only [matmul]
  rw [Ideal.matmul_constant_zero_apply, ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 r j) ((contrEquiv1 dot_S4000x256_S256x128_S4000x128_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S4000x256_S256x128_S4000x128_1_0_0_1_n_n.rhsIdx (ix2 r j) ((contrEquiv1 dot_S4000x256_S256x128_S4000x128_1_0_0_1_n_n 256 rfl rfl).symm k) = ix2 k j := funext fun a => Fin.ext (by
    match a with
    | ⟨0, _⟩ => exact (rhs_mm_0 _ _).trans hk
    | ⟨1, _⟩ => exact rhs_mm_1 _ _)
  rw [el, er]

/-! ## One first-layer update at a row and an output feature, in the kernel's form -/

/-- Row `r`, output feature `j`: the neighbour sums times the reciprocal count against the first 128 rows of the joined weight,
    plus the root rows against its last 128 rows, plus the bias, clipped at zero. -/
def sageAt {n : ℕ} (S : (⟨2, ![n, 128]⟩ : Shape).Idx → EReal) (ic : (⟨2, ![n, 1]⟩ : Shape).Idx → EReal)
    (P : (⟨2, ![n, 128]⟩ : Shape).Idx → EReal) (W : (⟨2, ![256, 128]⟩ : Shape).Idx → EReal) (b : (⟨1, ![128]⟩ : Shape).Idx → EReal)
    (r : Fin n) (j : Fin 128) : EReal :=
  max ((∑ k : Fin 128, S (ix2 r k) * ic (ix2 r (0 : Fin 1)) * W (ix2 (⟨k.val, by omega⟩ : Fin 256) j)
        + ∑ k : Fin 128, P (ix2 r k) * W (ix2 (⟨128 + k.val, by omega⟩ : Fin 256) j)) + b (ix1 j)) (Ideal.ofBits .f32 0x00000000#32)

/-- The block's payload at an index is that, of the blocks. -/
theorem sage_pay_at (v0 : Vec Ideal S4000x128 .f32) (v2 : Vec Ideal S4000x1 .f32) (v7 : Vec Ideal S4000x128 .f32) (v11 : Vec Ideal S256x128 .bf16) (v14 : Vec Ideal S128 .f32) (r : Fin 4000) (j : Fin 128) :
    k2_pay1 (F := Ideal) v0 v2 v7 v11 v14 (ix2 r j) = sageAt v0 v2 v7 v11 v14 r j := by
  unfold k2_pay1 sageAt
  simp only [shapeCast_self]
  rw [maximumf_apply, addf_apply, broadcast_apply, matmul_at, broadcastTo_1b_ab_apply, shapeCast_a_1a_apply, sum_fin256]
  refine congrArg₂ max (congrArg₂ (· + ·) (congrArg₂ (· + ·) (Finset.sum_congr rfl fun k _ => ?_) (Finset.sum_congr rfl fun k _ => ?_)) rfl) rfl
  · rw [cat_feat_left, truncf_apply, mulf_apply, shapeCast_self, broadcastTo_a1_ab_apply, shapeCast_self]
  · rw [cat_feat_right, truncf_apply, shapeCast_self]

/-- The second call's payload is the same text. -/
theorem sage_pay3_at (v0 : Vec Ideal S4000x128 .f32) (v2 : Vec Ideal S4000x1 .f32) (v7 : Vec Ideal S4000x128 .f32) (v11 : Vec Ideal S256x128 .bf16) (v14 : Vec Ideal S128 .f32) (r : Fin 4000) (j : Fin 128) :
    k3_pay1 (F := Ideal) v0 v2 v7 v11 v14 (ix2 r j) = sageAt v0 v2 v7 v11 v14 r j :=
  sage_pay_at v0 v2 v7 v11 v14 r j

/-! ## The target's host operations read at an index -/

/-- A bias `[128]` broadcast to one row and then over `n` rows reads, at `(r, j)`, the bias at `j`. -/
theorem bias_bcast_at {α : Type} {n : ℕ} (b : (⟨1, ![128]⟩ : Shape).Idx → α)
    (h1 : (⟨1, ![128]⟩ : Shape).BroadcastsInDim ⟨2, ![1, 128]⟩ ![1])
    (h2 : (⟨2, ![1, 128]⟩ : Shape).BroadcastsInDim ⟨2, ![n, 128]⟩ ![0, 1]) (r : Fin n) (j : Fin 128) :
    broadcastInDim ⟨2, ![n, 128]⟩ ![0, 1] h2 (broadcastInDim ⟨2, ![1, 128]⟩ ![1] h1 b) (ix2 r j) = b (ix1 j) := by
  rw [broadcastInDim_apply _ h2 _ (ix2 r j) (ix2 (0 : Fin 1) j) (fun a => match a with
    | ⟨0, _⟩ => rfl
    | ⟨1, _⟩ => rfl)]
  exact broadcastInDim_apply _ h1 b _ (ix1 j) (fun a => match a with
    | ⟨0, _⟩ => rfl)

/-- A column `[n, 1]` broadcast along 128 features reads, at `(r, k)`, row `r`'s one entry. -/
theorem col_bcast_at {α : Type} {n : ℕ} (X : (⟨2, ![n, 1]⟩ : Shape).Idx → α)
    (h : (⟨2, ![n, 1]⟩ : Shape).BroadcastsInDim ⟨2, ![n, 128]⟩ ![0, 1]) (r : Fin n) (k : Fin 128) :
    broadcastInDim ⟨2, ![n, 128]⟩ ![0, 1] h X (ix2 r k) = X (ix2 r (0 : Fin 1)) :=
  broadcastInDim_apply _ h X _ _ (fun a => match a with
    | ⟨0, _⟩ => by
      show r.val = if n = 1 then 0 else r.val
      split
      · have := r.isLt; omega
      · rfl
    | ⟨1, _⟩ => rfl)

/-- The joined weight at a joined feature below 128 and output feature `j` is the first matrix at `(j, k)`. -/
theorem wcat_at_left (A B : FVec Ideal S128x128 .f32) (k : Fin 128) (j : Fin 128) :
    Cert.KSpec.wcat (F := Ideal) A B (ix2 (⟨k.val, by omega⟩ : Fin 256) j) = A (ix2 j k) := by
  unfold Cert.KSpec.wcat
  rw [truncf_apply, transpose_ix2_apply, cat_feat_left]

/-- … and from 128 on the second matrix at `(j, k − 128)`. -/
theorem wcat_at_right (A B : FVec Ideal S128x128 .f32) (k : Fin 128) (j : Fin 128) :
    Cert.KSpec.wcat (F := Ideal) A B (ix2 (⟨128 + k.val, by omega⟩ : Fin 256) j) = B (ix2 j k) := by
  unfold Cert.KSpec.wcat
  rw [truncf_apply, transpose_ix2_apply, cat_feat_right]

/-- The row law on the extended reals: the product with the reciprocal of a divisor that is not zero is the quotient, and the
    bias may be added before or after the root term. -/
theorem sage_row_law (s p a bb : Fin 128 → EReal) (m bj z : EReal) (hm : m ≠ 0) :
    max ((∑ k, s k * Ideal.div 1 m * a k + ∑ k, p k * bb k) + bj) z
      = max ((∑ k, Ideal.div (s k) m * a k + bj) + ∑ k, p k * bb k) z := by
  simp only [Ideal.mul_one_div hm]
  rw [add_right_comm]

/-- A count raised to at least one is not zero. -/
theorem max_one_ne_zero (x : EReal) : max x 1 ≠ 0 :=
  ne_of_gt (lt_of_lt_of_le zero_lt_one (le_max_right x 1))

/- the TensorCore's buffer contents when the region is entered, at the extended reals -/
variable (V : (c : Dev nD) → (b : Ref sig .tc) → Buf (Elt Ideal) ((c : Thread nD τ).loc b))

/-! ## Call 2: from blocks to the array -/

theorem hz2 : (![0, 0] : Fin 2 → Nat) = fun _ => 0 := funext fun a => by fin_cases a <;> rfl
theorem hz1 : (![0] : Fin 1 → Nat) = fun _ => 0 := funext fun a => by fin_cases a <;> rfl

/-- The whole array of a first-layer update over 20000 rows, in the kernel's form. -/
def sageG2 (S : FVec Ideal S20000x128 .f32) (ic : FVec Ideal S20000x1 .f32) (P : FVec Ideal S20000x128 .f32)
    (W : FVec Ideal S256x128 .bf16) (b : FVec Ideal S128 .f32) : FVec Ideal S20000x128 .f32 :=
  fun i => sageAt S ic P W b (⟨(i 0).val, idx2_lt0 i⟩ : Fin 20000) (⟨(i 1).val, idx2_lt1 i⟩ : Fin 128)

/-- The printed index maps, decided over the five grid points: the row windows are at block `t`, the weight and the bias whole. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row `p` of block `t` is row `4000 t + p` of the array. -/
def row2 (t : Fin cfg2.N) (p : Fin 4000) : Fin 20000 :=
  ⟨t.val * 4000 + p.val, by have := t.isLt; have hN : cfg2.N = 5 := N_2; omega⟩

/-- The neighbour-sum block at point `t` is rows `4000 t …` of its array. -/
theorem iblk2_0_at (c : Dev nD) (t : Fin cfg2.N) (p : Fin 4000) (k : Fin 128) :
    (iblk2 V c 0 t : Vec Ideal S4000x128 .f32) (ix2 p k)
      = (V c (Pipeline.arrRef spec2 0) : Vec Ideal S20000x128 .f32) (ix2 (row2 t p) k) := by
  obtain ⟨e0, e1, -⟩ := idx_facts2 t
  show V c (Pipeline.arrRef spec2 0) (((cfg2.win 0).blk t).view.emb (ix2 p k)) = _
  refine congrArg _ (funext fun a => Fin.ext ?_)
  match a with
  | ⟨0, _⟩ => show win2_0.index t (0 : Fin 2) * 4000 + 1 * p.val = t.val * 4000 + p.val; rw [e0]; omega
  | ⟨1, _⟩ => show win2_0.index t (1 : Fin 2) * 128 + 1 * k.val = k.val; rw [e1]; omega

/-- The reciprocal-count block likewise. -/
theorem iblk2_1_at (c : Dev nD) (t : Fin cfg2.N) (p : Fin 4000) (k : Fin 1) :
    (iblk2 V c 1 t : Vec Ideal S4000x1 .f32) (ix2 p k)
      = (V c (Pipeline.arrRef spec2 1) : Vec Ideal S20000x1 .f32) (ix2 (row2 t p) k) := by
  obtain ⟨-, -, e0, e1, -⟩ := idx_facts2 t
  show V c (Pipeline.arrRef spec2 1) (((cfg2.win 1).blk t).view.emb (ix2 p k)) = _
  refine congrArg _ (funext fun a => Fin.ext ?_)
  match a with
  | ⟨0, _⟩ => show win2_1.index t (0 : Fin 2) * 4000 + 1 * p.val = t.val * 4000 + p.val; rw [e0]; omega
  | ⟨1, _⟩ => show win2_1.index t (1 : Fin 2) * 1 + 1 * k.val = k.val; rw [e1]; omega

/-- The root block likewise. -/
theorem iblk2_2_at (c : Dev nD) (t : Fin cfg2.N) (p : Fin 4000) (k : Fin 128) :
    (iblk2 V c 2 t : Vec Ideal S4000x128 .f32) (ix2 p k)
      = (V c (Pipeline.arrRef spec2 2) : Vec Ideal S20000x128 .f32) (ix2 (row2 t p) k) := by
  obtain ⟨-, -, -, -, e0, e1, -⟩ := idx_facts2 t
  show V c (Pipeline.arrRef spec2 2) (((cfg2.win 2).blk t).view.emb (ix2 p k)) = _
  refine congrArg _ (funext fun a => Fin.ext ?_)
  match a with
  | ⟨0, _⟩ => show win2_2.index t (0 : Fin 2) * 4000 + 1 * p.val = t.val * 4000 + p.val; rw [e0]; omega
  | ⟨1, _⟩ => show win2_2.index t (1 : Fin 2) * 128 + 1 * k.val = k.val; rw [e1]; omega

/-- The joined weight's block is the whole weight at every point. -/
theorem iblk2_3_at (c : Dev nD) (t : Fin cfg2.N) (k : Fin 256) (j : Fin 128) :
    (iblk2 V c 3 t : Vec Ideal S256x128 .bf16) (ix2 k j)
      = (V c (Pipeline.arrRef spec2 3) : Vec Ideal S256x128 .bf16) (ix2 k j) := by
  obtain ⟨-, -, -, -, -, -, e0, e1, -⟩ := idx_facts2 t
  show V c (Pipeline.arrRef spec2 3) (((cfg2.win 3).blk t).view.emb (ix2 k j)) = _
  refine congrArg _ (funext fun a => Fin.ext ?_)
  match a with
  | ⟨0, _⟩ => show win2_3.index t (0 : Fin 2) * 256 + 1 * k.val = k.val; rw [e0]; omega
  | ⟨1, _⟩ => show win2_3.index t (1 : Fin 2) * 128 + 1 * j.val = j.val; rw [e1]; omega

/-- The bias's block is the whole bias at every point. -/
theorem iblk2_4_at (c : Dev nD) (t : Fin cfg2.N) (j : Fin 128) :
    (iblk2 V c 4 t : Vec Ideal S128 .f32) (ix1 j)
      = (V c (Pipeline.arrRef spec2 4) : Vec Ideal S128 .f32) (ix1 j) := by
  obtain ⟨-, -, -, -, -, -, -, -, e0, -⟩ := idx_facts2 t
  show V c (Pipeline.arrRef spec2 4) (((cfg2.win 4).blk t).view.emb (ix1 j)) = _
  refine congrArg _ (funext fun a => Fin.ext ?_)
  match a with
  | ⟨0, _⟩ => show win2_4.index t (0 : Fin 1) * 128 + 1 * j.val = j.val; rw [e0]; omega

/-- The output block's element `(p, q)` sits at row `4000 t + p`, feature `q` of the array. -/
theorem emb2_5 (t : Fin cfg2.N) (p : Fin 4000) (q : Fin 128) :
    ((cfg2.win 5).blk t).view.emb (ix2 p q) = (ix2 (row2 t p) q : S20000x128.Idx) := by
  obtain ⟨-, -, -, -, -, -, -, -, -, e0, e1⟩ := idx_facts2 t
  refine funext fun a => Fin.ext ?_
  match a with
  | ⟨0, _⟩ => show win2_5.index t (0 : Fin 2) * 4000 + 1 * p.val = t.val * 4000 + p.val; rw [e0]; omega
  | ⟨1, _⟩ => show win2_5.index t (1 : Fin 2) * 128 + 1 * q.val = q.val; rw [e1]; omega

/-- WHAT POINT `t` WRITES BACK is block `t` of the whole-array function of the arrays the call reads. -/
theorem flushed2_eq (c : Dev nD) (S : FVec Ideal S20000x128 .f32) (ic : FVec Ideal S20000x1 .f32) (P : FVec Ideal S20000x128 .f32)
    (W : FVec Ideal S256x128 .bf16) (b : FVec Ideal S128 .f32)
    (h0 : V c (Pipeline.arrRef spec2 0) = S) (h1 : V c (Pipeline.arrRef spec2 1) = ic)
    (h2 : V c (Pipeline.arrRef spec2 2) = P) (h3 : V c (Pipeline.arrRef spec2 3) = W)
    (h4 : V c (Pipeline.arrRef spec2 4) = b) (t : Fin cfg2.N) :
    (dat2 (F := Ideal) V c).flushed 5 t = ((cfg2.win 5).blk t).view.read (Elt Ideal) (sageG2 S ic P W b) := by
  show (cfg2.win 5).cut (grid2.coords t) ((dat2 V c).after 5 t) = _
  rw [after2_5]
  unfold out2_5
  rw [View.canon_unit_zero hz2]
  simp only [View.ld_unit_zero (S := S4000x128) hz2, View.ld_unit_zero (S := S4000x1) hz2, View.ld_unit_zero (S := S256x128) hz2, View.ld_unit_zero (S := S128) hz1]
  funext y
  obtain ⟨p, q, rfl⟩ : ∃ (p : Fin 4000) (q : Fin 128), y = ix2 p q := ⟨y 0, y 1, eq_ix2 y⟩
  show k2_pay1 (iblk2 V c 0 t) (iblk2 V c 1 t) (iblk2 V c 2 t) (iblk2 V c 3 t) (iblk2 V c 4 t) (ix2 p q) = sageG2 S ic P W b (((cfg2.win 5).blk t).view.emb (ix2 p q))
  rw [emb2_5 t p q]
  refine (sage_pay_at (iblk2 V c 0 t) (iblk2 V c 1 t) (iblk2 V c 2 t) (iblk2 V c 3 t) (iblk2 V c 4 t) p q).trans ?_
  show sageAt (iblk2 V c 0 t) (iblk2 V c 1 t) (iblk2 V c 2 t) (iblk2 V c 3 t) (iblk2 V c 4 t) p q = sageAt S ic P W b (row2 t p) q
  unfold sageAt
  simp only [iblk2_0_at V c t, iblk2_1_at V c t, iblk2_2_at V c t, iblk2_3_at V c t, iblk2_4_at V c t, h0, h1, h2, h3, h4]

/-- An index of the array is in point `t`'s block iff each coordinate is in the block's range on its axis. -/
theorem mem_blk2 (t : Fin cfg2.N) (i : S20000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v46).slice (win2_5.rect t)).set ↔ _
  rw [View.set_slice_whole, Rect.mem_set_unit]
  exact Iff.rfl

/-- Every row is in the block of the point `row / 4000`. -/
theorem cover2 (i : S20000x128.Idx) : ∃ t : Fin cfg2.N, (cfg2.win 5).flush t = true ∧ i ∈ ((cfg2.win 5).blk t).view.set := by
  have hi0 : (i 0).val < 20000 := idx2_lt0 i
  have hi1 : (i 1).val < 128 := idx2_lt1 i
  have hN : cfg2.N = 5 := N_2
  refine ⟨⟨(i 0).val / 4000, by omega⟩, flush2_5 _, ?_⟩
  obtain ⟨-, -, -, -, -, -, -, -, -, e0, e1⟩ := idx_facts2 ⟨(i 0).val / 4000, by omega⟩
  rw [mem_blk2]
  intro a
  match a with
  | ⟨0, _⟩ =>
    show win2_5.index ⟨(i 0).val / 4000, _⟩ (0 : Fin 2) * 4000 ≤ (i 0).val ∧ (i 0).val < win2_5.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win2_5.index ⟨(i 0).val / 4000, _⟩ (1 : Fin 2) * 128 ≤ (i 1).val ∧ (i 1).val < win2_5.index ⟨(i 0).val / 4000, _⟩ (1 : Fin 2) * 128 + 128
    rw [e1]; omega

/-- THE ARRAY the call leaves: the whole-array function of the arrays it reads. -/
theorem arr2_eq (c : Dev nD) (S : FVec Ideal S20000x128 .f32) (ic : FVec Ideal S20000x1 .f32) (P : FVec Ideal S20000x128 .f32)
    (W : FVec Ideal S256x128 .bf16) (b : FVec Ideal S128 .f32)
    (h0 : V c (Pipeline.arrRef spec2 0) = S) (h1 : V c (Pipeline.arrRef spec2 1) = ic)
    (h2 : V c (Pipeline.arrRef spec2 2) = P) (h3 : V c (Pipeline.arrRef spec2 3) = W)
    (h4 : V c (Pipeline.arrRef spec2 4) = b) :
    (dat2 (F := Ideal) V c).arrAt 5 cfg2.N = sageG2 S ic P W b :=
  (dat2 (F := Ideal) V c).arrAt_eq_of_cover 5 (sageG2 S ic P W b) (fun t _ => flushed2_eq V c S ic P W b h0 h1 h2 h3 h4 t) cover2

theorem lhs_hdP_0 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 0).val = (i 0).val := by
  unfold DotDims.lhsIdx
  rw [dif_neg (show ¬(0 : Fin Cert.ReferenceIdeal.S20000x128.rank) ∈ Cert.ReferenceIdeal.dot_S20000x128_S128x128_S20000x128_1_0_0_1_n_n.lhsBatch by decide), dif_pos (show (0 : Fin Cert.ReferenceIdeal.S20000x128.rank) ∈ Cert.ReferenceIdeal.dot_S20000x128_S128x128_S20000x128_1_0_0_1_n_n.lhsNonContracting by decide)]
  rfl
theorem lhs_hdP_1 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 1).val = (q ⟨0, by decide⟩).val :=
  Cert.ReferenceIdeal.dot_S20000x128_S128x128_S20000x128_1_0_0_1_n_n.lhsIdx_val_of_single rfl i q
theorem rhs_hdP_0 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 0).val = (q ⟨0, by decide⟩).val :=
  Cert.ReferenceIdeal.dot_S20000x128_S128x128_S20000x128_1_0_0_1_n_n.rhsIdx_val_of_single rfl i q
theorem rhs_hdP_1 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 1).val = (i 1).val := by
  unfold DotDims.rhsIdx
  rw [dif_neg (show ¬(1 : Fin Cert.ReferenceIdeal.S128x128.rank) ∈ Cert.ReferenceIdeal.dot_S20000x128_S128x128_S20000x128_1_0_0_1_n_n.rhsBatch by decide), dif_pos (show (1 : Fin Cert.ReferenceIdeal.S128x128.rank) ∈ Cert.ReferenceIdeal.dot_S20000x128_S128x128_S20000x128_1_0_0_1_n_n.rhsNonContracting by decide)]
  rfl

/-- The host's product of 20000 rows with a `[128, 128]` matrix, at row `r` and output feature `j`: the sum over the 128 features. -/
theorem hostDotP_at (x : FVec Ideal Cert.ReferenceIdeal.S20000x128 .f32) (y : FVec Ideal Cert.ReferenceIdeal.S128x128 .f32) (r : Fin 20000) (j : Fin 128) :
    Host.dotGeneral Cert.ReferenceIdeal.dot_S20000x128_S128x128_S20000x128_1_0_0_1_n_n none x y (ix2 r j) = ∑ k : Fin 128, x (ix2 r k) * y (ix2 k j) := by
  simp only [Host.dotGeneral]
  rw [Ideal.dotGeneral_apply, ← Equiv.sum_comp (contrEquiv1 Cert.ReferenceIdeal.dot_S20000x128_S128x128_S20000x128_1_0_0_1_n_n 128 rfl rfl).symm]
  refine Finset.sum_congr rfl fun k _ => ?_
  have hk := contrEquiv1_symm_val Cert.ReferenceIdeal.dot_S20000x128_S128x128_S20000x128_1_0_0_1_n_n 128 rfl rfl k
  have el : Cert.ReferenceIdeal.dot_S20000x128_S128x128_S20000x128_1_0_0_1_n_n.lhsIdx (ix2 r j) ((contrEquiv1 Cert.ReferenceIdeal.dot_S20000x128_S128x128_S20000x128_1_0_0_1_n_n 128 rfl rfl).symm k) = ix2 r k := funext fun a => Fin.ext (by
    match a with
    | ⟨0, _⟩ => exact lhs_hdP_0 _ _
    | ⟨1, _⟩ => exact (lhs_hdP_1 _ _).trans hk)
  have er : Cert.ReferenceIdeal.dot_S20000x128_S128x128_S20000x128_1_0_0_1_n_n.rhsIdx (ix2 r j) ((contrEquiv1 Cert.ReferenceIdeal.dot_S20000x128_S128x128_S20000x128_1_0_0_1_n_n 128 rfl rfl).symm k) = ix2 k j := funext fun a => Fin.ext (by
    match a with
    | ⟨0, _⟩ => exact (rhs_hdP_0 _ _).trans hk
    | ⟨1, _⟩ => exact rhs_hdP_1 _ _)
  rw [el, er]

/-- The mean at `(r, k)`: the neighbour sum divided by the count raised to at least one. -/
theorem meanP_at (S : FVec Ideal S20000x128 .f32) (cnt : FVec Ideal S20000x1 .f32) (r : Fin 20000) (k : Fin 128) :
    Cert.Spec.meanP (F := Ideal) S cnt (ix2 r k) = Ideal.div (S (ix2 r k)) (max (cnt (ix2 r (0 : Fin 1))) 1) := by
  unfold Cert.Spec.meanP
  rw [hostDivf_apply, col_bcast_at, maximumf_apply, broadcastInDim_scalar_apply, constant_apply, Ideal.ofBits_one_f32]

/-- The reciprocal count at row `r`. -/
theorem invCntP_at (cnt : FVec Ideal S20000x1 .f32) (r : Fin 20000) :
    Cert.KSpec.invCntP (F := Ideal) cnt (ix2 r (0 : Fin 1)) = Ideal.div 1 (max (cnt (ix2 r (0 : Fin 1))) 1) := by
  unfold Cert.KSpec.invCntP
  rw [hostDivf_apply, maximumf_apply, broadcastInDim_scalar_apply, constant_apply, Ideal.ofBits_one_f32]

/-- The reference's update at row `r` and output feature `j`. -/
theorem sageP_at (S : FVec Ideal S20000x128 .f32) (cnt : FVec Ideal S20000x1 .f32) (P : FVec Ideal S20000x128 .f32) (A B : FVec Ideal S128x128 .f32) (b : FVec Ideal S128 .f32) (r : Fin 20000) (j : Fin 128) :
    Cert.Spec.sageP (F := Ideal) S cnt P A B b (ix2 r j)
      = max ((∑ k : Fin 128, Ideal.div (S (ix2 r k)) (max (cnt (ix2 r (0 : Fin 1))) 1) * A (ix2 j k) + b (ix1 j))
          + ∑ k : Fin 128, P (ix2 r k) * B (ix2 j k)) (Ideal.ofBits .f32 0x00000000#32) := by
  unfold Cert.Spec.sageP
  rw [maximumf_apply, addf_apply, addf_apply, hostDotP_at, hostDotP_at, bias_bcast_at, broadcastInDim_scalar_apply, constant_apply]
  refine congrArg₂ max (congrArg₂ (· + ·) (congrArg₂ (· + ·) (Finset.sum_congr rfl fun k _ => ?_) rfl) (Finset.sum_congr rfl fun k _ => ?_)) rfl
  · rw [meanP_at, transpose_ix2_apply]
  · rw [transpose_ix2_apply]

/-- The kernel's form of the update at the arrays its program hands the call, at row `r` and output feature `j`. -/
theorem sageK2_at (S : FVec Ideal S20000x128 .f32) (cnt : FVec Ideal S20000x1 .f32) (P : FVec Ideal S20000x128 .f32) (A B : FVec Ideal S128x128 .f32) (b : FVec Ideal S128 .f32) (r : Fin 20000) (j : Fin 128) :
    sageAt S (Cert.KSpec.invCntP (F := Ideal) cnt) P (Cert.KSpec.wcat (F := Ideal) A B) b r j
      = max ((∑ k : Fin 128, S (ix2 r k) * Ideal.div 1 (max (cnt (ix2 r (0 : Fin 1))) 1) * A (ix2 j k)
          + ∑ k : Fin 128, P (ix2 r k) * B (ix2 j k)) + b (ix1 j)) (Ideal.ofBits .f32 0x00000000#32) := by
  unfold sageAt
  rw [invCntP_at]
  refine congrArg₂ max (congrArg₂ (· + ·) (congrArg₂ (· + ·) (Finset.sum_congr rfl fun k _ => ?_) (Finset.sum_congr rfl fun k _ => ?_)) rfl) rfl
  · rw [wcat_at_left]
  · rw [wcat_at_right]

/-- The kernel's whole-array function at the arrays its program hands the call is the reference's update. -/
theorem sageG2_eq_spec (S : FVec Ideal S20000x128 .f32) (cnt : FVec Ideal S20000x1 .f32) (P : FVec Ideal S20000x128 .f32) (A B : FVec Ideal S128x128 .f32) (b : FVec Ideal S128 .f32) :
    sageG2 S (Cert.KSpec.invCntP (F := Ideal) cnt) P (Cert.KSpec.wcat (F := Ideal) A B) b = Cert.Spec.sageP (F := Ideal) S cnt P A B b := by
  funext i
  obtain ⟨r, j, rfl⟩ : ∃ (r : Fin 20000) (j : Fin 128), i = ix2 r j := ⟨i 0, i 1, eq_ix2 i⟩
  show sageAt S (Cert.KSpec.invCntP (F := Ideal) cnt) P (Cert.KSpec.wcat (F := Ideal) A B) b r j = Cert.Spec.sageP (F := Ideal) S cnt P A B b (ix2 r j)
  rw [sageK2_at, sageP_at]
  exact sage_row_law _ _ _ _ _ _ _ (max_one_ne_zero _)

/-- Call 2 (problems, layer 1, 5 blocks): the output array, as a function of the arrays the call reads. -/
theorem region2_value (c : Dev nD) (S : FVec Ideal S20000x128 .f32) (cnt : FVec Ideal S20000x1 .f32) (P : FVec Ideal S20000x128 .f32) (A B : FVec Ideal S128x128 .f32) (b : FVec Ideal S128 .f32)
    (h0 : V c (Pipeline.arrRef spec2 0) = S) (h1 : V c (Pipeline.arrRef spec2 1) = Cert.KSpec.invCntP cnt)
    (h2 : V c (Pipeline.arrRef spec2 2) = P) (h3 : V c (Pipeline.arrRef spec2 3) = Cert.KSpec.wcat A B)
    (h4 : V c (Pipeline.arrRef spec2 4) = b) :
    (dat2 (F := Ideal) V c).arrAt 5 cfg2.N = Cert.Spec.sageP S cnt P A B b := by
  rw [arr2_eq V c S (Cert.KSpec.invCntP (F := Ideal) cnt) P (Cert.KSpec.wcat (F := Ideal) A B) b h0 h1 h2 h3 h4]
  exact sageG2_eq_spec S cnt P A B b

/-! ## Call 3: from blocks to the array -/

/-- The whole array of a first-layer update over 100000 rows, in the kernel's form. -/
def sageG3 (S : FVec Ideal S100000x128 .f32) (ic : FVec Ideal S100000x1 .f32) (P : FVec Ideal S100000x128 .f32)
    (W : FVec Ideal S256x128 .bf16) (b : FVec Ideal S128 .f32) : FVec Ideal S100000x128 .f32 :=
  fun i => sageAt S ic P W b (⟨(i 0).val, idx2_lt0 i⟩ : Fin 100000) (⟨(i 1).val, idx2_lt1 i⟩ : Fin 128)

/-- The printed index maps, decided over the twenty-five grid points: the row windows are at block `t`, the weight and the bias whole. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = t.val ∧ win3_5.index t (1 : Fin 2) = 0 :=
  (by decide +kernel : ∀ t : Fin grid3.N, _)

/-- Row `p` of block `t` is row `4000 t + p` of the array. -/
def row3 (t : Fin cfg3.N) (p : Fin 4000) : Fin 100000 :=
  ⟨t.val * 4000 + p.val, by have := t.isLt; have hN : cfg3.N = 25 := N_3; omega⟩

/-- The neighbour-sum block at point `t` is rows `4000 t …` of its array. -/
theorem iblk3_0_at (c : Dev nD) (t : Fin cfg3.N) (p : Fin 4000) (k : Fin 128) :
    (iblk3 V c 0 t : Vec Ideal S4000x128 .f32) (ix2 p k)
      = (V c (Pipeline.arrRef spec3 0) : Vec Ideal S100000x128 .f32) (ix2 (row3 t p) k) := by
  obtain ⟨e0, e1, -⟩ := idx_facts3 t
  show V c (Pipeline.arrRef spec3 0) (((cfg3.win 0).blk t).view.emb (ix2 p k)) = _
  refine congrArg _ (funext fun a => Fin.ext ?_)
  match a with
  | ⟨0, _⟩ => show win3_0.index t (0 : Fin 2) * 4000 + 1 * p.val = t.val * 4000 + p.val; rw [e0]; omega
  | ⟨1, _⟩ => show win3_0.index t (1 : Fin 2) * 128 + 1 * k.val = k.val; rw [e1]; omega

/-- The reciprocal-count block likewise. -/
theorem iblk3_1_at (c : Dev nD) (t : Fin cfg3.N) (p : Fin 4000) (k : Fin 1) :
    (iblk3 V c 1 t : Vec Ideal S4000x1 .f32) (ix2 p k)
      = (V c (Pipeline.arrRef spec3 1) : Vec Ideal S100000x1 .f32) (ix2 (row3 t p) k) := by
  obtain ⟨-, -, e0, e1, -⟩ := idx_facts3 t
  show V c (Pipeline.arrRef spec3 1) (((cfg3.win 1).blk t).view.emb (ix2 p k)) = _
  refine congrArg _ (funext fun a => Fin.ext ?_)
  match a with
  | ⟨0, _⟩ => show win3_1.index t (0 : Fin 2) * 4000 + 1 * p.val = t.val * 4000 + p.val; rw [e0]; omega
  | ⟨1, _⟩ => show win3_1.index t (1 : Fin 2) * 1 + 1 * k.val = k.val; rw [e1]; omega

/-- The root block likewise. -/
theorem iblk3_2_at (c : Dev nD) (t : Fin cfg3.N) (p : Fin 4000) (k : Fin 128) :
    (iblk3 V c 2 t : Vec Ideal S4000x128 .f32) (ix2 p k)
      = (V c (Pipeline.arrRef spec3 2) : Vec Ideal S100000x128 .f32) (ix2 (row3 t p) k) := by
  obtain ⟨-, -, -, -, e0, e1, -⟩ := idx_facts3 t
  show V c (Pipeline.arrRef spec3 2) (((cfg3.win 2).blk t).view.emb (ix2 p k)) = _
  refine congrArg _ (funext fun a => Fin.ext ?_)
  match a with
  | ⟨0, _⟩ => show win3_2.index t (0 : Fin 2) * 4000 + 1 * p.val = t.val * 4000 + p.val; rw [e0]; omega
  | ⟨1, _⟩ => show win3_2.index t (1 : Fin 2) * 128 + 1 * k.val = k.val; rw [e1]; omega

/-- The joined weight's block is the whole weight at every point. -/
theorem iblk3_3_at (c : Dev nD) (t : Fin cfg3.N) (k : Fin 256) (j : Fin 128) :
    (iblk3 V c 3 t : Vec Ideal S256x128 .bf16) (ix2 k j)
      = (V c (Pipeline.arrRef spec3 3) : Vec Ideal S256x128 .bf16) (ix2 k j) := by
  obtain ⟨-, -, -, -, -, -, e0, e1, -⟩ := idx_facts3 t
  show V c (Pipeline.arrRef spec3 3) (((cfg3.win 3).blk t).view.emb (ix2 k j)) = _
  refine congrArg _ (funext fun a => Fin.ext ?_)
  match a with
  | ⟨0, _⟩ => show win3_3.index t (0 : Fin 2) * 256 + 1 * k.val = k.val; rw [e0]; omega
  | ⟨1, _⟩ => show win3_3.index t (1 : Fin 2) * 128 + 1 * j.val = j.val; rw [e1]; omega

/-- The bias's block is the whole bias at every point. -/
theorem iblk3_4_at (c : Dev nD) (t : Fin cfg3.N) (j : Fin 128) :
    (iblk3 V c 4 t : Vec Ideal S128 .f32) (ix1 j)
      = (V c (Pipeline.arrRef spec3 4) : Vec Ideal S128 .f32) (ix1 j) := by
  obtain ⟨-, -, -, -, -, -, -, -, e0, -⟩ := idx_facts3 t
  show V c (Pipeline.arrRef spec3 4) (((cfg3.win 4).blk t).view.emb (ix1 j)) = _
  refine congrArg _ (funext fun a => Fin.ext ?_)
  match a with
  | ⟨0, _⟩ => show win3_4.index t (0 : Fin 1) * 128 + 1 * j.val = j.val; rw [e0]; omega

/-- The output block's element `(p, q)` sits at row `4000 t + p`, feature `q` of the array. -/
theorem emb3_5 (t : Fin cfg3.N) (p : Fin 4000) (q : Fin 128) :
    ((cfg3.win 5).blk t).view.emb (ix2 p q) = (ix2 (row3 t p) q : S100000x128.Idx) := by
  obtain ⟨-, -, -, -, -, -, -, -, -, e0, e1⟩ := idx_facts3 t
  refine funext fun a => Fin.ext ?_
  match a with
  | ⟨0, _⟩ => show win3_5.index t (0 : Fin 2) * 4000 + 1 * p.val = t.val * 4000 + p.val; rw [e0]; omega
  | ⟨1, _⟩ => show win3_5.index t (1 : Fin 2) * 128 + 1 * q.val = q.val; rw [e1]; omega

/-- WHAT POINT `t` WRITES BACK is block `t` of the whole-array function of the arrays the call reads. -/
theorem flushed3_eq (c : Dev nD) (S : FVec Ideal S100000x128 .f32) (ic : FVec Ideal S100000x1 .f32) (P : FVec Ideal S100000x128 .f32)
    (W : FVec Ideal S256x128 .bf16) (b : FVec Ideal S128 .f32)
    (h0 : V c (Pipeline.arrRef spec3 0) = S) (h1 : V c (Pipeline.arrRef spec3 1) = ic)
    (h2 : V c (Pipeline.arrRef spec3 2) = P) (h3 : V c (Pipeline.arrRef spec3 3) = W)
    (h4 : V c (Pipeline.arrRef spec3 4) = b) (t : Fin cfg3.N) :
    (dat3 (F := Ideal) V c).flushed 5 t = ((cfg3.win 5).blk t).view.read (Elt Ideal) (sageG3 S ic P W b) := by
  show (cfg3.win 5).cut (grid3.coords t) ((dat3 V c).after 5 t) = _
  rw [after3_5]
  unfold out3_5
  rw [View.canon_unit_zero hz2]
  simp only [View.ld_unit_zero (S := S4000x128) hz2, View.ld_unit_zero (S := S4000x1) hz2, View.ld_unit_zero (S := S256x128) hz2, View.ld_unit_zero (S := S128) hz1]
  funext y
  obtain ⟨p, q, rfl⟩ : ∃ (p : Fin 4000) (q : Fin 128), y = ix2 p q := ⟨y 0, y 1, eq_ix2 y⟩
  show k3_pay1 (iblk3 V c 0 t) (iblk3 V c 1 t) (iblk3 V c 2 t) (iblk3 V c 3 t) (iblk3 V c 4 t) (ix2 p q) = sageG3 S ic P W b (((cfg3.win 5).blk t).view.emb (ix2 p q))
  rw [emb3_5 t p q]
  refine (sage_pay3_at (iblk3 V c 0 t) (iblk3 V c 1 t) (iblk3 V c 2 t) (iblk3 V c 3 t) (iblk3 V c 4 t) p q).trans ?_
  show sageAt (iblk3 V c 0 t) (iblk3 V c 1 t) (iblk3 V c 2 t) (iblk3 V c 3 t) (iblk3 V c 4 t) p q = sageAt S ic P W b (row3 t p) q
  unfold sageAt
  simp only [iblk3_0_at V c t, iblk3_1_at V c t, iblk3_2_at V c t, iblk3_3_at V c t, iblk3_4_at V c t, h0, h1, h2, h3, h4]

/-- An index of the array is in point `t`'s block iff each coordinate is in the block's range on its axis. -/
theorem mem_blk3 (t : Fin cfg3.N) (i : S100000x128.Idx) :
    i ∈ ((cfg3.win 5).blk t).view.set ↔ ∀ a : Fin 2, win3_5.index t a * S4000x128.size a ≤ (i a).val ∧ (i a).val < win3_5.index t a * S4000x128.size a + S4000x128.size a := by
  show i ∈ ((View.whole main_v49).slice (win3_5.rect t)).set ↔ _
  rw [View.set_slice_whole, Rect.mem_set_unit]
  exact Iff.rfl

/-- Every row is in the block of the point `row / 4000`. -/
theorem cover3 (i : S100000x128.Idx) : ∃ t : Fin cfg3.N, (cfg3.win 5).flush t = true ∧ i ∈ ((cfg3.win 5).blk t).view.set := by
  have hi0 : (i 0).val < 100000 := idx2_lt0 i
  have hi1 : (i 1).val < 128 := idx2_lt1 i
  have hN : cfg3.N = 25 := N_3
  refine ⟨⟨(i 0).val / 4000, by omega⟩, flush3_5 _, ?_⟩
  obtain ⟨-, -, -, -, -, -, -, -, -, e0, e1⟩ := idx_facts3 ⟨(i 0).val / 4000, by omega⟩
  rw [mem_blk3]
  intro a
  match a with
  | ⟨0, _⟩ =>
    show win3_5.index ⟨(i 0).val / 4000, _⟩ (0 : Fin 2) * 4000 ≤ (i 0).val ∧ (i 0).val < win3_5.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win3_5.index ⟨(i 0).val / 4000, _⟩ (1 : Fin 2) * 128 ≤ (i 1).val ∧ (i 1).val < win3_5.index ⟨(i 0).val / 4000, _⟩ (1 : Fin 2) * 128 + 128
    rw [e1]; omega

/-- THE ARRAY the call leaves: the whole-array function of the arrays it reads. -/
theorem arr3_eq (c : Dev nD) (S : FVec Ideal S100000x128 .f32) (ic : FVec Ideal S100000x1 .f32) (P : FVec Ideal S100000x128 .f32)
    (W : FVec Ideal S256x128 .bf16) (b : FVec Ideal S128 .f32)
    (h0 : V c (Pipeline.arrRef spec3 0) = S) (h1 : V c (Pipeline.arrRef spec3 1) = ic)
    (h2 : V c (Pipeline.arrRef spec3 2) = P) (h3 : V c (Pipeline.arrRef spec3 3) = W)
    (h4 : V c (Pipeline.arrRef spec3 4) = b) :
    (dat3 (F := Ideal) V c).arrAt 5 cfg3.N = sageG3 S ic P W b :=
  (dat3 (F := Ideal) V c).arrAt_eq_of_cover 5 (sageG3 S ic P W b) (fun t _ => flushed3_eq V c S ic P W b h0 h1 h2 h3 h4 t) cover3

theorem lhs_hdU_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhs_hdU_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhs_hdU_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhs_hdU_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's product of 100000 rows with a `[128, 128]` matrix, at row `r` and output feature `j`: the sum over the 128 features. -/
theorem hostDotU_at (x : FVec Ideal Cert.ReferenceIdeal.S100000x128 .f32) (y : FVec Ideal Cert.ReferenceIdeal.S128x128 .f32) (r : Fin 100000) (j : Fin 128) :
    Host.dotGeneral Cert.ReferenceIdeal.dot_S100000x128_S128x128_S100000x128_1_0_0_1_n_n none x y (ix2 r j) = ∑ k : Fin 128, x (ix2 r k) * y (ix2 k j) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r j) ((contrEquiv1 Cert.ReferenceIdeal.dot_S100000x128_S128x128_S100000x128_1_0_0_1_n_n 128 rfl rfl).symm k) = ix2 r k := funext fun a => Fin.ext (by
    match a with
    | ⟨0, _⟩ => exact lhs_hdU_0 _ _
    | ⟨1, _⟩ => exact (lhs_hdU_1 _ _).trans hk)
  have er : Cert.ReferenceIdeal.dot_S100000x128_S128x128_S100000x128_1_0_0_1_n_n.rhsIdx (ix2 r j) ((contrEquiv1 Cert.ReferenceIdeal.dot_S100000x128_S128x128_S100000x128_1_0_0_1_n_n 128 rfl rfl).symm k) = ix2 k j := funext fun a => Fin.ext (by
    match a with
    | ⟨0, _⟩ => exact (rhs_hdU_0 _ _).trans hk
    | ⟨1, _⟩ => exact rhs_hdU_1 _ _)
  rw [el, er]

/-- The mean at `(r, k)`: the neighbour sum divided by the count raised to at least one. -/
theorem meanU_at (S : FVec Ideal S100000x128 .f32) (cnt : FVec Ideal S100000x1 .f32) (r : Fin 100000) (k : Fin 128) :
    Cert.Spec.meanU (F := Ideal) S cnt (ix2 r k) = Ideal.div (S (ix2 r k)) (max (cnt (ix2 r (0 : Fin 1))) 1) := by
  unfold Cert.Spec.meanU
  rw [hostDivf_apply, col_bcast_at, maximumf_apply, broadcastInDim_scalar_apply, constant_apply, Ideal.ofBits_one_f32]

/-- The reciprocal count at row `r`. -/
theorem invCntU_at (cnt : FVec Ideal S100000x1 .f32) (r : Fin 100000) :
    Cert.KSpec.invCntU (F := Ideal) cnt (ix2 r (0 : Fin 1)) = Ideal.div 1 (max (cnt (ix2 r (0 : Fin 1))) 1) := by
  unfold Cert.KSpec.invCntU
  rw [hostDivf_apply, maximumf_apply, broadcastInDim_scalar_apply, constant_apply, Ideal.ofBits_one_f32]

/-- The reference's update at row `r` and output feature `j`. -/
theorem sageU_at (S : FVec Ideal S100000x128 .f32) (cnt : FVec Ideal S100000x1 .f32) (P : FVec Ideal S100000x128 .f32) (A B : FVec Ideal S128x128 .f32) (b : FVec Ideal S128 .f32) (r : Fin 100000) (j : Fin 128) :
    Cert.Spec.sageU (F := Ideal) S cnt P A B b (ix2 r j)
      = max ((∑ k : Fin 128, Ideal.div (S (ix2 r k)) (max (cnt (ix2 r (0 : Fin 1))) 1) * A (ix2 j k) + b (ix1 j))
          + ∑ k : Fin 128, P (ix2 r k) * B (ix2 j k)) (Ideal.ofBits .f32 0x00000000#32) := by
  unfold Cert.Spec.sageU
  rw [maximumf_apply, addf_apply, addf_apply, hostDotU_at, hostDotU_at, bias_bcast_at, broadcastInDim_scalar_apply, constant_apply]
  refine congrArg₂ max (congrArg₂ (· + ·) (congrArg₂ (· + ·) (Finset.sum_congr rfl fun k _ => ?_) rfl) (Finset.sum_congr rfl fun k _ => ?_)) rfl
  · rw [meanU_at, transpose_ix2_apply]
  · rw [transpose_ix2_apply]

/-- The kernel's form of the update at the arrays its program hands the call, at row `r` and output feature `j`. -/
theorem sageK3_at (S : FVec Ideal S100000x128 .f32) (cnt : FVec Ideal S100000x1 .f32) (P : FVec Ideal S100000x128 .f32) (A B : FVec Ideal S128x128 .f32) (b : FVec Ideal S128 .f32) (r : Fin 100000) (j : Fin 128) :
    sageAt S (Cert.KSpec.invCntU (F := Ideal) cnt) P (Cert.KSpec.wcat (F := Ideal) A B) b r j
      = max ((∑ k : Fin 128, S (ix2 r k) * Ideal.div 1 (max (cnt (ix2 r (0 : Fin 1))) 1) * A (ix2 j k)
          + ∑ k : Fin 128, P (ix2 r k) * B (ix2 j k)) + b (ix1 j)) (Ideal.ofBits .f32 0x00000000#32) := by
  unfold sageAt
  rw [invCntU_at]
  refine congrArg₂ max (congrArg₂ (· + ·) (congrArg₂ (· + ·) (Finset.sum_congr rfl fun k _ => ?_) (Finset.sum_congr rfl fun k _ => ?_)) rfl) rfl
  · rw [wcat_at_left]
  · rw [wcat_at_right]

/-- The kernel's whole-array function at the arrays its program hands the call is the reference's update. -/
theorem sageG3_eq_spec (S : FVec Ideal S100000x128 .f32) (cnt : FVec Ideal S100000x1 .f32) (P : FVec Ideal S100000x128 .f32) (A B : FVec Ideal S128x128 .f32) (b : FVec Ideal S128 .f32) :
    sageG3 S (Cert.KSpec.invCntU (F := Ideal) cnt) P (Cert.KSpec.wcat (F := Ideal) A B) b = Cert.Spec.sageU (F := Ideal) S cnt P A B b := by
  funext i
  obtain ⟨r, j, rfl⟩ : ∃ (r : Fin 100000) (j : Fin 128), i = ix2 r j := ⟨i 0, i 1, eq_ix2 i⟩
  show sageAt S (Cert.KSpec.invCntU (F := Ideal) cnt) P (Cert.KSpec.wcat (F := Ideal) A B) b r j = Cert.Spec.sageU (F := Ideal) S cnt P A B b (ix2 r j)
  rw [sageK3_at, sageU_at]
  exact sage_row_law _ _ _ _ _ _ _ (max_one_ne_zero _)

/-- Call 3 (users, layer 1, 25 blocks): the output array, as a function of the arrays the call reads. -/
theorem region3_value (c : Dev nD) (S : FVec Ideal S100000x128 .f32) (cnt : FVec Ideal S100000x1 .f32) (P : FVec Ideal S100000x128 .f32) (A B : FVec Ideal S128x128 .f32) (b : FVec Ideal S128 .f32)
    (h0 : V c (Pipeline.arrRef spec3 0) = S) (h1 : V c (Pipeline.arrRef spec3 1) = Cert.KSpec.invCntU cnt)
    (h2 : V c (Pipeline.arrRef spec3 2) = P) (h3 : V c (Pipeline.arrRef spec3 3) = Cert.KSpec.wcat A B)
    (h4 : V c (Pipeline.arrRef spec3 4) = b) :
    (dat3 (F := Ideal) V c).arrAt 5 cfg3.N = Cert.Spec.sageU S cnt P A B b := by
  rw [arr3_eq V c S (Cert.KSpec.invCntU (F := Ideal) cnt) P (Cert.KSpec.wcat (F := Ideal) A B) b h0 h1 h2 h3 h4]
  exact sageG3_eq_spec S cnt P A B b

end Cert.Bridge

end
-- ==== Proof.Chain1.lean ====
/-
  The first layer closed: at the extended reals each call's output array is its target function of the arrays it was entered
  with; those arrays, read back through the host operations to the launch memory, are the segment sums, counts and weight
  slices of the arguments; and where every source index lies in its table the guarded row gather is the plain gather. So the
  four intermediate feature arrays are the named functions of the launch memory, and at call 3's exit everything the second
  layer reads is known.
-/
import proofs.«414659_j2095944040611_3_alg».proof.Proof.ChainA
import proofs.«414659_j2095944040611_3_alg».proof.Proof.ChainS
import proofs.«414659_j2095944040611_3_alg».proof.Proof.RegLin
import proofs.«414659_j2095944040611_3_alg».proof.Proof.RegSage

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Cert.KSpec (ld kU0 kP0 kP1 kU1 cntRawP cntRawU segP segU slice0 slice1 sliceb0 sliceb1 takeU takeP startIdxU startIdxP invCntP invCntU wcat wtU wtP wtO)

variable (m : (ℓ : Loc nD τ sig) → Buf (Elt Ideal) ℓ) (ρ : Dev nD → PrngReg) (c : Dev nD)

/-- The user features after call 0. -/
theorem W2_u : W2 m ρ c (Proc.devRef .tc main_v4) = kU0 m c :=
  (W2_arr m ρ c 3).trans (region0_value (V1 m ρ) c _ _ _ (V1_x m ρ c) (V1_w m ρ c) (V1_b m ρ c))

theorem W3_u : W3 m ρ c (Proc.devRef .tc main_v4) = kU0 m c :=
  (W3_of_ne m ρ c main_v4 (by decide)).trans (W2_u m ρ c)

/-- The problem features after call 1. -/
theorem W3_p : W3 m ρ c (Proc.devRef .tc main_v5) = kP0 m c :=
  (W3_arr m ρ c 3).trans (region1_value (V2 m ρ) c _ _ _ (V2_x m ρ c) (V2_w m ρ c) (V2_b m ρ c))

/-- The problem features after call 2: the first layer's update of the problems. -/
theorem W9_p (hU : ∀ e : S600000.Idx, 0 ≤ ((Cert.KSpec.ld m c main_arg2) e).toInt ∧ ((Cert.KSpec.ld m c main_arg2) e).toInt ≤ 99999) : W9 m ρ c (Proc.devRef .tc main_v46) = kP1 m c := by
  refine (W9_arr m ρ c 5).trans ?_
  unfold Cert.KSpec.kP1
  refine region2_value (V8 m ρ) c _ _ _ _ _ _ ?_ ?_ ?_ ?_ ?_
  · exact (V8_S m ρ c).trans (by rw [W3_a3, W3_u, W3_a2, Cert.KSpec.takeU_eq _ _ hU])
  · exact (V8_inv m ρ c).trans (by rw [W3_a3])
  · exact (V8_root m ρ c).trans (W3_p m ρ c)
  · exact (V8_wcat m ρ c).trans (by rw [W3_a10, W3_a12])
  · exact (V8_b m ρ c).trans (by rw [W3_a11])

/-- The user features after call 3: the first layer's update of the users. -/
theorem W11_u (hP : ∀ e : S600000.Idx, 0 ≤ ((Cert.KSpec.ld m c main_arg4) e).toInt ∧ ((Cert.KSpec.ld m c main_arg4) e).toInt ≤ 19999) : W11 m ρ c (Proc.devRef .tc main_v49) = kU1 m c := by
  refine (W11_arr m ρ c 5).trans ?_
  unfold Cert.KSpec.kU1
  refine region3_value (V10 m ρ) c _ _ _ _ _ _ ?_ ?_ ?_ ?_ ?_
  · exact (V10_S m ρ c).trans ((W9_sumU m ρ c).trans (by rw [W3_a5, W3_p, W3_a4, Cert.KSpec.takeP_eq _ _ hP]))
  · exact (V10_inv m ρ c).trans ((W9_invU m ρ c).trans (by rw [W3_a5]))
  · exact (V10_root m ρ c).trans ((W9_u m ρ c).trans (W3_u m ρ c))
  · exact (V10_wcat m ρ c).trans ((W9_wcatU m ρ c).trans (by rw [W3_a13, W3_a15]))
  · exact (V10_b m ρ c).trans (by rw [W9_a14])

/-! ## At call 3's exit -/

theorem W11_p (hU : ∀ e : S600000.Idx, 0 ≤ ((Cert.KSpec.ld m c main_arg2) e).toInt ∧ ((Cert.KSpec.ld m c main_arg2) e).toInt ≤ 99999) : W11 m ρ c (Proc.devRef .tc main_v46) = kP1 m c :=
  (W11_of_W9 m ρ c main_v46 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W9_p m ρ c hU)

theorem W11_invP : W11 m ρ c (Proc.devRef .tc main_v19) = invCntP (cntRawP (Cert.KSpec.ld m c main_arg3)) :=
  (W11_of_W9 m ρ c main_v19 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans ((W9_invP m ρ c).trans (by rw [W3_a3]))

theorem W11_invU : W11 m ρ c (Proc.devRef .tc main_v21) = invCntU (cntRawU (Cert.KSpec.ld m c main_arg5)) :=
  (W11_arr m ρ c 1).trans (((dat3 (V10 m ρ) c).arrAt_in 1 rfl _).trans ((A_eq3 (V10 m ρ) c 1).trans
    ((V10_inv m ρ c).trans ((W9_invU m ρ c).trans (by rw [W3_a5])))))

theorem W11_a2 : W11 m ρ c (Proc.devRef .tc main_arg2) = (Cert.KSpec.ld m c main_arg2) :=
  (W11_of_W9 m ρ c main_arg2 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W9_a2 m ρ c)
theorem W11_a3 : W11 m ρ c (Proc.devRef .tc main_arg3) = (Cert.KSpec.ld m c main_arg3) :=
  (W11_of_W9 m ρ c main_arg3 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W9_a3 m ρ c)
theorem W11_a4 : W11 m ρ c (Proc.devRef .tc main_arg4) = (Cert.KSpec.ld m c main_arg4) :=
  (W11_of_W9 m ρ c main_arg4 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W9_a4 m ρ c)
theorem W11_a5 : W11 m ρ c (Proc.devRef .tc main_arg5) = (Cert.KSpec.ld m c main_arg5) :=
  (W11_of_W9 m ρ c main_arg5 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W9_a5 m ρ c)
theorem W11_a10 : W11 m ρ c (Proc.devRef .tc main_arg10) = (Cert.KSpec.ld m c main_arg10) :=
  (W11_of_W9 m ρ c main_arg10 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W9_a10 m ρ c)
theorem W11_a11 : W11 m ρ c (Proc.devRef .tc main_arg11) = (Cert.KSpec.ld m c main_arg11) :=
  (W11_of_W9 m ρ c main_arg11 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W9_a11 m ρ c)
theorem W11_a12 : W11 m ρ c (Proc.devRef .tc main_arg12) = (Cert.KSpec.ld m c main_arg12) :=
  (W11_of_W9 m ρ c main_arg12 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W9_a12 m ρ c)
theorem W11_a13 : W11 m ρ c (Proc.devRef .tc main_arg13) = (Cert.KSpec.ld m c main_arg13) :=
  (W11_of_W9 m ρ c main_arg13 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W9_a13 m ρ c)
theorem W11_a14 : W11 m ρ c (Proc.devRef .tc main_arg14) = (Cert.KSpec.ld m c main_arg14) :=
  (W11_of_W9 m ρ c main_arg14 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W9_a14 m ρ c)
theorem W11_a15 : W11 m ρ c (Proc.devRef .tc main_arg15) = (Cert.KSpec.ld m c main_arg15) :=
  (W11_of_W9 m ρ c main_arg15 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W9_a15 m ρ c)
theorem W11_a16 : W11 m ρ c (Proc.devRef .tc main_arg16) = (Cert.KSpec.ld m c main_arg16) :=
  (W11_of_W9 m ρ c main_arg16 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W9_a16 m ρ c)
theorem W11_a17 : W11 m ρ c (Proc.devRef .tc main_arg17) = (Cert.KSpec.ld m c main_arg17) :=
  (W11_of_W9 m ρ c main_arg17 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W9_a17 m ρ c)
theorem W11_a18 : W11 m ρ c (Proc.devRef .tc main_arg18) = (Cert.KSpec.ld m c main_arg18) :=
  (W11_of_W9 m ρ c main_arg18 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W9_a18 m ρ c)
theorem W11_a19 : W11 m ρ c (Proc.devRef .tc main_arg19) = (Cert.KSpec.ld m c main_arg19) :=
  (W11_of_W9 m ρ c main_arg19 (by decide) (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W9_a19 m ρ c)

end Cert.Bridge

end
-- ==== Proof.ChainB.lean ====
/-
  The kernel program's buffers, followed through @main from the exit of call 3 to the entry of call 5 (the second layer): the light
  part, every buffer but the two segment sums. Between two calls the host operations are read back as one composed term of the
  contents at the previous call's exit; at a call's exit every buffer the call does not own is as entered.
-/
import proofs.«414659_j2095944040611_3_alg».proof.Proof.Gen.KernelIdeal.Frame
import proofs.«414659_j2095944040611_3_alg».proof.Proof.Vals
import proofs.«414659_j2095944040611_3_alg».proof.Proof.ChainTac
import Idealize.ShloMosaic.Lib.StableHlo.Run

set_option maxRecDepth 16384
set_option Elab.async false

noncomputable section

namespace Cert.Bridge

open Cert.KernelIdeal Cert.KernelIdeal.Gen
open Idealize.ShloMosaic Idealize.ShloMosaic.TcCoe Idealize.SL.Sem Idealize.ShloMosaic.StableHlo
open Cert.KSpec (ld kU0 kP0 kP1 kU1 cntRawP cntRawU segP segU slice0 slice1 sliceb0 sliceb1 takeU takeP startIdxU startIdxP invCntP invCntU wcat wtU wtP wtO)

section Generic

variable {F : FTy → Type} [FloatOps F]
variable (m : (ℓ : Loc nD τ sig) → Buf (Elt F) ℓ) (ρ : Dev nD → PrngReg) (c : Dev nD)

/-! ## Call 4's entry, read back to call 3's exit -/

theorem V15_inv : V15 m ρ c (Pipeline.arrRef spec4 1) = W11 m ρ c (Proc.devRef .tc main_v19) := by
  show StableHlo.after hostOps4_3 (W14 m ρ c) (Proc.devRef .tc main_v19) = _
  host_back
theorem V15_root : V15 m ρ c (Pipeline.arrRef spec4 2) = W11 m ρ c (Proc.devRef .tc main_v46) := by
  show StableHlo.after hostOps4_3 (W14 m ρ c) (Proc.devRef .tc main_v46) = _
  host_back
theorem V15_wcat : V15 m ρ c (Pipeline.arrRef spec4 3) = wcat (slice1 (W11 m ρ c (Proc.devRef .tc main_arg10))) (slice1 (W11 m ρ c (Proc.devRef .tc main_arg12))) := by
  show StableHlo.after hostOps4_3 (W14 m ρ c) (Proc.devRef .tc main_v64) = _
  host_back
theorem V15_b : V15 m ρ c (Pipeline.arrRef spec4 4) = sliceb1 (W11 m ρ c (Proc.devRef .tc main_arg11)) := by
  show StableHlo.after hostOps4_3 (W14 m ρ c) (Proc.devRef .tc main_v77) = _
  host_back
theorem V15_wo : V15 m ρ c (Pipeline.arrRef spec4 5) = wtO (W11 m ρ c (Proc.devRef .tc main_arg18)) := by
  show StableHlo.after hostOps4_3 (W14 m ρ c) (Proc.devRef .tc main_v73) = _
  host_back
theorem V15_bo : V15 m ρ c (Pipeline.arrRef spec4 6) = W11 m ρ c (Proc.devRef .tc main_arg19) := by
  show StableHlo.after hostOps4_3 (W14 m ρ c) (Proc.devRef .tc main_arg19) = _
  host_back

/-! ## At call 4's exit, what call 5 and the last stretch read: back to call 3's exit -/

theorem W16_invU : W16 m ρ c (Proc.devRef .tc main_v21) = W11 m ρ c (Proc.devRef .tc main_v21) := by
  rw [W16_of_ne m ρ c main_v21 (by decide)]
  show StableHlo.after hostOps4_3 (W14 m ρ c) (Proc.devRef .tc main_v21) = _
  host_back
theorem W16_u : W16 m ρ c (Proc.devRef .tc main_v49) = W11 m ρ c (Proc.devRef .tc main_v49) := by
  rw [W16_of_ne m ρ c main_v49 (by decide)]
  show StableHlo.after hostOps4_3 (W14 m ρ c) (Proc.devRef .tc main_v49) = _
  host_back
theorem W16_wcatU : W16 m ρ c (Proc.devRef .tc main_v71) = wcat (slice1 (W11 m ρ c (Proc.devRef .tc main_arg13))) (slice1 (W11 m ρ c (Proc.devRef .tc main_arg15))) := by
  rw [W16_of_ne m ρ c main_v71 (by decide)]
  show StableHlo.after hostOps4_3 (W14 m ρ c) (Proc.devRef .tc main_v71) = _
  host_back
theorem W16_wo : W16 m ρ c (Proc.devRef .tc main_v75) = wtO (W11 m ρ c (Proc.devRef .tc main_arg16)) := by
  rw [W16_of_ne m ρ c main_v75 (by decide)]
  show StableHlo.after hostOps4_3 (W14 m ρ c) (Proc.devRef .tc main_v75) = _
  host_back
theorem W16_a14 : W16 m ρ c (Proc.devRef .tc main_arg14) = W11 m ρ c (Proc.devRef .tc main_arg14) := by
  rw [W16_of_ne m ρ c main_arg14 (by decide)]
  show StableHlo.after hostOps4_3 (W14 m ρ c) (Proc.devRef .tc main_arg14) = _
  host_back
theorem W16_a17 : W16 m ρ c (Proc.devRef .tc main_arg17) = W11 m ρ c (Proc.devRef .tc main_arg17) := by
  rw [W16_of_ne m ρ c main_arg17 (by decide)]
  show StableHlo.after hostOps4_3 (W14 m ρ c) (Proc.devRef .tc main_arg17) = _
  host_back

/-! ## Call 5's entry, read back to call 4's exit -/

theorem V17_S : V17 m ρ c (Pipeline.arrRef spec5 0) = W16 m ρ c (Proc.devRef .tc main_v57) := by
  show StableHlo.after hostOps5 (W16 m ρ c) (Proc.devRef .tc main_v57) = _
  host_back
theorem V17_inv : V17 m ρ c (Pipeline.arrRef spec5 1) = W16 m ρ c (Proc.devRef .tc main_v21) := by
  show StableHlo.after hostOps5 (W16 m ρ c) (Proc.devRef .tc main_v21) = _
  host_back
theorem V17_root : V17 m ρ c (Pipeline.arrRef spec5 2) = W16 m ρ c (Proc.devRef .tc main_v49) := by
  show StableHlo.after hostOps5 (W16 m ρ c) (Proc.devRef .tc main_v49) = _
  host_back
theorem V17_wcat : V17 m ρ c (Pipeline.arrRef spec5 3) = W16 m ρ c (Proc.devRef .tc main_v71) := by
  show StableHlo.after hostOps5 (W16 m ρ c) (Proc.devRef .tc main_v71) = _
  host_back
theorem V17_b : V17 m ρ c (Pipeline.arrRef spec5 4) = sliceb1 (W16 m ρ c (Proc.devRef .tc main_arg14)) := by
  show StableHlo.after hostOps5 (W16 m ρ c) (Proc.devRef .tc main_v80) = _
  host_back
theorem V17_wo : V17 m ρ c (Pipeline.arrRef spec5 5) = W16 m ρ c (Proc.devRef .tc main_v75) := by
  show StableHlo.after hostOps5 (W16 m ρ c) (Proc.devRef .tc main_v75) = _
  host_back
theorem V17_bo : V17 m ρ c (Pipeline.arrRef spec5 6) = W16 m ρ c (Proc.devRef .tc main_arg17) := by
  show StableHlo.after hostOps5 (W16 m ρ c) (Proc.devRef .tc main_arg17) = _
  host_back

/-! ## At call 5's exit: what is not call 5's own, and no operation of the last stretch writes, is as at call 4's exit -/

theorem W18_of_W16 (b : Ref sig .tc) (h5 : ∀ w, Pipeline.arrRef spec5 w ≠ b)
    (hh : ∀ op ∈ (hostOps5 : List (HloOp τ sig (Elt F))), Proc.devRef .tc b ∉ op.writes) :
    W18 m ρ c (Proc.devRef .tc b) = W16 m ρ c (Proc.devRef .tc b) :=
  (W18_of_ne m ρ c b h5).trans (StableHlo.after_of_forall_not_mem (b := Proc.devRef .tc b) _ _ hh)

end Generic

end Cert.Bridge

end
-- ==== Proof.ChainT.lean ====
/-
  The kernel program's buffers, followed through @main from the exit of call 3 to the entry of call 5 (the second layer): the two
  segment sums of the second layer, each a scatter-add of the guarded row gather, read back to call 3's exit. Between two calls the
  host operations are read back as one composed term of the contents at the previous call's exit; at a call's exit every buffer the
  call does not own is as entered.
-/
import proofs.«414659_j2095944040611_3_alg».proof.Proof.Gen.KernelIdeal.Frame
import proofs.«414659_j2095944040611_3_alg».proof.Proof.Vals
import proofs.«414659_j2095944040611_3_alg».proof.Proof.ChainTac
import Idealize.ShloMosaic.Lib.StableHlo.Run

set_option maxRecDepth 16384
set_option Elab.async false

noncomputable section

namespace Cert.Bridge

open Cert.KernelIdeal Cert.KernelIdeal.Gen
open Idealize.ShloMosaic Idealize.ShloMosaic.TcCoe Idealize.SL.Sem Idealize.ShloMosaic.StableHlo
open Cert.KSpec (ld kU0 kP0 kP1 kU1 cntRawP cntRawU segP segU slice0 slice1 sliceb0 sliceb1 takeU takeP startIdxU startIdxP invCntP invCntU wcat wtU wtP wtO)

section Generic

variable {F : FTy → Type} [FloatOps F]
variable (m : (ℓ : Loc nD τ sig) → Buf (Elt F) ℓ) (ρ : Dev nD → PrngReg) (c : Dev nD)

theorem V15_S : V15 m ρ c (Pipeline.arrRef spec4 0) = segP (W11 m ρ c (Proc.devRef .tc main_arg3)) (takeU (W11 m ρ c (Proc.devRef .tc main_v49)) (W11 m ρ c (Proc.devRef .tc main_arg2))) := by
  show StableHlo.after hostOps4_3 (W14 m ρ c) (Proc.devRef .tc main_v53) = _
  host_back

theorem W16_sumU : W16 m ρ c (Proc.devRef .tc main_v57) = segU (W11 m ρ c (Proc.devRef .tc main_arg5)) (takeP (W11 m ρ c (Proc.devRef .tc main_v46)) (W11 m ρ c (Proc.devRef .tc main_arg4))) := by
  rw [W16_of_ne m ρ c main_v57 (by decide)]
  show StableHlo.after hostOps4_3 (W14 m ρ c) (Proc.devRef .tc main_v57) = _
  host_back

end Generic

end Cert.Bridge

end
-- ==== Proof.RegHead.lean ====
/-
  The two second-layer SAGE updates with the output head fused in. A block computes the SAGE update as in the first layer and
  multiplies the clipped rows by the (feature, output) head weight, adding the head bias: the array the call leaves is
  relu (mean · Aᵀ + b + root · Bᵀ) · Woᵀ + bo.
-/
import proofs.«414659_j2095944040611_3_alg».proof.Proof.Gen.KernelIdeal.Frame
import proofs.«414659_j2095944040611_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.Bridge

open Cert.KernelIdeal Cert.KernelIdeal.Gen
open Idealize.ShloMosaic Idealize.ShloMosaic.TcCoe Idealize.SL.Sem
open Idealize.ShloMosaic.Pipeline (Dat Cfg Window)

namespace Head

open Idealize.ShloMosaic.ValueIdx

/-! ## Layout operations the block's payload uses, read at an index given by coordinates -/

theorem off2 : (![0, 0] : Fin 2 → Nat) = fun _ => 0 := funext fun a => by fin_cases a <;> rfl
theorem off1 : (![0] : Fin 1 → Nat) = fun _ => 0 := funext fun a => by fin_cases a <;> rfl

/-- One column broadcast over many: an `[a, 1]` array broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two `[a, 128]` arrays joined along the columns: a column below 128 reads the first. -/
theorem concat_cols_left {α : Type} {a : ℕ} (x₁ x₂ : (⟨2, ![a, 128]⟩ : Shape).Idx → α)
    (h : Shape.Concatenates [(⟨2, ![a, 128]⟩ : Shape), ⟨2, ![a, 128]⟩] ⟨2, ![a, 256]⟩ 1) (p : Fin a) (k : Fin 128) :
    concatenate ⟨2, ![a, 256]⟩ 1 [⟨⟨2, ![a, 128]⟩, x₁⟩, ⟨⟨2, ![a, 128]⟩, x₂⟩] h (ix2 p (⟨k.val, by omega⟩ : Fin 256)) = x₁ (ix2 p k) :=
  concatenate_pair_apply_left 1 x₁ x₂ h _ rfl (ix2 p k) fun b => match b with
    | ⟨0, _⟩ => rfl
    | ⟨1, _⟩ => rfl

/-- … and a column from 128 on reads the second, 128 columns to the left. -/
theorem concat_cols_right {α : Type} {a : ℕ} (x₁ x₂ : (⟨2, ![a, 128]⟩ : Shape).Idx → α)
    (h : Shape.Concatenates [(⟨2, ![a, 128]⟩ : Shape), ⟨2, ![a, 128]⟩] ⟨2, ![a, 256]⟩ 1) (p : Fin a) (k : Fin 128) :
    concatenate ⟨2, ![a, 256]⟩ 1 [⟨⟨2, ![a, 128]⟩, x₁⟩, ⟨⟨2, ![a, 128]⟩, x₂⟩] h (ix2 p (⟨128 + k.val, by omega⟩ : Fin 256)) = x₂ (ix2 p k) :=
  concatenate_pair_apply_right 1 x₁ x₂ h _ rfl rfl (ix2 p k) (fun b hb => match b, hb with
    | ⟨0, _⟩, _ => rfl
    | ⟨1, _⟩, hb => absurd rfl hb) (by show k.val + 128 = 128 + k.val; omega)

/-- A sum over 256 columns is the sum over the first 128 plus the sum over the last 128. -/
theorem sum_256 (f : Fin 256 → EReal) :
    ∑ k : Fin 256, f k = (∑ k : Fin 128, f ⟨k.val, by omega⟩) + ∑ k : Fin 128, f ⟨128 + k.val, by omega⟩ :=
  Fin.sum_univ_add (a := 128) (b := 128) f

end Head

namespace Head

open Idealize.ShloMosaic.ValueIdx

/-! ## The two products of the block, read at an index: the contraction index is its one coordinate -/

theorem lhsA_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhsA_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhsA_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhsA_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The block's first product, (rows, 256 joined features) by (256, 128) into zeros: the plain sum over the 256 features. -/
theorem matmulA_apply (x : FVec Ideal S4000x256 .bf16) (w : FVec Ideal S256x128 .bf16) (r : Fin 4000) (j : Fin 128) :
    matmul dot_S4000x256_S256x128_S4000x128_1_0_0_1_n_n none x w (constant S4000x128 .f32 0x00000000#32) (ix2 r j)
      = ∑ k : Fin 256, x (ix2 r k) * w (ix2 k j) := by
  simp only [matmul]
  rw [Ideal.matmul_constant_zero_apply, ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 r j) ((contrEquiv1 dot_S4000x256_S256x128_S4000x128_1_0_0_1_n_n 256 rfl rfl).symm k) = ix2 r k := funext fun a => Fin.ext (by
    match a with
    | ⟨0, _⟩ => exact lhsA_0 _ _
    | ⟨1, _⟩ => exact (lhsA_1 _ _).trans hk)
  have er : dot_S4000x256_S256x128_S4000x128_1_0_0_1_n_n.rhsIdx (ix2 r j) ((contrEquiv1 dot_S4000x256_S256x128_S4000x128_1_0_0_1_n_n 256 rfl rfl).symm k) = ix2 k j := funext fun a => Fin.ext (by
    match a with
    | ⟨0, _⟩ => exact (rhsA_0 _ _).trans hk
    | ⟨1, _⟩ => exact rhsA_1 _ _)
  rw [el, er]

theorem lhsH_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhsH_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhsH_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhsH_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The block's second product, (rows, 128 features) by the (128, 64) head weight into zeros: the plain sum over the features. -/
theorem matmulH_apply (x : FVec Ideal S4000x128 .bf16) (w : FVec Ideal S128x64 .bf16) (r : Fin 4000) (o : Fin 64) :
    matmul dot_S4000x128_S128x64_S4000x64_1_0_0_1_n_n none x w (constant S4000x64 .f32 0x00000000#32) (ix2 r o)
      = ∑ j : Fin 128, x (ix2 r j) * w (ix2 j o) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 r o) ((contrEquiv1 dot_S4000x128_S128x64_S4000x64_1_0_0_1_n_n 128 rfl rfl).symm k) = ix2 r k := funext fun a => Fin.ext (by
    match a with
    | ⟨0, _⟩ => exact lhsH_0 _ _
    | ⟨1, _⟩ => exact (lhsH_1 _ _).trans hk)
  have er : dot_S4000x128_S128x64_S4000x64_1_0_0_1_n_n.rhsIdx (ix2 r o) ((contrEquiv1 dot_S4000x128_S128x64_S4000x64_1_0_0_1_n_n 128 rfl rfl).symm k) = ix2 k o := funext fun a => Fin.ext (by
    match a with
    | ⟨0, _⟩ => exact (rhsH_0 _ _).trans hk
    | ⟨1, _⟩ => exact rhsH_1 _ _)
  rw [el, er]

end Head

namespace Head

open Idealize.ShloMosaic.ValueIdx

/-! ## The block's payload at an index -/

/-- One row of the fused update and head, from the row's neighbour sum `s`, its reciprocal count `inv`, its own features `p`,
    the joined (256, 128) weight `W` (rows below 128 act on the scaled neighbour sum, rows from 128 on on the row's own features),
    the bias `b`, the (128, 64) head weight `W2` and the head bias `bo`: output `o` is
    Σ_j max ((Σ_k s k · inv · W (k, j) + Σ_k p k · W (128 + k, j)) + b j) 0 · W2 (j, o) + bo o. -/
def headRow (s : Fin 128 → EReal) (inv : EReal) (p : Fin 128 → EReal) (W : FVec Ideal S256x128 .bf16) (b : FVec Ideal S128 .f32)
    (W2 : FVec Ideal S128x64 .bf16) (bo : FVec Ideal S64 .f32) (o : Fin 64) : EReal :=
  (∑ j : Fin 128, max (((∑ k : Fin 128, s k * inv * W (ix2 (⟨k.val, by omega⟩ : Fin 256) j))
      + ∑ k : Fin 128, p k * W (ix2 (⟨128 + k.val, by omega⟩ : Fin 256) j)) + b (ix1 j)) (Ideal.ofBits .f32 0x00000000#32) * W2 (ix2 j o))
    + bo (ix1 o)

theorem pay_apply (x0 : FVec Ideal S4000x128 .f32) (x1 : FVec Ideal S4000x1 .f32) (x2 : FVec Ideal S4000x128 .f32)
    (x3 : FVec Ideal S256x128 .bf16) (x4 : FVec Ideal S128 .f32) (x5 : FVec Ideal S128x64 .bf16) (x6 : FVec Ideal S64 .f32)
    (r : Fin 4000) (o : Fin 64) :
    (k4_pay1 (F := Ideal) x0 x1 x2 x3 x4 x5 x6) (ix2 r o)
      = headRow (fun k => x0 (ix2 r k)) (x1 (ix2 r (0 : Fin 1))) (fun k => x2 (ix2 r k)) x3 x4 x5 x6 o := by
  unfold k4_pay1 headRow
  dsimp only
  simp only [shapeCast_self]
  rw [addf_apply, matmulH_apply, broadcastTo_1b_ab_apply, shapeCast_a_1a_apply]
  refine congrArg (· + x6 (ix1 o)) (Finset.sum_congr rfl fun j _ => ?_)
  rw [truncf_apply, maximumf_apply, addf_apply, matmulA_apply, broadcast_apply, broadcastTo_1b_ab_apply, shapeCast_a_1a_apply, sum_256]
  refine congrArg (fun z => max (z + x4 (ix1 j)) (Ideal.ofBits .f32 0x00000000#32) * x5 (ix2 j o)) ?_
  refine congrArg₂ (· + ·) (Finset.sum_congr rfl fun k _ => ?_) (Finset.sum_congr rfl fun k _ => ?_)
  · rw [concat_cols_left, truncf_apply, mulf_apply, broadcastTo_a1_ab_apply, shapeCast_self, shapeCast_self]
  · rw [concat_cols_right, truncf_apply, shapeCast_self]

end Head

namespace Head

open Idealize.ShloMosaic.ValueIdx

/-! ## From blocks to the array -/

/-- The whole output array of `n` rows: row `q` is `headRow` of row `q` of the neighbour sums, of the reciprocal counts and of
    the rows' own features. -/
def headArr {n : ℕ} (a0 : (⟨2, ![n, 128]⟩ : Shape).Idx → EReal) (a1 : (⟨2, ![n, 1]⟩ : Shape).Idx → EReal)
    (a2 : (⟨2, ![n, 128]⟩ : Shape).Idx → EReal) (W : FVec Ideal S256x128 .bf16) (b : FVec Ideal S128 .f32)
    (W2 : FVec Ideal S128x64 .bf16) (bo : FVec Ideal S64 .f32) : (⟨2, ![n, 64]⟩ : Shape).Idx → EReal :=
  fun i => headRow (fun k => a0 (ix2 (⟨(i 0).val, idx2_lt0 i⟩ : Fin n) k)) (a1 (ix2 (⟨(i 0).val, idx2_lt0 i⟩ : Fin n) (0 : Fin 1)))
    (fun k => a2 (ix2 (⟨(i 0).val, idx2_lt0 i⟩ : Fin n) k)) W b W2 bo ⟨(i 1).val, idx2_lt1 i⟩

/-- A block's payload at block index `y` is the whole array's function at the array index `i` the block index sits at: the three
    row-tiled blocks read row `y 0` where the arrays have row `i 0`, the four whole blocks are their arrays. -/
theorem block_eq {n : ℕ} (x0 : FVec Ideal S4000x128 .f32) (x1 : FVec Ideal S4000x1 .f32) (x2 : FVec Ideal S4000x128 .f32)
    (x3 : FVec Ideal S256x128 .bf16) (x4 : FVec Ideal S128 .f32) (x5 : FVec Ideal S128x64 .bf16) (x6 : FVec Ideal S64 .f32)
    (a0 : (⟨2, ![n, 128]⟩ : Shape).Idx → EReal) (a1 : (⟨2, ![n, 1]⟩ : Shape).Idx → EReal) (a2 : (⟨2, ![n, 128]⟩ : Shape).Idx → EReal)
    (W : FVec Ideal S256x128 .bf16) (b : FVec Ideal S128 .f32) (W2 : FVec Ideal S128x64 .bf16) (bo : FVec Ideal S64 .f32)
    (y : S4000x64.Idx) (i : (⟨2, ![n, 64]⟩ : Shape).Idx) (hi1 : (i 1).val = (y 1).val)
    (e0 : ∀ k : Fin 128, x0 (ix2 (⟨(y 0).val, idx2_lt0 y⟩ : Fin 4000) k) = a0 (ix2 (⟨(i 0).val, idx2_lt0 i⟩ : Fin n) k))
    (e1 : x1 (ix2 (⟨(y 0).val, idx2_lt0 y⟩ : Fin 4000) (0 : Fin 1)) = a1 (ix2 (⟨(i 0).val, idx2_lt0 i⟩ : Fin n) (0 : Fin 1)))
    (e2 : ∀ k : Fin 128, x2 (ix2 (⟨(y 0).val, idx2_lt0 y⟩ : Fin 4000) k) = a2 (ix2 (⟨(i 0).val, idx2_lt0 i⟩ : Fin n) k))
    (e3 : ∀ z, x3 z = W z) (e4 : ∀ z, x4 z = b z) (e5 : ∀ z, x5 z = W2 z) (e6 : ∀ z, x6 z = bo z) :
    (k4_pay1 (F := Ideal) x0 x1 x2 x3 x4 x5 x6) y = headArr a0 a1 a2 W b W2 bo i := by
  obtain rfl : x3 = W := funext e3
  obtain rfl : x4 = b := funext e4
  obtain rfl : x5 = W2 := funext e5
  obtain rfl : x6 = bo := funext e6
  refine (congrArg (k4_pay1 (F := Ideal) x0 x1 x2 x3 x4 x5 x6) (eq_ix2 y)).trans ?_
  refine (pay_apply x0 x1 x2 x3 x4 x5 x6 ⟨(y 0).val, idx2_lt0 y⟩ ⟨(y 1).val, idx2_lt1 y⟩).trans ?_
  unfold headArr
  have ho : (⟨(y 1).val, idx2_lt1 y⟩ : Fin 64) = ⟨(i 1).val, idx2_lt1 i⟩ := Fin.ext hi1.symm
  rw [ho, e1, funext e0, funext e2]

end Head

namespace Head

section Region4

open Idealize.ShloMosaic.ValueIdx

variable (V : (c : Dev nD) → (b : Ref sig .tc) → Buf (Elt Ideal) ((c : Thread nD τ).loc b))

/-- The index maps of call 4, decided over its five points: the three row-tiled inputs and the output sit at block row `t`, the
    weights and biases at block zero. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = t.val ∧ win4_7.index t (1 : Fin 2) = 0 :=
  (by decide +kernel : ∀ t : Fin grid4.N, _)

/-- The neighbour-sum block at point `t` is rows 4000 t … 4000 t + 3999 of its array. -/
theorem rows4_0 (c : Dev nD) (t : Fin cfg4.N) (x : S4000x128.Idx) (k : S20000x128.Idx)
    (hk0 : (k 0).val = t.val * 4000 + (x 0).val) (hk1 : (k 1).val = (x 1).val) :
    (iblk4 V c 0 t : FVec Ideal S4000x128 .f32) x = (V c (Pipeline.arrRef spec4 0) : FVec Ideal S20000x128 .f32) k := by
  obtain ⟨i0, i1, -⟩ := idx4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 4000 + 1 * (x 0).val = (k 0).val; rw [i0, hk0]; omega
  | ⟨1, _⟩ => show win4_0.index t (1 : Fin 2) * 128 + 1 * (x 1).val = (k 1).val; rw [i1, hk1]; omega

/-- The reciprocal-count block at point `t` is the same rows of its one-column array. -/
theorem rows4_1 (c : Dev nD) (t : Fin cfg4.N) (x : S4000x1.Idx) (k : S20000x1.Idx)
    (hk0 : (k 0).val = t.val * 4000 + (x 0).val) (hk1 : (k 1).val = (x 1).val) :
    (iblk4 V c 1 t : FVec Ideal S4000x1 .f32) x = (V c (Pipeline.arrRef spec4 1) : FVec Ideal S20000x1 .f32) k := by
  obtain ⟨-, -, i0, i1, -⟩ := idx4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 4000 + 1 * (x 0).val = (k 0).val; rw [i0, hk0]; omega
  | ⟨1, _⟩ => show win4_1.index t (1 : Fin 2) * 1 + 1 * (x 1).val = (k 1).val; rw [i1, hk1]; omega

/-- The rows' own features likewise. -/
theorem rows4_2 (c : Dev nD) (t : Fin cfg4.N) (x : S4000x128.Idx) (k : S20000x128.Idx)
    (hk0 : (k 0).val = t.val * 4000 + (x 0).val) (hk1 : (k 1).val = (x 1).val) :
    (iblk4 V c 2 t : FVec Ideal S4000x128 .f32) x = (V c (Pipeline.arrRef spec4 2) : FVec Ideal S20000x128 .f32) k := by
  obtain ⟨-, -, -, -, i0, i1, -⟩ := idx4 t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 4000 + 1 * (x 0).val = (k 0).val; rw [i0, hk0]; omega
  | ⟨1, _⟩ => show win4_2.index t (1 : Fin 2) * 128 + 1 * (x 1).val = (k 1).val; rw [i1, hk1]; omega

/-- The joined weight is read whole at every point. -/
theorem whole4_3 (c : Dev nD) (t : Fin cfg4.N) (z : S256x128.Idx) :
    (iblk4 V c 3 t : FVec Ideal S256x128 .bf16) z = (V c (Pipeline.arrRef spec4 3) : FVec Ideal S256x128 .bf16) z := by
  obtain ⟨-, -, -, -, -, -, i0, i1, -⟩ := idx4 t
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 256 + 1 * (z 0).val = (z 0).val; rw [i0]; omega
  | ⟨1, _⟩ => show win4_3.index t (1 : Fin 2) * 128 + 1 * (z 1).val = (z 1).val; rw [i1]; omega

/-- So is the bias, -/
theorem whole4_4 (c : Dev nD) (t : Fin cfg4.N) (z : S128.Idx) :
    (iblk4 V c 4 t : FVec Ideal S128 .f32) z = (V c (Pipeline.arrRef spec4 4) : FVec Ideal S128 .f32) z := by
  obtain ⟨-, -, -, -, -, -, -, -, i0, -⟩ := idx4 t
  unfold iblk4
  rw [View.read_apply]
  show V c (Pipeline.arrRef spec4 4) _ = V c (Pipeline.arrRef spec4 4) _
  congr 1
  funext a
  apply Fin.ext
  match a with
  | ⟨0, _⟩ => show win4_4.index t (0 : Fin 1) * 128 + 1 * (z 0).val = (z 0).val; rw [i0]; omega

/-- the head weight, -/
theorem whole4_5 (c : Dev nD) (t : Fin cfg4.N) (z : S128x64.Idx) :
    (iblk4 V c 5 t : FVec Ideal S128x64 .bf16) z = (V c (Pipeline.arrRef spec4 5) : FVec Ideal S128x64 .bf16) z := by
  obtain ⟨-, -, -, -, -, -, -, -, -, i0, i1, -⟩ := idx4 t
  unfold iblk4
  rw [View.read_apply]
  show V c (Pipeline.arrRef spec4 5) _ = V c (Pipeline.arrRef spec4 5) _
  congr 1
  funext a
  apply Fin.ext
  match a with
  | ⟨0, _⟩ => show win4_5.index t (0 : Fin 2) * 128 + 1 * (z 0).val = (z 0).val; rw [i0]; omega
  | ⟨1, _⟩ => show win4_5.index t (1 : Fin 2) * 64 + 1 * (z 1).val = (z 1).val; rw [i1]; omega

/-- and the head bias. -/
theorem whole4_6 (c : Dev nD) (t : Fin cfg4.N) (z : S64.Idx) :
    (iblk4 V c 6 t : FVec Ideal S64 .f32) z = (V c (Pipeline.arrRef spec4 6) : FVec Ideal S64 .f32) z := by
  obtain ⟨-, -, -, -, -, -, -, -, -, -, -, i0, -⟩ := idx4 t
  unfold iblk4
  rw [View.read_apply]
  show V c (Pipeline.arrRef spec4 6) _ = V c (Pipeline.arrRef spec4 6) _
  congr 1
  funext a
  apply Fin.ext
  match a with
  | ⟨0, _⟩ => show win4_6.index t (0 : Fin 1) * 64 + 1 * (z 0).val = (z 0).val; rw [i0]; omega

/-- What point `t` of call 4 writes back is block `t` of `headArr` of the arrays as the call finds them. -/
theorem flushed4_eq (c : Dev nD) (t : Fin cfg4.N) :
    (dat4 (F := Ideal) V c).flushed 7 t = ((cfg4.win 7).blk t).view.read (Elt Ideal)
      (headArr (n := 20000) (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) (V c (Pipeline.arrRef spec4 6))) := by
  show (cfg4.win 7).cut (grid4.coords t) ((dat4 V c).after 7 t) = _
  rw [after4_7]
  unfold out4_7
  rw [View.canon_unit_zero off2]
  simp only [View.ld_unit_zero (S := S4000x128) off2, View.ld_unit_zero (S := S4000x1) off2, View.ld_unit_zero (S := S256x128) off2,
    View.ld_unit_zero (S := S128) off1, View.ld_unit_zero (S := S128x64) off2, View.ld_unit_zero (S := S64) off1]
  have i70 := (idx4 t).2.2.2.2.2.2.2.2.2.2.2.2.1
  have i71 := (idx4 t).2.2.2.2.2.2.2.2.2.2.2.2.2
  funext y
  have h0 : ((((cfg4.win 7).blk t).view.emb y) 0).val = t.val * 4000 + (y 0).val := by
    show win4_7.index t (0 : Fin 2) * 4000 + 1 * (y 0).val = _
    rw [i70]; omega
  have h1 : ((((cfg4.win 7).blk t).view.emb y) 1).val = (y 1).val := by
    show win4_7.index t (1 : Fin 2) * 64 + 1 * (y 1).val = _
    rw [i71]; omega
  exact block_eq (n := 20000) (iblk4 V c 0 t) (iblk4 V c 1 t) (iblk4 V c 2 t) (iblk4 V c 3 t) (iblk4 V c 4 t) (iblk4 V c 5 t) (iblk4 V c 6 t)
    (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5)) (V c (Pipeline.arrRef spec4 6))
    y (((cfg4.win 7).blk t).view.emb y) h1
    (fun k => rows4_0 V c t _ _ h0 rfl) (rows4_1 V c t _ _ h0 rfl) (fun k => rows4_2 V c t _ _ h0 rfl)
    (whole4_3 V c t) (whole4_4 V c t) (whole4_5 V c t) (whole4_6 V c t)

end Region4

end Head

namespace Head

section Region4

open Idealize.ShloMosaic.ValueIdx

variable (V : (c : Dev nD) → (b : Ref sig .tc) → Buf (Elt Ideal) ((c : Thread nD τ).loc b))

/-- Every row of the output array lies in the block of the point its number divided by 4000 names. -/
theorem cover4 (i : S20000x64.Idx) : ∃ t : Fin cfg4.N, (cfg4.win 7).flush t = true ∧ i ∈ ((cfg4.win 7).blk t).view.set := by
  have hi0 : (i 0).val < 20000 := idx2_lt0 i
  have hi1 : (i 1).val < 64 := idx2_lt1 i
  have hN : cfg4.N = 5 := N_4
  obtain ⟨t, ht⟩ : ∃ t : Fin cfg4.N, t.val = (i 0).val / 4000 := ⟨⟨(i 0).val / 4000, by rw [hN]; omega⟩, rfl⟩
  have i70 := (idx4 t).2.2.2.2.2.2.2.2.2.2.2.2.1
  have i71 := (idx4 t).2.2.2.2.2.2.2.2.2.2.2.2.2
  refine ⟨t, flush4_7 t, ?_⟩
  show i ∈ ((View.whole main_v78).slice (win4_7.rect t)).set
  rw [View.set_slice_whole, Rect.mem_set_unit]
  intro a
  match a with
  | ⟨0, _⟩ =>
    show win4_7.index t (0 : Fin 2) * 4000 ≤ (i 0).val ∧ (i 0).val < win4_7.index t (0 : Fin 2) * 4000 + 4000
    rw [i70, ht]; omega
  | ⟨1, _⟩ =>
    show win4_7.index t (1 : Fin 2) * 64 ≤ (i 1).val ∧ (i 1).val < win4_7.index t (1 : Fin 2) * 64 + 64
    rw [i71]; omega

/-- So the array call 4 leaves is `headArr` of the arrays it finds. -/
theorem arr4 (c : Dev nD) : (dat4 (F := Ideal) V c).arrAt 7 cfg4.N
    = headArr (n := 20000) (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) (V c (Pipeline.arrRef spec4 6)) :=
  (dat4 (F := Ideal) V c).arrAt_eq_of_cover 7 _ (fun t _ => flushed4_eq V c t) cover4

/-- The same with the arrays named. -/
theorem arr4_of (c : Dev nD) (a0 : FVec Ideal S20000x128 .f32) (a1 : FVec Ideal S20000x1 .f32) (a2 : FVec Ideal S20000x128 .f32)
    (a3 : FVec Ideal S256x128 .bf16) (a4 : FVec Ideal S128 .f32) (a5 : FVec Ideal S128x64 .bf16) (a6 : FVec Ideal S64 .f32)
    (h0 : V c (Pipeline.arrRef spec4 0) = a0) (h1 : V c (Pipeline.arrRef spec4 1) = a1) (h2 : V c (Pipeline.arrRef spec4 2) = a2)
    (h3 : V c (Pipeline.arrRef spec4 3) = a3) (h4 : V c (Pipeline.arrRef spec4 4) = a4) (h5 : V c (Pipeline.arrRef spec4 5) = a5)
    (h6 : V c (Pipeline.arrRef spec4 6) = a6) :
    (dat4 (F := Ideal) V c).arrAt 7 cfg4.N = headArr (n := 20000) a0 a1 a2 a3 a4 a5 a6 := by
  subst h0 h1 h2 h3 h4 h5 h6
  exact arr4 V c

end Region4

end Head

namespace Head

open Idealize.ShloMosaic.ValueIdx

/-! ## The host's layout operations and the kernel program's argument forms, read at an index -/

/-- A vector laid out as a `[1, b]` row reads, at `(u, c)`, the vector at `c`. -/
theorem bcast_vec_row {α : Type} {b : ℕ} (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) :=
  broadcastInDim_apply _ h v _ _ fun a => match a with
    | ⟨0, _⟩ => by
      show c.val = if b = 1 then 0 else c.val
      split
      · have := c.isLt; omega
      · rfl

/-- One row repeated down `a` rows reads, at `(p, c)`, the row at `c`. -/
theorem bcast_row_rows {α : Type} {a b : ℕ} (h : (⟨2, ![1, b]⟩ : Shape).BroadcastsInDim ⟨2, ![a, b]⟩ ![0, 1])
    (v : (⟨2, ![1, b]⟩ : Shape).Idx → α) (p : Fin a) (c : Fin b) :
    broadcastInDim ⟨2, ![a, b]⟩ ![0, 1] h v (ix2 p c) = v (ix2 (0 : Fin 1) c) :=
  broadcastInDim_apply _ h v _ _ fun ax => match ax with
    | ⟨0, _⟩ => rfl
    | ⟨1, _⟩ => by
      show c.val = if b = 1 then 0 else c.val
      split
      · have := c.isLt; omega
      · rfl

/-- One column repeated along `b` columns reads, at `(p, c)`, the column at `p`. -/
theorem bcast_col_cols {α : Type} {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) :=
  broadcastInDim_apply _ h v _ _ fun ax => match ax with
    | ⟨0, _⟩ => by
      show p.val = if a = 1 then 0 else p.val
      split
      · have := p.isLt; omega
      · rfl
    | ⟨1, _⟩ => rfl

/-- The joined weight at a row below 128 is the first matrix transposed, -/
theorem wcat_left (A B : FVec Ideal S128x128 .f32) (k j : Fin 128) :
    Cert.KSpec.wcat (F := Ideal) A B (ix2 (⟨k.val, by omega⟩ : Fin 256) j) = A (ix2 j k) := by
  unfold Cert.KSpec.wcat
  rw [truncf_apply, transpose_ix2_apply, concat_cols_left]

/-- and at a row from 128 on the second matrix transposed. -/
theorem wcat_right (A B : FVec Ideal S128x128 .f32) (k j : Fin 128) :
    Cert.KSpec.wcat (F := Ideal) A B (ix2 (⟨128 + k.val, by omega⟩ : Fin 256) j) = B (ix2 j k) := by
  unfold Cert.KSpec.wcat
  rw [truncf_apply, transpose_ix2_apply, concat_cols_right]

/-- The head weight as the call receives it is the head weight transposed. -/
theorem wtO_apply (Wo : FVec Ideal S64x128 .f32) (j : Fin 128) (o : Fin 64) :
    Cert.KSpec.wtO (F := Ideal) Wo (ix2 j o) = Wo (ix2 o j) := by
  unfold Cert.KSpec.wtO
  rw [truncf_apply, transpose_ix2_apply]

/-- The law of one feature of the update: scaling the neighbour sum by the reciprocal count before the product is dividing
    it by the count, the count raised to at least one being no zero; and the bias may be added before or after the
    product with the row's own features. -/
theorem feature_law (s p a bb : Fin 128 → EReal) (c bj : EReal) :
    ((∑ k : Fin 128, s k * Ideal.div (Ideal.ofBits .f32 0x3F800000#32) (max c (Ideal.ofBits .f32 0x3F800000#32)) * a k)
        + ∑ k : Fin 128, p k * bb k) + bj
      = ((∑ k : Fin 128, Ideal.div (s k) (max c (Ideal.ofBits .f32 0x3F800000#32)) * a k) + bj) + ∑ k : Fin 128, p k * bb k := by
  rw [Ideal.ofBits_one_f32]
  have hm : max c 1 ≠ 0 := (lt_of_lt_of_le zero_lt_one (le_max_right c 1)).ne'
  simp only [Ideal.mul_one_div hm]
  exact add_right_comm _ _ _

end Head

namespace Head

section Target4

open Idealize.ShloMosaic.ValueIdx

/-! ## The target of call 4 read at an index, and the array the call leaves -/

theorem lhsP_0 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 0).val = (i 0).val := by
  unfold DotDims.lhsIdx
  rw [dif_neg (show ¬(0 : Fin Cert.ReferenceIdeal.S20000x128.rank) ∈ Cert.ReferenceIdeal.dot_S20000x128_S128x128_S20000x128_1_0_0_1_n_n.lhsBatch by decide), dif_pos (show (0 : Fin Cert.ReferenceIdeal.S20000x128.rank) ∈ Cert.ReferenceIdeal.dot_S20000x128_S128x128_S20000x128_1_0_0_1_n_n.lhsNonContracting by decide)]
  rfl
theorem lhsP_1 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 1).val = (q ⟨0, by decide⟩).val :=
  Cert.ReferenceIdeal.dot_S20000x128_S128x128_S20000x128_1_0_0_1_n_n.lhsIdx_val_of_single rfl i q
theorem rhsP_0 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 0).val = (q ⟨0, by decide⟩).val :=
  Cert.ReferenceIdeal.dot_S20000x128_S128x128_S20000x128_1_0_0_1_n_n.rhsIdx_val_of_single rfl i q
theorem rhsP_1 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 1).val = (i 1).val := by
  unfold DotDims.rhsIdx
  rw [dif_neg (show ¬(1 : Fin Cert.ReferenceIdeal.S128x128.rank) ∈ Cert.ReferenceIdeal.dot_S20000x128_S128x128_S20000x128_1_0_0_1_n_n.rhsBatch by decide), dif_pos (show (1 : Fin Cert.ReferenceIdeal.S128x128.rank) ∈ Cert.ReferenceIdeal.dot_S20000x128_S128x128_S20000x128_1_0_0_1_n_n.rhsNonContracting by decide)]
  rfl

/-- The reference's (20000, 128) by (128, 128) product at an index: the plain sum over the 128 features. -/
theorem dotP_apply (x : FVec Ideal Cert.ReferenceIdeal.S20000x128 .f32) (w : FVec Ideal Cert.ReferenceIdeal.S128x128 .f32) (r : Fin 20000) (j : Fin 128) :
    Host.dotGeneral Cert.ReferenceIdeal.dot_S20000x128_S128x128_S20000x128_1_0_0_1_n_n none x w (ix2 r j) = ∑ k : Fin 128, x (ix2 r k) * w (ix2 k j) := by
  simp only [Host.dotGeneral]
  rw [Ideal.dotGeneral_apply, ← Equiv.sum_comp (contrEquiv1 Cert.ReferenceIdeal.dot_S20000x128_S128x128_S20000x128_1_0_0_1_n_n 128 rfl rfl).symm]
  refine Finset.sum_congr rfl fun k _ => ?_
  have hk := contrEquiv1_symm_val Cert.ReferenceIdeal.dot_S20000x128_S128x128_S20000x128_1_0_0_1_n_n 128 rfl rfl k
  have el : Cert.ReferenceIdeal.dot_S20000x128_S128x128_S20000x128_1_0_0_1_n_n.lhsIdx (ix2 r j) ((contrEquiv1 Cert.ReferenceIdeal.dot_S20000x128_S128x128_S20000x128_1_0_0_1_n_n 128 rfl rfl).symm k) = ix2 r k := funext fun a => Fin.ext (by
    match a with
    | ⟨0, _⟩ => exact lhsP_0 _ _
    | ⟨1, _⟩ => exact (lhsP_1 _ _).trans hk)
  have er : Cert.ReferenceIdeal.dot_S20000x128_S128x128_S20000x128_1_0_0_1_n_n.rhsIdx (ix2 r j) ((contrEquiv1 Cert.ReferenceIdeal.dot_S20000x128_S128x128_S20000x128_1_0_0_1_n_n 128 rfl rfl).symm k) = ix2 k j := funext fun a => Fin.ext (by
    match a with
    | ⟨0, _⟩ => exact (rhsP_0 _ _).trans hk
    | ⟨1, _⟩ => exact rhsP_1 _ _)
  rw [el, er]

theorem lhsPH_0 (i : Cert.ReferenceIdeal.S20000x64.Idx) (q : Cert.ReferenceIdeal.dot_S20000x128_S128x64_S20000x64_1_0_0_1_n_n.contr.Idx) :
    (Cert.ReferenceIdeal.dot_S20000x128_S128x64_S20000x64_1_0_0_1_n_n.lhsIdx i q 0).val = (i 0).val := by
  unfold DotDims.lhsIdx
  rw [dif_neg (show ¬(0 : Fin Cert.ReferenceIdeal.S20000x128.rank) ∈ Cert.ReferenceIdeal.dot_S20000x128_S128x64_S20000x64_1_0_0_1_n_n.lhsBatch by decide), dif_pos (show (0 : Fin Cert.ReferenceIdeal.S20000x128.rank) ∈ Cert.ReferenceIdeal.dot_S20000x128_S128x64_S20000x64_1_0_0_1_n_n.lhsNonContracting by decide)]
  rfl
theorem lhsPH_1 (i : Cert.ReferenceIdeal.S20000x64.Idx) (q : Cert.ReferenceIdeal.dot_S20000x128_S128x64_S20000x64_1_0_0_1_n_n.contr.Idx) :
    (Cert.ReferenceIdeal.dot_S20000x128_S128x64_S20000x64_1_0_0_1_n_n.lhsIdx i q 1).val = (q ⟨0, by decide⟩).val :=
  Cert.ReferenceIdeal.dot_S20000x128_S128x64_S20000x64_1_0_0_1_n_n.lhsIdx_val_of_single rfl i q
theorem rhsPH_0 (i : Cert.ReferenceIdeal.S20000x64.Idx) (q : Cert.ReferenceIdeal.dot_S20000x128_S128x64_S20000x64_1_0_0_1_n_n.contr.Idx) :
    (Cert.ReferenceIdeal.dot_S20000x128_S128x64_S20000x64_1_0_0_1_n_n.rhsIdx i q 0).val = (q ⟨0, by decide⟩).val :=
  Cert.ReferenceIdeal.dot_S20000x128_S128x64_S20000x64_1_0_0_1_n_n.rhsIdx_val_of_single rfl i q
theorem rhsPH_1 (i : Cert.ReferenceIdeal.S20000x64.Idx) (q : Cert.ReferenceIdeal.dot_S20000x128_S128x64_S20000x64_1_0_0_1_n_n.contr.Idx) :
    (Cert.ReferenceIdeal.dot_S20000x128_S128x64_S20000x64_1_0_0_1_n_n.rhsIdx i q 1).val = (i 1).val := by
  unfold DotDims.rhsIdx
  rw [dif_neg (show ¬(1 : Fin Cert.ReferenceIdeal.S128x64.rank) ∈ Cert.ReferenceIdeal.dot_S20000x128_S128x64_S20000x64_1_0_0_1_n_n.rhsBatch by decide), dif_pos (show (1 : Fin Cert.ReferenceIdeal.S128x64.rank) ∈ Cert.ReferenceIdeal.dot_S20000x128_S128x64_S20000x64_1_0_0_1_n_n.rhsNonContracting by decide)]
  rfl

/-- The reference's head product, (20000, 128) by (128, 64), at an index. -/
theorem dotPH_apply (x : FVec Ideal Cert.ReferenceIdeal.S20000x128 .f32) (w : FVec Ideal Cert.ReferenceIdeal.S128x64 .f32) (r : Fin 20000) (j : Fin 64) :
    Host.dotGeneral Cert.ReferenceIdeal.dot_S20000x128_S128x64_S20000x64_1_0_0_1_n_n none x w (ix2 r j) = ∑ k : Fin 128, x (ix2 r k) * w (ix2 k j) := by
  simp only [Host.dotGeneral]
  rw [Ideal.dotGeneral_apply, ← Equiv.sum_comp (contrEquiv1 Cert.ReferenceIdeal.dot_S20000x128_S128x64_S20000x64_1_0_0_1_n_n 128 rfl rfl).symm]
  refine Finset.sum_congr rfl fun k _ => ?_
  have hk := contrEquiv1_symm_val Cert.ReferenceIdeal.dot_S20000x128_S128x64_S20000x64_1_0_0_1_n_n 128 rfl rfl k
  have el : Cert.ReferenceIdeal.dot_S20000x128_S128x64_S20000x64_1_0_0_1_n_n.lhsIdx (ix2 r j) ((contrEquiv1 Cert.ReferenceIdeal.dot_S20000x128_S128x64_S20000x64_1_0_0_1_n_n 128 rfl rfl).symm k) = ix2 r k := funext fun a => Fin.ext (by
    match a with
    | ⟨0, _⟩ => exact lhsPH_0 _ _
    | ⟨1, _⟩ => exact (lhsPH_1 _ _).trans hk)
  have er : Cert.ReferenceIdeal.dot_S20000x128_S128x64_S20000x64_1_0_0_1_n_n.rhsIdx (ix2 r j) ((contrEquiv1 Cert.ReferenceIdeal.dot_S20000x128_S128x64_S20000x64_1_0_0_1_n_n 128 rfl rfl).symm k) = ix2 k j := funext fun a => Fin.ext (by
    match a with
    | ⟨0, _⟩ => exact (rhsPH_0 _ _).trans hk
    | ⟨1, _⟩ => exact rhsPH_1 _ _)
  rw [el, er]

/-- The reciprocal count the call receives, at row `q`. -/
theorem invCntP_apply (cnt : FVec Ideal S20000x1 .f32) (q : Fin 20000) :
    Cert.KSpec.invCntP (F := Ideal) cnt (ix2 q (0 : Fin 1))
      = Ideal.div (Ideal.ofBits .f32 0x3F800000#32) (max (cnt (ix2 q (0 : Fin 1))) (Ideal.ofBits .f32 0x3F800000#32)) := by
  unfold Cert.KSpec.invCntP
  rw [hostDivf_apply, maximumf_apply, broadcastInDim_scalar_apply, constant_apply]

/-- One feature of the reference's SAGE update of 20000 rows. -/
theorem sageP_apply (S : FVec Ideal S20000x128 .f32) (cnt : FVec Ideal S20000x1 .f32) (P : FVec Ideal S20000x128 .f32)
    (A B : FVec Ideal S128x128 .f32) (b : FVec Ideal S128 .f32) (q : Fin 20000) (j : Fin 128) :
    Cert.Spec.sageP (F := Ideal) S cnt P A B b (ix2 q j)
      = max (((∑ k : Fin 128, Ideal.div (S (ix2 q k)) (max (cnt (ix2 q (0 : Fin 1))) (Ideal.ofBits .f32 0x3F800000#32)) * A (ix2 j k))
          + b (ix1 j)) + ∑ k : Fin 128, P (ix2 q k) * B (ix2 j k)) (Ideal.ofBits .f32 0x00000000#32) := by
  unfold Cert.Spec.sageP Cert.Spec.meanP
  rw [maximumf_apply, addf_apply, addf_apply, dotP_apply, dotP_apply, bcast_row_rows, bcast_vec_row, broadcastInDim_scalar_apply,
    constant_apply]
  refine congrArg (fun z => max z (Ideal.ofBits .f32 0x00000000#32)) ?_
  refine congrArg₂ (· + ·) (congrArg (· + b (ix1 j)) (Finset.sum_congr rfl fun k _ => ?_)) (Finset.sum_congr rfl fun k _ => ?_)
  · rw [transpose_ix2_apply, hostDivf_apply, bcast_col_cols, maximumf_apply, broadcastInDim_scalar_apply, constant_apply]
  · rw [transpose_ix2_apply]

/-- The target of call 4 at an index. -/
theorem headP_apply (S : FVec Ideal S20000x128 .f32) (cnt : FVec Ideal S20000x1 .f32) (P : FVec Ideal S20000x128 .f32)
    (A B : FVec Ideal S128x128 .f32) (b : FVec Ideal S128 .f32) (Wo : FVec Ideal S64x128 .f32) (bo : FVec Ideal S64 .f32)
    (q : Fin 20000) (o : Fin 64) :
    Cert.Spec.headP (F := Ideal) S cnt P A B b Wo bo (ix2 q o)
      = (∑ j : Fin 128, Cert.Spec.sageP (F := Ideal) S cnt P A B b (ix2 q j) * Wo (ix2 o j)) + bo (ix1 o) := by
  unfold Cert.Spec.headP
  rw [addf_apply, dotPH_apply, bcast_row_rows, bcast_vec_row]
  refine congrArg (· + bo (ix1 o)) (Finset.sum_congr rfl fun j _ => ?_)
  rw [transpose_ix2_apply]

/-- `headArr` of the arrays in the forms the kernel program hands them to call 4 is the target. -/
theorem headArr_eq_headP (S : FVec Ideal S20000x128 .f32) (cnt : FVec Ideal S20000x1 .f32) (P : FVec Ideal S20000x128 .f32)
    (A B : FVec Ideal S128x128 .f32) (b : FVec Ideal S128 .f32) (Wo : FVec Ideal S64x128 .f32) (bo : FVec Ideal S64 .f32) :
    headArr (n := 20000) S (Cert.KSpec.invCntP (F := Ideal) cnt) P (Cert.KSpec.wcat (F := Ideal) A B) b (Cert.KSpec.wtO (F := Ideal) Wo) bo
      = Cert.Spec.headP (F := Ideal) S cnt P A B b Wo bo := by
  funext i
  obtain ⟨q, o, rfl⟩ : ∃ (q : Fin 20000) (o : Fin 64), i = ix2 q o := ⟨i 0, i 1, eq_ix2 i⟩
  rw [headP_apply]
  show headRow (fun k => S (ix2 q k)) (Cert.KSpec.invCntP (F := Ideal) cnt (ix2 q (0 : Fin 1))) (fun k => P (ix2 q k)) (Cert.KSpec.wcat (F := Ideal) A B) b
    (Cert.KSpec.wtO (F := Ideal) Wo) bo o = _
  unfold headRow
  rw [invCntP_apply]
  refine congrArg (· + bo (ix1 o)) (Finset.sum_congr rfl fun j _ => ?_)
  rw [wtO_apply, sageP_apply]
  simp only [wcat_left, wcat_right]
  rw [feature_law]

end Target4

end Head

namespace Head

section Region5

open Idealize.ShloMosaic.ValueIdx

variable (V : (c : Dev nD) → (b : Ref sig .tc) → Buf (Elt Ideal) ((c : Thread nD τ).loc b))

/-- Call 5's payload is call 4's: the two kernels have one body. -/
theorem pay5_eq (x0 : FVec Ideal S4000x128 .f32) (x1 : FVec Ideal S4000x1 .f32) (x2 : FVec Ideal S4000x128 .f32)
    (x3 : FVec Ideal S256x128 .bf16) (x4 : FVec Ideal S128 .f32) (x5 : FVec Ideal S128x64 .bf16) (x6 : FVec Ideal S64 .f32) :
    k5_pay1 (F := Ideal) x0 x1 x2 x3 x4 x5 x6 = k4_pay1 (F := Ideal) x0 x1 x2 x3 x4 x5 x6 := rfl

/-- The index maps of call 5, decided over its twenty-five points: the three row-tiled inputs and the output sit at block row `t`,
    the weights and biases at block zero. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0
    ∧ win5_6.index t (0 : Fin 1) = 0
    ∧ win5_7.index t (0 : Fin 2) = t.val ∧ win5_7.index t (1 : Fin 2) = 0 :=
  (by decide +kernel : ∀ t : Fin grid5.N, _)

/-- The neighbour-sum block at point `t` is rows 4000 t … 4000 t + 3999 of its array. -/
theorem rows5_0 (c : Dev nD) (t : Fin cfg5.N) (x : S4000x128.Idx) (k : S100000x128.Idx)
    (hk0 : (k 0).val = t.val * 4000 + (x 0).val) (hk1 : (k 1).val = (x 1).val) :
    (iblk5 V c 0 t : FVec Ideal S4000x128 .f32) x = (V c (Pipeline.arrRef spec5 0) : FVec Ideal S100000x128 .f32) k := by
  obtain ⟨i0, i1, -⟩ := idx5 t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 4000 + 1 * (x 0).val = (k 0).val; rw [i0, hk0]; omega
  | ⟨1, _⟩ => show win5_0.index t (1 : Fin 2) * 128 + 1 * (x 1).val = (k 1).val; rw [i1, hk1]; omega

/-- The reciprocal-count block at point `t` is the same rows of its one-column array. -/
theorem rows5_1 (c : Dev nD) (t : Fin cfg5.N) (x : S4000x1.Idx) (k : S100000x1.Idx)
    (hk0 : (k 0).val = t.val * 4000 + (x 0).val) (hk1 : (k 1).val = (x 1).val) :
    (iblk5 V c 1 t : FVec Ideal S4000x1 .f32) x = (V c (Pipeline.arrRef spec5 1) : FVec Ideal S100000x1 .f32) k := by
  obtain ⟨-, -, i0, i1, -⟩ := idx5 t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 4000 + 1 * (x 0).val = (k 0).val; rw [i0, hk0]; omega
  | ⟨1, _⟩ => show win5_1.index t (1 : Fin 2) * 1 + 1 * (x 1).val = (k 1).val; rw [i1, hk1]; omega

/-- The rows' own features likewise. -/
theorem rows5_2 (c : Dev nD) (t : Fin cfg5.N) (x : S4000x128.Idx) (k : S100000x128.Idx)
    (hk0 : (k 0).val = t.val * 4000 + (x 0).val) (hk1 : (k 1).val = (x 1).val) :
    (iblk5 V c 2 t : FVec Ideal S4000x128 .f32) x = (V c (Pipeline.arrRef spec5 2) : FVec Ideal S100000x128 .f32) k := by
  obtain ⟨-, -, -, -, i0, i1, -⟩ := idx5 t
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 4000 + 1 * (x 0).val = (k 0).val; rw [i0, hk0]; omega
  | ⟨1, _⟩ => show win5_2.index t (1 : Fin 2) * 128 + 1 * (x 1).val = (k 1).val; rw [i1, hk1]; omega

/-- The joined weight is read whole at every point. -/
theorem whole5_3 (c : Dev nD) (t : Fin cfg5.N) (z : S256x128.Idx) :
    (iblk5 V c 3 t : FVec Ideal S256x128 .bf16) z = (V c (Pipeline.arrRef spec5 3) : FVec Ideal S256x128 .bf16) z := by
  obtain ⟨-, -, -, -, -, -, i0, i1, -⟩ := idx5 t
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 256 + 1 * (z 0).val = (z 0).val; rw [i0]; omega
  | ⟨1, _⟩ => show win5_3.index t (1 : Fin 2) * 128 + 1 * (z 1).val = (z 1).val; rw [i1]; omega

/-- So is the bias, -/
theorem whole5_4 (c : Dev nD) (t : Fin cfg5.N) (z : S128.Idx) :
    (iblk5 V c 4 t : FVec Ideal S128 .f32) z = (V c (Pipeline.arrRef spec5 4) : FVec Ideal S128 .f32) z := by
  obtain ⟨-, -, -, -, -, -, -, -, i0, -⟩ := idx5 t
  unfold iblk5
  rw [View.read_apply]
  show V c (Pipeline.arrRef spec5 4) _ = V c (Pipeline.arrRef spec5 4) _
  congr 1
  funext a
  apply Fin.ext
  match a with
  | ⟨0, _⟩ => show win5_4.index t (0 : Fin 1) * 128 + 1 * (z 0).val = (z 0).val; rw [i0]; omega

/-- the head weight, -/
theorem whole5_5 (c : Dev nD) (t : Fin cfg5.N) (z : S128x64.Idx) :
    (iblk5 V c 5 t : FVec Ideal S128x64 .bf16) z = (V c (Pipeline.arrRef spec5 5) : FVec Ideal S128x64 .bf16) z := by
  obtain ⟨-, -, -, -, -, -, -, -, -, i0, i1, -⟩ := idx5 t
  unfold iblk5
  rw [View.read_apply]
  show V c (Pipeline.arrRef spec5 5) _ = V c (Pipeline.arrRef spec5 5) _
  congr 1
  funext a
  apply Fin.ext
  match a with
  | ⟨0, _⟩ => show win5_5.index t (0 : Fin 2) * 128 + 1 * (z 0).val = (z 0).val; rw [i0]; omega
  | ⟨1, _⟩ => show win5_5.index t (1 : Fin 2) * 64 + 1 * (z 1).val = (z 1).val; rw [i1]; omega

/-- and the head bias. -/
theorem whole5_6 (c : Dev nD) (t : Fin cfg5.N) (z : S64.Idx) :
    (iblk5 V c 6 t : FVec Ideal S64 .f32) z = (V c (Pipeline.arrRef spec5 6) : FVec Ideal S64 .f32) z := by
  obtain ⟨-, -, -, -, -, -, -, -, -, -, -, i0, -⟩ := idx5 t
  unfold iblk5
  rw [View.read_apply]
  show V c (Pipeline.arrRef spec5 6) _ = V c (Pipeline.arrRef spec5 6) _
  congr 1
  funext a
  apply Fin.ext
  match a with
  | ⟨0, _⟩ => show win5_6.index t (0 : Fin 1) * 64 + 1 * (z 0).val = (z 0).val; rw [i0]; omega

/-- What point `t` of call 5 writes back is block `t` of `headArr` of the arrays as the call finds them. -/
theorem flushed5_eq (c : Dev nD) (t : Fin cfg5.N) :
    (dat5 (F := Ideal) V c).flushed 7 t = ((cfg5.win 7).blk t).view.read (Elt Ideal)
      (headArr (n := 100000) (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (V c (Pipeline.arrRef spec5 6))) := by
  show (cfg5.win 7).cut (grid5.coords t) ((dat5 V c).after 7 t) = _
  rw [after5_7]
  unfold out5_7
  rw [View.canon_unit_zero off2]
  simp only [View.ld_unit_zero (S := S4000x128) off2, View.ld_unit_zero (S := S4000x1) off2, View.ld_unit_zero (S := S256x128) off2,
    View.ld_unit_zero (S := S128) off1, View.ld_unit_zero (S := S128x64) off2, View.ld_unit_zero (S := S64) off1]
  have i70 := (idx5 t).2.2.2.2.2.2.2.2.2.2.2.2.1
  have i71 := (idx5 t).2.2.2.2.2.2.2.2.2.2.2.2.2
  funext y
  have h0 : ((((cfg5.win 7).blk t).view.emb y) 0).val = t.val * 4000 + (y 0).val := by
    show win5_7.index t (0 : Fin 2) * 4000 + 1 * (y 0).val = _
    rw [i70]; omega
  have h1 : ((((cfg5.win 7).blk t).view.emb y) 1).val = (y 1).val := by
    show win5_7.index t (1 : Fin 2) * 64 + 1 * (y 1).val = _
    rw [i71]; omega
  exact (congrFun (pay5_eq (iblk5 V c 0 t) (iblk5 V c 1 t) (iblk5 V c 2 t) (iblk5 V c 3 t) (iblk5 V c 4 t) (iblk5 V c 5 t) (iblk5 V c 6 t)) y).trans
    (block_eq (n := 100000) (iblk5 V c 0 t) (iblk5 V c 1 t) (iblk5 V c 2 t) (iblk5 V c 3 t) (iblk5 V c 4 t) (iblk5 V c 5 t) (iblk5 V c 6 t)
      (V c (Pipeline.arrRef spec5 0)) (V c (Pipeline.arrRef spec5 1)) (V c (Pipeline.arrRef spec5 2))
      (V c (Pipeline.arrRef spec5 3)) (V c (Pipeline.arrRef spec5 4)) (V c (Pipeline.arrRef spec5 5)) (V c (Pipeline.arrRef spec5 6))
      y (((cfg5.win 7).blk t).view.emb y) h1
      (fun k => rows5_0 V c t _ _ h0 rfl) (rows5_1 V c t _ _ h0 rfl) (fun k => rows5_2 V c t _ _ h0 rfl)
      (whole5_3 V c t) (whole5_4 V c t) (whole5_5 V c t) (whole5_6 V c t))

/-- Every row of the output array lies in the block of the point its number divided by 4000 names. -/
theorem cover5 (i : S100000x64.Idx) : ∃ t : Fin cfg5.N, (cfg5.win 7).flush t = true ∧ i ∈ ((cfg5.win 7).blk t).view.set := by
  have hi0 : (i 0).val < 100000 := idx2_lt0 i
  have hi1 : (i 1).val < 64 := idx2_lt1 i
  have hN : cfg5.N = 25 := N_5
  obtain ⟨t, ht⟩ : ∃ t : Fin cfg5.N, t.val = (i 0).val / 4000 := ⟨⟨(i 0).val / 4000, by rw [hN]; omega⟩, rfl⟩
  have i70 := (idx5 t).2.2.2.2.2.2.2.2.2.2.2.2.1
  have i71 := (idx5 t).2.2.2.2.2.2.2.2.2.2.2.2.2
  refine ⟨t, flush5_7 t, ?_⟩
  show i ∈ ((View.whole main_v81).slice (win5_7.rect t)).set
  rw [View.set_slice_whole, Rect.mem_set_unit]
  intro a
  match a with
  | ⟨0, _⟩ =>
    show win5_7.index t (0 : Fin 2) * 4000 ≤ (i 0).val ∧ (i 0).val < win5_7.index t (0 : Fin 2) * 4000 + 4000
    rw [i70, ht]; omega
  | ⟨1, _⟩ =>
    show win5_7.index t (1 : Fin 2) * 64 ≤ (i 1).val ∧ (i 1).val < win5_7.index t (1 : Fin 2) * 64 + 64
    rw [i71]; omega

/-- So the array call 5 leaves is `headArr` of the arrays it finds. -/
theorem arr5 (c : Dev nD) : (dat5 (F := Ideal) V c).arrAt 7 cfg5.N
    = headArr (n := 100000) (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) (V c (Pipeline.arrRef spec5 6)) :=
  (dat5 (F := Ideal) V c).arrAt_eq_of_cover 7 _ (fun t _ => flushed5_eq V c t) cover5

/-- The same with the arrays named. -/
theorem arr5_of (c : Dev nD) (a0 : FVec Ideal S100000x128 .f32) (a1 : FVec Ideal S100000x1 .f32) (a2 : FVec Ideal S100000x128 .f32)
    (a3 : FVec Ideal S256x128 .bf16) (a4 : FVec Ideal S128 .f32) (a5 : FVec Ideal S128x64 .bf16) (a6 : FVec Ideal S64 .f32)
    (h0 : V c (Pipeline.arrRef spec5 0) = a0) (h1 : V c (Pipeline.arrRef spec5 1) = a1) (h2 : V c (Pipeline.arrRef spec5 2) = a2)
    (h3 : V c (Pipeline.arrRef spec5 3) = a3) (h4 : V c (Pipeline.arrRef spec5 4) = a4) (h5 : V c (Pipeline.arrRef spec5 5) = a5)
    (h6 : V c (Pipeline.arrRef spec5 6) = a6) :
    (dat5 (F := Ideal) V c).arrAt 7 cfg5.N = headArr (n := 100000) a0 a1 a2 a3 a4 a5 a6 := by
  subst h0 h1 h2 h3 h4 h5 h6
  exact arr5 V c

end Region5

end Head

namespace Head

section Target5

open Idealize.ShloMosaic.ValueIdx

/-! ## The target of call 5 read at an index, and the array the call leaves -/

theorem lhsU_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhsU_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhsU_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhsU_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The reference's (100000, 128) by (128, 128) product at an index: the plain sum over the 128 features. -/
theorem dotU_apply (x : FVec Ideal Cert.ReferenceIdeal.S100000x128 .f32) (w : FVec Ideal Cert.ReferenceIdeal.S128x128 .f32) (r : Fin 100000) (j : Fin 128) :
    Host.dotGeneral Cert.ReferenceIdeal.dot_S100000x128_S128x128_S100000x128_1_0_0_1_n_n none x w (ix2 r j) = ∑ k : Fin 128, x (ix2 r k) * w (ix2 k j) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r j) ((contrEquiv1 Cert.ReferenceIdeal.dot_S100000x128_S128x128_S100000x128_1_0_0_1_n_n 128 rfl rfl).symm k) = ix2 r k := funext fun a => Fin.ext (by
    match a with
    | ⟨0, _⟩ => exact lhsU_0 _ _
    | ⟨1, _⟩ => exact (lhsU_1 _ _).trans hk)
  have er : Cert.ReferenceIdeal.dot_S100000x128_S128x128_S100000x128_1_0_0_1_n_n.rhsIdx (ix2 r j) ((contrEquiv1 Cert.ReferenceIdeal.dot_S100000x128_S128x128_S100000x128_1_0_0_1_n_n 128 rfl rfl).symm k) = ix2 k j := funext fun a => Fin.ext (by
    match a with
    | ⟨0, _⟩ => exact (rhsU_0 _ _).trans hk
    | ⟨1, _⟩ => exact rhsU_1 _ _)
  rw [el, er]

theorem lhsUH_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
theorem lhsUH_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem rhsUH_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem rhsUH_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- The reference's head product, (100000, 128) by (128, 64), at an index. -/
theorem dotUH_apply (x : FVec Ideal Cert.ReferenceIdeal.S100000x128 .f32) (w : FVec Ideal Cert.ReferenceIdeal.S128x64 .f32) (r : Fin 100000) (j : Fin 64) :
    Host.dotGeneral Cert.ReferenceIdeal.dot_S100000x128_S128x64_S100000x64_1_0_0_1_n_n none x w (ix2 r j) = ∑ k : Fin 128, x (ix2 r k) * w (ix2 k j) := by
  simp only [Host.dotGeneral]
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r j) ((contrEquiv1 Cert.ReferenceIdeal.dot_S100000x128_S128x64_S100000x64_1_0_0_1_n_n 128 rfl rfl).symm k) = ix2 r k := funext fun a => Fin.ext (by
    match a with
    | ⟨0, _⟩ => exact lhsUH_0 _ _
    | ⟨1, _⟩ => exact (lhsUH_1 _ _).trans hk)
  have er : Cert.ReferenceIdeal.dot_S100000x128_S128x64_S100000x64_1_0_0_1_n_n.rhsIdx (ix2 r j) ((contrEquiv1 Cert.ReferenceIdeal.dot_S100000x128_S128x64_S100000x64_1_0_0_1_n_n 128 rfl rfl).symm k) = ix2 k j := funext fun a => Fin.ext (by
    match a with
    | ⟨0, _⟩ => exact (rhsUH_0 _ _).trans hk
    | ⟨1, _⟩ => exact rhsUH_1 _ _)
  rw [el, er]

/-- The reciprocal count the call receives, at row `q`. -/
theorem invCntU_apply (cnt : FVec Ideal S100000x1 .f32) (q : Fin 100000) :
    Cert.KSpec.invCntU (F := Ideal) cnt (ix2 q (0 : Fin 1))
      = Ideal.div (Ideal.ofBits .f32 0x3F800000#32) (max (cnt (ix2 q (0 : Fin 1))) (Ideal.ofBits .f32 0x3F800000#32)) := by
  unfold Cert.KSpec.invCntU
  rw [hostDivf_apply, maximumf_apply, broadcastInDim_scalar_apply, constant_apply]

/-- One feature of the reference's SAGE update of 100000 rows. -/
theorem sageU_apply (S : FVec Ideal S100000x128 .f32) (cnt : FVec Ideal S100000x1 .f32) (P : FVec Ideal S100000x128 .f32)
    (A B : FVec Ideal S128x128 .f32) (b : FVec Ideal S128 .f32) (q : Fin 100000) (j : Fin 128) :
    Cert.Spec.sageU (F := Ideal) S cnt P A B b (ix2 q j)
      = max (((∑ k : Fin 128, Ideal.div (S (ix2 q k)) (max (cnt (ix2 q (0 : Fin 1))) (Ideal.ofBits .f32 0x3F800000#32)) * A (ix2 j k))
          + b (ix1 j)) + ∑ k : Fin 128, P (ix2 q k) * B (ix2 j k)) (Ideal.ofBits .f32 0x00000000#32) := by
  unfold Cert.Spec.sageU Cert.Spec.meanU
  rw [maximumf_apply, addf_apply, addf_apply, dotU_apply, dotU_apply, bcast_row_rows, bcast_vec_row, broadcastInDim_scalar_apply,
    constant_apply]
  refine congrArg (fun z => max z (Ideal.ofBits .f32 0x00000000#32)) ?_
  refine congrArg₂ (· + ·) (congrArg (· + b (ix1 j)) (Finset.sum_congr rfl fun k _ => ?_)) (Finset.sum_congr rfl fun k _ => ?_)
  · rw [transpose_ix2_apply, hostDivf_apply, bcast_col_cols, maximumf_apply, broadcastInDim_scalar_apply, constant_apply]
  · rw [transpose_ix2_apply]

/-- The target of call 5 at an index. -/
theorem headU_apply (S : FVec Ideal S100000x128 .f32) (cnt : FVec Ideal S100000x1 .f32) (P : FVec Ideal S100000x128 .f32)
    (A B : FVec Ideal S128x128 .f32) (b : FVec Ideal S128 .f32) (Wo : FVec Ideal S64x128 .f32) (bo : FVec Ideal S64 .f32)
    (q : Fin 100000) (o : Fin 64) :
    Cert.Spec.headU (F := Ideal) S cnt P A B b Wo bo (ix2 q o)
      = (∑ j : Fin 128, Cert.Spec.sageU (F := Ideal) S cnt P A B b (ix2 q j) * Wo (ix2 o j)) + bo (ix1 o) := by
  unfold Cert.Spec.headU
  rw [addf_apply, dotUH_apply, bcast_row_rows, bcast_vec_row]
  refine congrArg (· + bo (ix1 o)) (Finset.sum_congr rfl fun j _ => ?_)
  rw [transpose_ix2_apply]

/-- `headArr` of the arrays in the forms the kernel program hands them to call 5 is the target. -/
theorem headArr_eq_headU (S : FVec Ideal S100000x128 .f32) (cnt : FVec Ideal S100000x1 .f32) (P : FVec Ideal S100000x128 .f32)
    (A B : FVec Ideal S128x128 .f32) (b : FVec Ideal S128 .f32) (Wo : FVec Ideal S64x128 .f32) (bo : FVec Ideal S64 .f32) :
    headArr (n := 100000) S (Cert.KSpec.invCntU (F := Ideal) cnt) P (Cert.KSpec.wcat (F := Ideal) A B) b (Cert.KSpec.wtO (F := Ideal) Wo) bo
      = Cert.Spec.headU (F := Ideal) S cnt P A B b Wo bo := by
  funext i
  obtain ⟨q, o, rfl⟩ : ∃ (q : Fin 100000) (o : Fin 64), i = ix2 q o := ⟨i 0, i 1, eq_ix2 i⟩
  rw [headU_apply]
  show headRow (fun k => S (ix2 q k)) (Cert.KSpec.invCntU (F := Ideal) cnt (ix2 q (0 : Fin 1))) (fun k => P (ix2 q k))
    (Cert.KSpec.wcat (F := Ideal) A B) b (Cert.KSpec.wtO (F := Ideal) Wo) bo o = _
  unfold headRow
  rw [invCntU_apply]
  refine congrArg (· + bo (ix1 o)) (Finset.sum_congr rfl fun j _ => ?_)
  rw [wtO_apply, sageU_apply]
  simp only [wcat_left, wcat_right]
  rw [feature_law]

end Target5

end Head

/- the TensorCore's buffer contents when the region is entered, at the extended reals -/
variable (V : (c : Dev nD) → (b : Ref sig .tc) → Buf (Elt Ideal) ((c : Thread nD τ).loc b))

/-- Call 4 (problems, layer 2 and head, 5 blocks): the output array, as a function of the arrays the call reads. -/
theorem region4_value (c : Dev nD) (S : FVec Ideal S20000x128 .f32) (cnt : FVec Ideal S20000x1 .f32) (P : FVec Ideal S20000x128 .f32) (A B : FVec Ideal S128x128 .f32) (b : FVec Ideal S128 .f32) (Wo : FVec Ideal S64x128 .f32) (bo : FVec Ideal S64 .f32)
    (h0 : V c (Pipeline.arrRef spec4 0) = S) (h1 : V c (Pipeline.arrRef spec4 1) = Cert.KSpec.invCntP cnt)
    (h2 : V c (Pipeline.arrRef spec4 2) = P) (h3 : V c (Pipeline.arrRef spec4 3) = Cert.KSpec.wcat A B)
    (h4 : V c (Pipeline.arrRef spec4 4) = b) (h5 : V c (Pipeline.arrRef spec4 5) = Cert.KSpec.wtO Wo)
    (h6 : V c (Pipeline.arrRef spec4 6) = bo) :
    (dat4 (F := Ideal) V c).arrAt 7 cfg4.N = Cert.Spec.headP S cnt P A B b Wo bo := by
  exact (Head.arr4_of V c S (Cert.KSpec.invCntP (F := Ideal) cnt) P (Cert.KSpec.wcat (F := Ideal) A B) b (Cert.KSpec.wtO (F := Ideal) Wo) bo
    h0 h1 h2 h3 h4 h5 h6).trans (Head.headArr_eq_headP S cnt P A B b Wo bo)

/-- Call 5 (users, layer 2 and head, 25 blocks): the output array, as a function of the arrays the call reads. -/
theorem region5_value (c : Dev nD) (S : FVec Ideal S100000x128 .f32) (cnt : FVec Ideal S100000x1 .f32) (P : FVec Ideal S100000x128 .f32) (A B : FVec Ideal S128x128 .f32) (b : FVec Ideal S128 .f32) (Wo : FVec Ideal S64x128 .f32) (bo : FVec Ideal S64 .f32)
    (h0 : V c (Pipeline.arrRef spec5 0) = S) (h1 : V c (Pipeline.arrRef spec5 1) = Cert.KSpec.invCntU cnt)
    (h2 : V c (Pipeline.arrRef spec5 2) = P) (h3 : V c (Pipeline.arrRef spec5 3) = Cert.KSpec.wcat A B)
    (h4 : V c (Pipeline.arrRef spec5 4) = b) (h5 : V c (Pipeline.arrRef spec5 5) = Cert.KSpec.wtO Wo)
    (h6 : V c (Pipeline.arrRef spec5 6) = bo) :
    (dat5 (F := Ideal) V c).arrAt 7 cfg5.N = Cert.Spec.headU S cnt P A B b Wo bo := by
  exact (Head.arr5_of V c S (Cert.KSpec.invCntU (F := Ideal) cnt) P (Cert.KSpec.wcat (F := Ideal) A B) b (Cert.KSpec.wtO (F := Ideal) Wo) bo
    h0 h1 h2 h3 h4 h5 h6).trans (Head.headArr_eq_headU S cnt P A B b Wo bo)

end Cert.Bridge

end
-- ==== Proof.Chain2.lean ====
/-
  The second layer closed: at call 3's exit everything the second layer reads is known (the first layer's module); the entry
  contents of calls 4 and 5, read back through the host operations to that exit, are the segment sums of the first-layer
  features, the counts, the second slices of the weights and the transposed head weights; so the two result buffers end at the
  named functions of the launch memory.
-/
import proofs.«414659_j2095944040611_3_alg».proof.Proof.Chain1
import proofs.«414659_j2095944040611_3_alg».proof.Proof.ChainB
import proofs.«414659_j2095944040611_3_alg».proof.Proof.ChainT
import proofs.«414659_j2095944040611_3_alg».proof.Proof.RegHead

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Cert.KSpec (ld kU0 kP0 kP1 kU1 kOutP kOutU cntRawP cntRawU segP segU slice0 slice1 sliceb0 sliceb1 takeU takeP startIdxU startIdxP invCntP invCntU wcat wtU wtP wtO)

variable (m : (ℓ : Loc nD τ sig) → Buf (Elt Ideal) ℓ) (ρ : Dev nD → PrngReg) (c : Dev nD)

/-- The problems' result after call 4. -/
theorem W16_p (hU : ∀ e : S600000.Idx, 0 ≤ ((Cert.KSpec.ld m c main_arg2) e).toInt ∧ ((Cert.KSpec.ld m c main_arg2) e).toInt ≤ 99999) (hP : ∀ e : S600000.Idx, 0 ≤ ((Cert.KSpec.ld m c main_arg4) e).toInt ∧ ((Cert.KSpec.ld m c main_arg4) e).toInt ≤ 19999) : W16 m ρ c (Proc.devRef .tc main_v78) = kOutP m c := by
  refine (W16_arr m ρ c 7).trans ?_
  unfold Cert.KSpec.kOutP
  refine region4_value (V15 m ρ) c _ _ _ _ _ _ _ _ ?_ ?_ ?_ ?_ ?_ ?_ ?_
  · exact (V15_S m ρ c).trans (by rw [W11_a3, W11_u m ρ c hP, W11_a2, Cert.KSpec.takeU_eq _ _ hU])
  · exact (V15_inv m ρ c).trans (W11_invP m ρ c)
  · exact (V15_root m ρ c).trans (W11_p m ρ c hU)
  · exact (V15_wcat m ρ c).trans (by rw [W11_a10, W11_a12])
  · exact (V15_b m ρ c).trans (by rw [W11_a11])
  · exact (V15_wo m ρ c).trans (by rw [W11_a18])
  · exact (V15_bo m ρ c).trans (W11_a19 m ρ c)

/-- The users' result after call 5, the last segment. -/
theorem W18_u (hU : ∀ e : S600000.Idx, 0 ≤ ((Cert.KSpec.ld m c main_arg2) e).toInt ∧ ((Cert.KSpec.ld m c main_arg2) e).toInt ≤ 99999) (hP : ∀ e : S600000.Idx, 0 ≤ ((Cert.KSpec.ld m c main_arg4) e).toInt ∧ ((Cert.KSpec.ld m c main_arg4) e).toInt ≤ 19999) : W18 m ρ c (Proc.devRef .tc main_v81) = kOutU m c := by
  refine (W18_arr m ρ c 7).trans ?_
  unfold Cert.KSpec.kOutU
  refine region5_value (V17 m ρ) c _ _ _ _ _ _ _ _ ?_ ?_ ?_ ?_ ?_ ?_ ?_
  · exact (V17_S m ρ c).trans ((W16_sumU m ρ c).trans (by rw [W11_a5, W11_p m ρ c hU, W11_a4, Cert.KSpec.takeP_eq _ _ hP]))
  · exact (V17_inv m ρ c).trans ((W16_invU m ρ c).trans (W11_invU m ρ c))
  · exact (V17_root m ρ c).trans ((W16_u m ρ c).trans (W11_u m ρ c hP))
  · exact (V17_wcat m ρ c).trans ((W16_wcatU m ρ c).trans (by rw [W11_a13, W11_a15]))
  · exact (V17_b m ρ c).trans (by rw [W16_a14, W11_a14])
  · exact (V17_wo m ρ c).trans ((W16_wo m ρ c).trans (by rw [W11_a16]))
  · exact (V17_bo m ρ c).trans ((W16_a17 m ρ c).trans (W11_a17 m ρ c))

/-- The problems' result is still there after call 5. -/
theorem W18_p (hU : ∀ e : S600000.Idx, 0 ≤ ((Cert.KSpec.ld m c main_arg2) e).toInt ∧ ((Cert.KSpec.ld m c main_arg2) e).toInt ≤ 99999) (hP : ∀ e : S600000.Idx, 0 ≤ ((Cert.KSpec.ld m c main_arg4) e).toInt ∧ ((Cert.KSpec.ld m c main_arg4) e).toInt ≤ 19999) : W18 m ρ c (Proc.devRef .tc main_v78) = kOutP m c :=
  (W18_of_W16 m ρ c main_v78 (by decide) (List.forall_iff_forall_mem.mp (by
      simp only [hostOps5, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W16_p m ρ c hU hP)

end Cert.Bridge

end
-- ==== Proof.SpecTies.lean ====
/-
  The reference program's stages, read one operation at a time, are the bridge's target functions applied to earlier stages:
  each equation holds by unfolding the stage definitions.
-/
import proofs.«414659_j2095944040611_3_alg».proof.Proof.Spec
import proofs.«414659_j2095944040611_3_alg».proof.Proof.Gen.ReferenceIdeal.Read

noncomputable section

namespace Cert.Spec

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem linU_stage (x0 : (⟨S100000x256, .f32⟩ : BufTy).Contents (Elt F)) (x6 : (⟨S128x256, .f32⟩ : BufTy).Contents (Elt F)) (x7 : (⟨S128, .f32⟩ : BufTy).Contents (Elt F)) :
    linU x0 x6 x7 = val_main_v4 (F := F) x0 x6 x7 := rfl

theorem linP_stage (x1 : (⟨S20000x128, .f32⟩ : BufTy).Contents (Elt F)) (x8 : (⟨S128x128, .f32⟩ : BufTy).Contents (Elt F)) (x9 : (⟨S128, .f32⟩ : BufTy).Contents (Elt F)) :
    linP x1 x8 x9 = val_main_v9 (F := F) x1 x8 x9 := rfl

theorem sageP_layer1 (x0 : (⟨S100000x256, .f32⟩ : BufTy).Contents (Elt F)) (x1 : (⟨S20000x128, .f32⟩ : BufTy).Contents (Elt F)) (x2 x3 : (⟨S600000, .i32⟩ : BufTy).Contents (Elt F)) (x6 : (⟨S128x256, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S2x128x128, .f32⟩ : BufTy).Contents (Elt F)) (x11 : (⟨S2x128, .f32⟩ : BufTy).Contents (Elt F)) (x12 : (⟨S2x128x128, .f32⟩ : BufTy).Contents (Elt F)) :
    sageP (val_main_v19 (F := F) x0 x2 x3 x6 x7) (val_main_v23 (F := F) x3) (val_main_v9 (F := F) x1 x8 x9) (val_main_v47 (F := F) x10) (val_main_v56 (F := F) x12) (val_main_v51 (F := F) x11)
      = val_main_v75 (F := F) x0 x1 x2 x3 x6 x7 x8 x9 x10 x11 x12 := rfl

theorem sageU_layer1 (x0 : (⟨S100000x256, .f32⟩ : BufTy).Contents (Elt F)) (x1 : (⟨S20000x128, .f32⟩ : BufTy).Contents (Elt F)) (x4 x5 : (⟨S600000, .i32⟩ : BufTy).Contents (Elt F)) (x6 : (⟨S128x256, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x13 : (⟨S2x128x128, .f32⟩ : BufTy).Contents (Elt F)) (x14 : (⟨S2x128, .f32⟩ : BufTy).Contents (Elt F)) (x15 : (⟨S2x128x128, .f32⟩ : BufTy).Contents (Elt F)) :
    sageU (val_main_v37 (F := F) x1 x4 x5 x8 x9) (val_main_v41 (F := F) x5) (val_main_v4 (F := F) x0 x6 x7) (val_main_v61 (F := F) x13) (val_main_v70 (F := F) x15) (val_main_v65 (F := F) x14)
      = val_main_v74 (F := F) x0 x1 x4 x5 x6 x7 x8 x9 x13 x14 x15 := rfl

theorem headP_layer2 (x0 : (⟨S100000x256, .f32⟩ : BufTy).Contents (Elt F)) (x1 : (⟨S20000x128, .f32⟩ : BufTy).Contents (Elt F)) (x2 x3 x4 x5 : (⟨S600000, .i32⟩ : BufTy).Contents (Elt F)) (x6 : (⟨S128x256, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S2x128x128, .f32⟩ : BufTy).Contents (Elt F)) (x11 : (⟨S2x128, .f32⟩ : BufTy).Contents (Elt F)) (x12 x13 : (⟨S2x128x128, .f32⟩ : BufTy).Contents (Elt F)) (x14 : (⟨S2x128, .f32⟩ : BufTy).Contents (Elt F)) (x15 : (⟨S2x128x128, .f32⟩ : BufTy).Contents (Elt F)) (x18 : (⟨S64x128, .f32⟩ : BufTy).Contents (Elt F)) (x19 : (⟨S64, .f32⟩ : BufTy).Contents (Elt F)) :
    headP (val_main_v85 (F := F) x0 x1 x2 x3 x4 x5 x6 x7 x8 x9 x13 x14 x15) (val_main_v89 (F := F) x3) (val_main_v75 (F := F) x0 x1 x2 x3 x6 x7 x8 x9 x10 x11 x12) (val_main_v113 (F := F) x10) (val_main_v122 (F := F) x12) (val_main_v117 (F := F) x11) x18 x19
      = val_main_v151 (F := F) x0 x1 x2 x3 x4 x5 x6 x7 x8 x9 x10 x11 x12 x13 x14 x15 x18 x19 := rfl

theorem headU_layer2 (x0 : (⟨S100000x256, .f32⟩ : BufTy).Contents (Elt F)) (x1 : (⟨S20000x128, .f32⟩ : BufTy).Contents (Elt F)) (x2 x3 x4 x5 : (⟨S600000, .i32⟩ : BufTy).Contents (Elt F)) (x6 : (⟨S128x256, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S2x128x128, .f32⟩ : BufTy).Contents (Elt F)) (x11 : (⟨S2x128, .f32⟩ : BufTy).Contents (Elt F)) (x12 x13 : (⟨S2x128x128, .f32⟩ : BufTy).Contents (Elt F)) (x14 : (⟨S2x128, .f32⟩ : BufTy).Contents (Elt F)) (x15 : (⟨S2x128x128, .f32⟩ : BufTy).Contents (Elt F)) (x16 : (⟨S64x128, .f32⟩ : BufTy).Contents (Elt F)) (x17 : (⟨S64, .f32⟩ : BufTy).Contents (Elt F)) :
    headU (val_main_v103 (F := F) x0 x1 x2 x3 x4 x5 x6 x7 x8 x9 x10 x11 x12) (val_main_v107 (F := F) x5) (val_main_v74 (F := F) x0 x1 x4 x5 x6 x7 x8 x9 x13 x14 x15) (val_main_v127 (F := F) x13) (val_main_v136 (F := F) x15) (val_main_v131 (F := F) x14) x16 x17
      = val_main_v146 (F := F) x0 x1 x2 x3 x4 x5 x6 x7 x8 x9 x10 x11 x12 x13 x14 x15 x16 x17 := rfl

end Cert.Spec

end
-- ==== Proof.Bridge.lean ====
/-
  The named functions of the launch memory at which the kernel program's two result buffers end are the reference program's
  two last stages, read one operation at a time, of the same argument arrays: stage by stage the reference applies the bridge's
  target functions to its earlier stages, and the segment sums, counts, weight slices and gathers between them are the same
  host operations in both programs.
-/
import proofs.«414659_j2095944040611_3_alg».proof.Proof.Vals
import proofs.«414659_j2095944040611_3_alg».proof.Proof.SpecTies

set_option maxRecDepth 16384

noncomputable section

namespace Cert.Bridge

open Idealize.ShloMosaic Idealize.ShloMosaic.TcCoe Idealize.SL.Sem
open Cert.ReferenceIdeal.Read

variable {F : FTy → Type} [FloatOps F]
variable (m : (ℓ : Loc Cert.KernelIdeal.nD Cert.KernelIdeal.τ Cert.KernelIdeal.sig) → Buf (Elt F) ℓ) (c : Dev Cert.KernelIdeal.nD)

/-- The user projection is the reference's. -/
theorem kU0_eq : Cert.KSpec.kU0 m c = val_main_v4 (F := F) (Cert.KSpec.ld m c Cert.KernelIdeal.main_arg0) (Cert.KSpec.ld m c Cert.KernelIdeal.main_arg6) (Cert.KSpec.ld m c Cert.KernelIdeal.main_arg7) := rfl
/-- The problem projection is the reference's. -/
theorem kP0_eq : Cert.KSpec.kP0 m c = val_main_v9 (F := F) (Cert.KSpec.ld m c Cert.KernelIdeal.main_arg1) (Cert.KSpec.ld m c Cert.KernelIdeal.main_arg8) (Cert.KSpec.ld m c Cert.KernelIdeal.main_arg9) := rfl

/-- The first layer's problem features are the reference's. -/
theorem kP1_eq : Cert.KSpec.kP1 m c = val_main_v75 (F := F) (Cert.KSpec.ld m c Cert.KernelIdeal.main_arg0) (Cert.KSpec.ld m c Cert.KernelIdeal.main_arg1) (Cert.KSpec.ld m c Cert.KernelIdeal.main_arg2) (Cert.KSpec.ld m c Cert.KernelIdeal.main_arg3) (Cert.KSpec.ld m c Cert.KernelIdeal.main_arg6) (Cert.KSpec.ld m c Cert.KernelIdeal.main_arg7) (Cert.KSpec.ld m c Cert.KernelIdeal.main_arg8) (Cert.KSpec.ld m c Cert.KernelIdeal.main_arg9) (Cert.KSpec.ld m c Cert.KernelIdeal.main_arg10) (Cert.KSpec.ld m c Cert.KernelIdeal.main_arg11) (Cert.KSpec.ld m c Cert.KernelIdeal.main_arg12) := by
  unfold Cert.KSpec.kP1
  rw [kU0_eq, kP0_eq]
  exact Cert.Spec.sageP_layer1 _ _ _ _ _ _ _ _ _ _ _

/-- The first layer's user features are the reference's. -/
theorem kU1_eq : Cert.KSpec.kU1 m c = val_main_v74 (F := F) (Cert.KSpec.ld m c Cert.KernelIdeal.main_arg0) (Cert.KSpec.ld m c Cert.KernelIdeal.main_arg1) (Cert.KSpec.ld m c Cert.KernelIdeal.main_arg4) (Cert.KSpec.ld m c Cert.KernelIdeal.main_arg5) (Cert.KSpec.ld m c Cert.KernelIdeal.main_arg6) (Cert.KSpec.ld m c Cert.KernelIdeal.main_arg7) (Cert.KSpec.ld m c Cert.KernelIdeal.main_arg8) (Cert.KSpec.ld m c Cert.KernelIdeal.main_arg9) (Cert.KSpec.ld m c Cert.KernelIdeal.main_arg13) (Cert.KSpec.ld m c Cert.KernelIdeal.main_arg14) (Cert.KSpec.ld m c Cert.KernelIdeal.main_arg15) := by
  unfold Cert.KSpec.kU1
  rw [kU0_eq, kP0_eq]
  exact Cert.Spec.sageU_layer1 _ _ _ _ _ _ _ _ _ _ _

/-- The problems' result is the reference's second result. -/
theorem kOutP_eq : Cert.KSpec.kOutP m c = val_main_v151 (F := F) (Cert.KSpec.ld m c Cert.KernelIdeal.main_arg0) (Cert.KSpec.ld m c Cert.KernelIdeal.main_arg1) (Cert.KSpec.ld m c Cert.KernelIdeal.main_arg2) (Cert.KSpec.ld m c Cert.KernelIdeal.main_arg3) (Cert.KSpec.ld m c Cert.KernelIdeal.main_arg4) (Cert.KSpec.ld m c Cert.KernelIdeal.main_arg5) (Cert.KSpec.ld m c Cert.KernelIdeal.main_arg6) (Cert.KSpec.ld m c Cert.KernelIdeal.main_arg7) (Cert.KSpec.ld m c Cert.KernelIdeal.main_arg8) (Cert.KSpec.ld m c Cert.KernelIdeal.main_arg9) (Cert.KSpec.ld m c Cert.KernelIdeal.main_arg10) (Cert.KSpec.ld m c Cert.KernelIdeal.main_arg11) (Cert.KSpec.ld m c Cert.KernelIdeal.main_arg12) (Cert.KSpec.ld m c Cert.KernelIdeal.main_arg13) (Cert.KSpec.ld m c Cert.KernelIdeal.main_arg14) (Cert.KSpec.ld m c Cert.KernelIdeal.main_arg15) (Cert.KSpec.ld m c Cert.KernelIdeal.main_arg18) (Cert.KSpec.ld m c Cert.KernelIdeal.main_arg19) := by
  unfold Cert.KSpec.kOutP
  rw [kU1_eq, kP1_eq]
  exact Cert.Spec.headP_layer2 _ _ _ _ _ _ _ _ _ _ _ _ _ _ _ _ _ _

/-- The users' result is the reference's first result. -/
theorem kOutU_eq : Cert.KSpec.kOutU m c = val_main_v146 (F := F) (Cert.KSpec.ld m c Cert.KernelIdeal.main_arg0) (Cert.KSpec.ld m c Cert.KernelIdeal.main_arg1) (Cert.KSpec.ld m c Cert.KernelIdeal.main_arg2) (Cert.KSpec.ld m c Cert.KernelIdeal.main_arg3) (Cert.KSpec.ld m c Cert.KernelIdeal.main_arg4) (Cert.KSpec.ld m c Cert.KernelIdeal.main_arg5) (Cert.KSpec.ld m c Cert.KernelIdeal.main_arg6) (Cert.KSpec.ld m c Cert.KernelIdeal.main_arg7) (Cert.KSpec.ld m c Cert.KernelIdeal.main_arg8) (Cert.KSpec.ld m c Cert.KernelIdeal.main_arg9) (Cert.KSpec.ld m c Cert.KernelIdeal.main_arg10) (Cert.KSpec.ld m c Cert.KernelIdeal.main_arg11) (Cert.KSpec.ld m c Cert.KernelIdeal.main_arg12) (Cert.KSpec.ld m c Cert.KernelIdeal.main_arg13) (Cert.KSpec.ld m c Cert.KernelIdeal.main_arg14) (Cert.KSpec.ld m c Cert.KernelIdeal.main_arg15) (Cert.KSpec.ld m c Cert.KernelIdeal.main_arg16) (Cert.KSpec.ld m c Cert.KernelIdeal.main_arg17) := by
  unfold Cert.KSpec.kOutU
  rw [kU1_eq, kP1_eq]
  exact Cert.Spec.headU_layer2 _ _ _ _ _ _ _ _ _ _ _ _ _ _ _ _ _ _

end Cert.Bridge

end
-- ==== Proof.lean ====
/-
  A two-layer heterogeneous SAGE graph network (users and problems, 600000 edges each way) computed by six kernel calls — two
  input projections x · Wᵀ + b, two first-layer updates relu (mean · Aᵀ + b + root · Bᵀ), two second-layer updates with an
  output head fused in — against the plain array program, on the extended reals.
  The two programs differ in four ways, none of which changes a value there. The kernel narrows its matrix operands to a
  shorter float format: a change of format is the identity. It multiplies the neighbour sum by 1 / max(count, 1) where the
  reference divides by max(count, 1): the divisor is at least one, never zero, and then x · (1 · y⁻¹) = x · y⁻¹. It joins the
  mean and the root rows along the feature axis and multiplies once by the joined weights where the reference multiplies
  twice and adds: a sum over 256 features is the sum over the first 128 plus the sum over the last 128, and extended-real
  addition is commutative and associative. And it gathers source rows with a guard that fills a row with not-a-number where
  the index is outside the table, where the reference gathers without one: the precondition says every source index lies in
  its table, so the guard never fires. The counts, the segment sums and the weight slices are the same host operations in
  both programs.
  The kernel program's run is its generated frame's launch with the two result buffers read out as well; the buffers are
  followed from the launch memory through every host stretch and every call to the results; the reference's run and its
  stage-by-stage reading are generated. The frames are the generated ones; nothing was idealized beyond format changes, so
  the kernel and its idealization differ by no recorded rewrite.
-/
import proofs.«414659_j2095944040611_3_alg».proof.Defs
import proofs.«414659_j2095944040611_3_alg».proof.Proof.Gen.Kernel
import proofs.«414659_j2095944040611_3_alg».proof.Proof.Gen.Kernel.Skeleton
import proofs.«414659_j2095944040611_3_alg».proof.Proof.Gen.Kernel.Launch
import proofs.«414659_j2095944040611_3_alg».proof.Proof.Gen.Kernel.Points
import proofs.«414659_j2095944040611_3_alg».proof.Proof.Gen.Kernel.Frame
import proofs.«414659_j2095944040611_3_alg».proof.Proof.Gen.KernelIdeal
import proofs.«414659_j2095944040611_3_alg».proof.Proof.Gen.KernelIdeal.Skeleton
import proofs.«414659_j2095944040611_3_alg».proof.Proof.Gen.KernelIdeal.Launch
import proofs.«414659_j2095944040611_3_alg».proof.Proof.Gen.KernelIdeal.Points
import proofs.«414659_j2095944040611_3_alg».proof.Proof.Gen.KernelIdeal.Frame
import proofs.«414659_j2095944040611_3_alg».proof.Proof.Gen.ReferenceIdeal
import proofs.«414659_j2095944040611_3_alg».proof.Proof.Gen.ReferenceIdeal.Run
import proofs.«414659_j2095944040611_3_alg».proof.Proof.Gen.ReferenceIdeal.Read
import proofs.«414659_j2095944040611_3_alg».proof.Proof.Gen.Pre_finite_inputs
import proofs.«414659_j2095944040611_3_alg».proof.Proof.KRun
import proofs.«414659_j2095944040611_3_alg».proof.Proof.Take
import proofs.«414659_j2095944040611_3_alg».proof.Proof.Chain2
import proofs.«414659_j2095944040611_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the reference's two last stages of the argument arrays: the kernel program because its result
    buffers end at the named functions of the launch memory, which are those stages; the reference by its run, its arguments
    being the kernel's. -/
theorem algebraic : Cert.algebraic_KernelIdeal_ReferenceIdeal := by
  intro m ρ m' ρ' hpre hagree
  refine ⟨fun c => Cert.ReferenceIdeal.Read.val_main_v146 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.ReferenceIdeal.Read.val_main_v151 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · refine (θ_run Cert.KernelIdeal.defs _ _).mono (fun r h c => ?_) (Cert.KernelIdeal.KRun.run (F := Ideal) m ρ)
    obtain ⟨hU, hP⟩ := Cert.KSpec.idx_ranges_of_pre m hpre c
    exact ⟨(h c).1.trans ((Cert.Bridge.W18_u m ρ c hU hP).trans (Cert.Bridge.kOutU_eq m c)),
      (h c).2.1.trans ((Cert.Bridge.W18_p m ρ c hU hP).trans (Cert.Bridge.kOutP_eq m c)), (h c).2.2⟩
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15, e16, e17, e18, e19⟩ := hagree c
    refine ⟨(h c).1.trans ((Cert.ReferenceIdeal.Read.val_main_v146_eq m' c).trans ?_),
      (h c).2.1.trans ((Cert.ReferenceIdeal.Read.val_main_v151_eq m' c).trans ?_), (h c).2.2⟩
    · rw [e0, e1, e2, e3, e4, e5, e6, e7, e8, e9, e10, e11, e12, e13, e14, e15, e16, e17]
    · rw [e0, e1, e2, e3, e4, e5, e6, e7, e8, e9, e10, e11, e12, e13, e14, e15, e18, e19]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
